-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024 : Shape := ⟨2, ![256, 1024]⟩
abbrev S1024x128x16 : Shape := ⟨3, ![1024, 128, 16]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1024x128x16 : S_.BroadcastsInDim S1024x128x16 (![] : Fin 0 → Fin S1024x128x16.rank)
  reducesTo_S1024x128x16_S_d0_1_2 : S1024x128x16.ReducesTo [0, 1, 2] S_

variable [Facts]

def fn {F : FTy → Type} [FloatOps F] (main_arg0 : FVec F S256x1024 .f32) (main_arg1 : FVec F S1024x128x16 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1024x128x16 .f32 := Host.absf main_arg1
  let main_cst_0 : FVec F S_ .f32 := constant S_ .f32 0x7F800000#32
  let main_v5 : FVec F S1024x128x16 .f32 := broadcastInDim S1024x128x16 ![] bcast_S_S1024x128x16 main_cst_0
  let main_v6 : IVec S1024x128x16 1 := cmpf .olt main_v4 main_v5
  let main_c_1 : IVec S_ 1 := constantI S_ 1 1#1
  let main_v7 : IVec S_ 1 := (fun x v => Host.reduce IntOp.andi x v reducesTo_S1024x128x16_S_d0_1_2 h_S_) main_v6 main_c_1
  let main_v8 : IVec S_ 1 := andi main_v3 main_v7
  main_v8
-- ==== Kernel.lean ====
abbrev S256x1024 : Shape := ⟨2, ![256, 1024]⟩
abbrev S1024x128x16 : Shape := ⟨3, ![1024, 128, 16]⟩
abbrev S1024x2048 : Shape := ⟨2, ![1024, 2048]⟩
abbrev S256x2048 : Shape := ⟨2, ![256, 2048]⟩
abbrev S128x1024 : Shape := ⟨2, ![128, 1024]⟩
abbrev S128x2048 : Shape := ⟨2, ![128, 2048]⟩
abbrev S256x128x16 : Shape := ⟨3, ![256, 128, 16]⟩
abbrev S256x128 : Shape := ⟨2, ![256, 128]⟩
abbrev S64x128x16 : Shape := ⟨3, ![64, 128, 16]⟩
abbrev S64x128 : Shape := ⟨2, ![64, 128]⟩
abbrev S64x64x128 : Shape := ⟨3, ![64, 64, 128]⟩
abbrev S64x128x1 : Shape := ⟨3, ![64, 128, 1]⟩
abbrev S64x1x128 : Shape := ⟨3, ![64, 1, 128]⟩
abbrev S1x64x128 : Shape := ⟨3, ![1, 64, 128]⟩
abbrev S64x64 : Shape := ⟨2, ![64, 64]⟩
abbrev S64x64x1 : Shape := ⟨3, ![64, 64, 1]⟩
abbrev S256x1152 : Shape := ⟨2, ![256, 1152]⟩

abbrev nBuf : Space → Nat
  | .hbm => 9
  | .vmem => 12
  | .smem => 0
  | _ => 0

abbrev bufTy : (tb : Table) → Fin (tcTables nBuf tb) → BufTy
  | .hbm, ⟨0, _⟩ => ⟨S256x1024, .f32⟩
  | .hbm, ⟨1, _⟩ => ⟨S1024x128x16, .f32⟩
  | .hbm, ⟨2, _⟩ => ⟨S1024x2048, .f32⟩
  | .hbm, ⟨3, _⟩ => ⟨S1024x2048, .bf16⟩
  | .hbm, ⟨4, _⟩ => ⟨S256x1024, .bf16⟩
  | .hbm, ⟨5, _⟩ => ⟨S256x2048, .f32⟩
  | .hbm, ⟨6, _⟩ => ⟨S256x128x16, .f32⟩
  | .hbm, ⟨7, _⟩ => ⟨S256x128, .f32⟩
  | .hbm, ⟨8, _⟩ => ⟨S256x1152, .f32⟩
  | .local _ .vmem, ⟨0, _⟩ => ⟨S128x1024, .bf16⟩
  | .local _ .vmem, ⟨1, _⟩ => ⟨S128x1024, .bf16⟩
  | .local _ .vmem, ⟨2, _⟩ => ⟨S1024x2048, .bf16⟩
  | .local _ .vmem, ⟨3, _⟩ => ⟨S128x2048, .f32⟩
  | .local _ .vmem, ⟨4, _⟩ => ⟨S128x2048, .f32⟩
  | .local _ .vmem, ⟨5, _⟩ => ⟨S64x128x16, .f32⟩
  | .local _ .vmem, ⟨6, _⟩ => ⟨S64x128x16, .f32⟩
  | .local _ .vmem, ⟨7, _⟩ => ⟨S64x128x16, .f32⟩
  | .local _ .vmem, ⟨8, _⟩ => ⟨S64x128x16, .f32⟩
  | .local _ .vmem, ⟨9, _⟩ => ⟨S64x128, .f32⟩
  | .local _ .vmem, ⟨10, _⟩ => ⟨S64x128, .f32⟩
  | .local _ .vmem, ⟨11, _⟩ => ⟨S64x128, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v207 : BitVec 1 := Scalar.cmpi .eq arg1 c3_i32
  let v208 : BitVec 32 := Scalar.extui v207
  let c0_i32_13 : BitVec 32 := 0#32
  let v209 : BitVec 1 := Scalar.cmpi .ne v208 c0_i32_13
  v209

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S64x128x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S64x128x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S64x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S1024x128x16_S1024x2048 : S1024x128x16.ShapeCasts S1024x2048
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S128x2048_S128x2048_0_0 : ∀ a, (![0, 0] : Fin 2 → Nat) a + S128x2048.size a ≤ S128x2048.size a
  h_S128x2048 : 0 < S128x2048.numel
  shapeCasts_S256x2048_S256x128x16 : S256x2048.ShapeCasts S256x128x16
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x128x16_S64x128x16_0_0_0 : ∀ a, (![0, 0, 0] : Fin 3 → Nat) a + S64x128x16.size a ≤ S64x128x16.size a
  h_S64x128x16 : 0 < S64x128x16.numel
  shapeCasts_S64x128x16_S64x128x16 : S64x128x16.ShapeCasts S64x128x16
  slices_S64x128x16_o0_0_0_S64x128x1 : S64x128x16.Slices ![0, 0, 0] S64x128x1
  shapeCasts_S64x128x1_S64x128 : S64x128x1.ShapeCasts S64x128
  shapeCasts_S64x128_S64x1x128 : S64x128.ShapeCasts S64x1x128
  shapeCasts_S64x128_S1x64x128 : S64x128.ShapeCasts S1x64x128
  broadcasts_S64x1x128_S64x64x128 : S64x1x128.Broadcasts S64x64x128
  broadcasts_S1x64x128_S64x64x128 : S1x64x128.Broadcasts S64x64x128
  slices_S64x128x16_o0_0_1_S64x128x1 : S64x128x16.Slices ![0, 0, 1] S64x128x1
  slices_S64x128x16_o0_0_2_S64x128x1 : S64x128x16.Slices ![0, 0, 2] S64x128x1
  slices_S64x128x16_o0_0_3_S64x128x1 : S64x128x16.Slices ![0, 0, 3] S64x128x1
  slices_S64x128x16_o0_0_4_S64x128x1 : S64x128x16.Slices ![0, 0, 4] S64x128x1
  slices_S64x128x16_o0_0_5_S64x128x1 : S64x128x16.Slices ![0, 0, 5] S64x128x1
  slices_S64x128x16_o0_0_6_S64x128x1 : S64x128x16.Slices ![0, 0, 6] S64x128x1
  slices_S64x128x16_o0_0_7_S64x128x1 : S64x128x16.Slices ![0, 0, 7] S64x128x1
  slices_S64x128x16_o0_0_8_S64x128x1 : S64x128x16.Slices ![0, 0, 8] S64x128x1
  slices_S64x128x16_o0_0_9_S64x128x1 : S64x128x16.Slices ![0, 0, 9] S64x128x1
  slices_S64x128x16_o0_0_10_S64x128x1 : S64x128x16.Slices ![0, 0, 10] S64x128x1
  slices_S64x128x16_o0_0_11_S64x128x1 : S64x128x16.Slices ![0, 0, 11] S64x128x1
  slices_S64x128x16_o0_0_12_S64x128x1 : S64x128x16.Slices ![0, 0, 12] S64x128x1
  slices_S64x128x16_o0_0_13_S64x128x1 : S64x128x16.Slices ![0, 0, 13] S64x128x1
  slices_S64x128x16_o0_0_14_S64x128x1 : S64x128x16.Slices ![0, 0, 14] S64x128x1
  slices_S64x128x16_o0_0_15_S64x128x1 : S64x128x16.Slices ![0, 0, 15] S64x128x1
  iota_S64x64_d0_w32 : S64x64.Iotas .tc 32 [0]
  iota_S64x64_d1_w32 : S64x64.Iotas .tc 32 [1]
  natLt_1_32 : 1 < 32
  shapeCasts_S64x64_S64x64x1 : S64x64.ShapeCasts S64x64x1
  broadcasts_S64x64x1_S64x64x128 : S64x64x1.Broadcasts S64x64x128
  reduces_S64x64x128_S64x128 : S64x64x128.Reduces [1] S64x128
  concatenates_S256x1024_S256x128_S256x1152_d1 : Shape.Concatenates [S256x1024, S256x128] S256x1152 1
  dot_S128x1024_S1024x2048_S128x2048_1_0_0_1_n_n_wf : DotDims.WF S128x1024 S1024x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S256x1024.size a
  hwx0_0 : ∀ i : grid0.Coords, EltTy.bits .bf16 = 32 ∨ (Rect.block (s := S256x1024) S128x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S256x2048.size a
  hwx0_2 : ∀ i : grid0.Coords, EltTy.bits .f32 = 32 ∨ (Rect.block (s := S256x2048) S128x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x128x16.size a ≤ S256x128x16.size a
  hwx1_0 : ∀ i : grid1.Coords, EltTy.bits .f32 = 32 ∨ (Rect.block (s := S256x128x16) S64x128x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x128x16.size a ≤ S256x128x16.size a
  hwx1_1 : ∀ i : grid1.Coords, EltTy.bits .f32 = 32 ∨ (Rect.block (s := S256x128x16) S64x128x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S256x128.size a
  hwx1_2 : ∀ i : grid1.Coords, EltTy.bits .f32 = 32 ∨ (Rect.block (s := S256x128) S64x128.size (cc1_transform_2 i) (hinb1_2 i)).WholeWords (EltTy.packing .f32)

variable [Facts₀]

def dot_S128x1024_S1024x2048_S128x2048_1_0_0_1_n_n : DotDims S128x1024 S1024x2048 S128x2048 where
  lhsContracting := [1]
  rhsContracting := [0]
  lhsNonContracting := [0]
  rhsNonContracting := [1]
  lhsBatch := []
  rhsBatch := []
  wf := dot_S128x1024_S1024x2048_S128x2048_1_0_0_1_n_n_wf

abbrev win0_0 : Pipeline.Window sig grid0 :=
  Pipeline.Window.ofSpec (Memref.whole main_v2) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S64x128x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S64x128x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S64x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S256x1024 : Shape := ⟨2, ![256, 1024]⟩
abbrev S1024x128x16 : Shape := ⟨3, ![1024, 128, 16]⟩
abbrev S1024x2048 : Shape := ⟨2, ![1024, 2048]⟩
abbrev S256x2048 : Shape := ⟨2, ![256, 2048]⟩
abbrev S256x128x16 : Shape := ⟨3, ![256, 128, 16]⟩
abbrev S1x256x128x16 : Shape := ⟨4, ![1, 256, 128, 16]⟩
abbrev S256x1x128x16 : Shape := ⟨4, ![256, 1, 128, 16]⟩
abbrev S256x256x128x16 : Shape := ⟨4, ![256, 256, 128, 16]⟩
abbrev S_ : Shape := ⟨0, ![]⟩
abbrev S256x256x128 : Shape := ⟨3, ![256, 256, 128]⟩
abbrev S256x256 : Shape := ⟨2, ![256, 256]⟩
abbrev S256x256x1 : Shape := ⟨3, ![256, 256, 1]⟩
abbrev S256x128 : Shape := ⟨2, ![256, 128]⟩
abbrev S256x1152 : Shape := ⟨2, ![256, 1152]⟩

abbrev nBuf : Space → Nat
  | .hbm => 31
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x128x16, .f32⟩
  | .hbm, ⟨2, _⟩ => ⟨S1024x2048, .f32⟩
  | .hbm, ⟨3, _⟩ => ⟨S256x2048, .f32⟩
  | .hbm, ⟨4, _⟩ => ⟨S256x128x16, .f32⟩
  | .hbm, ⟨5, _⟩ => ⟨S1x256x128x16, .f32⟩
  | .hbm, ⟨6, _⟩ => ⟨S256x1x128x16, .f32⟩
  | .hbm, ⟨7, _⟩ => ⟨S256x256x128x16, .f32⟩
  | .hbm, ⟨8, _⟩ => ⟨S256x256x128x16, .f32⟩
  | .hbm, ⟨9, _⟩ => ⟨S256x256x128x16, .f32⟩
  | .hbm, ⟨10, _⟩ => ⟨S256x256x128x16, .f32⟩
  | .hbm, ⟨11, _⟩ => ⟨S_, .f32⟩
  | .hbm, ⟨12, _⟩ => ⟨S256x256x128, .f32⟩
  | .hbm, ⟨13, _⟩ => ⟨S256x256, .i32⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i32⟩
  | .hbm, ⟨18, _⟩ => ⟨S256x256, .i1⟩
  | .hbm, ⟨19, _⟩ => ⟨S256x256, .f32⟩
  | .hbm, ⟨20, _⟩ => ⟨S256x256x1, .f32⟩
  | .hbm, ⟨21, _⟩ => ⟨S_, .f32⟩
  | .hbm, ⟨22, _⟩ => ⟨S256x256x1, .f32⟩
  | .hbm, ⟨23, _⟩ => ⟨S256x256x1, .f32⟩
  | .hbm, ⟨24, _⟩ => ⟨S256x256x128, .f32⟩
  | .hbm, ⟨25, _⟩ => ⟨S256x256x128, .f32⟩
  | .hbm, ⟨26, _⟩ => ⟨S256x256x128, .f32⟩
  | .hbm, ⟨27, _⟩ => ⟨S256x256x128, .f32⟩
  | .hbm, ⟨28, _⟩ => ⟨S_, .f32⟩
  | .hbm, ⟨29, _⟩ => ⟨S256x128, .f32⟩
  | .hbm, ⟨30, _⟩ => ⟨S256x1152, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]

class Facts₀ : Prop where
  shapeCasts_S1024x128x16_S1024x2048 : S1024x128x16.ShapeCasts S1024x2048
  shapeCasts_S256x2048_S256x128x16 : S256x2048.ShapeCasts S256x128x16
  bcast_S256x128x16_S1x256x128x16_1_2_3 : S256x128x16.BroadcastsInDim S1x256x128x16 (![1, 2, 3] : Fin 3 → Fin S1x256x128x16.rank)
  bcast_S256x128x16_S256x1x128x16_0_2_3 : S256x128x16.BroadcastsInDim S256x1x128x16 (![0, 2, 3] : Fin 3 → Fin S256x1x128x16.rank)
  bcast_S1x256x128x16_S256x256x128x16_0_1_2_3 : S1x256x128x16.BroadcastsInDim S256x256x128x16 (![0, 1, 2, 3] : Fin 4 → Fin S256x256x128x16.rank)
  bcast_S256x1x128x16_S256x256x128x16_0_1_2_3 : S256x1x128x16.BroadcastsInDim S256x256x128x16 (![0, 1, 2, 3] : Fin 4 → Fin S256x256x128x16.rank)
  reducesTo_S256x256x128x16_S256x256x128_d3 : S256x256x128x16.ReducesTo [3] S256x256x128
  h_S_ : 0 < S_.numel
  bcast_S_S256x256 : S_.BroadcastsInDim S256x256 (![] : Fin 0 → Fin S256x256.rank)
  bcast_S256x256_S256x256x1_0_1 : S256x256.BroadcastsInDim S256x256x1 (![0, 1] : Fin 2 → Fin S256x256x1.rank)
  bcast_S_S256x256x1 : S_.BroadcastsInDim S256x256x1 (![] : Fin 0 → Fin S256x256x1.rank)
  bcast_S256x256x1_S256x256x128_0_1_2 : S256x256x1.BroadcastsInDim S256x256x128 (![0, 1, 2] : Fin 3 → Fin S256x256x128.rank)
  reducesTo_S256x256x128_S256x128_d1 : S256x256x128.ReducesTo [1] S256x128
  concatenates_S256x1024_S256x128_S256x1152_d1 : Shape.Concatenates [S256x1024, S256x128] S256x1152 1
  dot_S256x1024_S1024x2048_S256x2048_1_0_0_1_n_n_wf : DotDims.WF S256x1024 S1024x2048 S256x2048 [1] [0] [0] [1] [] []

variable [Facts₀]

def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf

class Facts : Prop extends Facts₀ where

variable [Facts]
-- ==== Proof.K.Alg.lean ====
/-
  The choices every region record and the launch share: no core owes another anything (no level is assigned),
  and beside the buffers each core carries its generator register at some state and the fact that it owes nothing.
-/
import proofs.«123585_j16758962389448_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- No level is assigned: nothing is owed between cores. -/
abbrev L0 : GSem nD τ sig → Finset Unit := fun _ => ∅
abbrev lv0 : GSem nD τ sig → Unit → ℕ := fun _ _ => 0

/-- What rides beside the buffers through every item of the program: the core's generator register at some state
    and its debts, none. -/
abbrev Rst (c : Dev nD) : sProp 𝕄 :=
  iprop((∃ r, prngReg c r) ∗ ∃ W, owes (c : Thread nD τ) (0 : CellTallies nD τ sig Unit) W)

end Cert.Kernel.Hand

end
-- ==== Proof.K.R0.lean ====
/-
  The first pallas_call (the projection M2 = x . T2, one matmul per 128-row tile) as the pipeline's proof
  data, at the contents `V` the region finds: two input windows (the row tile of x, fetched at every
  point; the whole of T2, fetched once) and one output window (the row tile of the product) whose staging
  buffer the body stores whole.
-/
import proofs.«123585_j16758962389448_1_alg».proof.Proof.Gen.Kernel.Launch
import proofs.«123585_j16758962389448_1_alg».proof.Proof.Gen.Kernel.Skeleton
import proofs.«123585_j16758962389448_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- The unscoped buffers' contents when the region is entered.
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the output window's staging buffer: the product of the two input blocks. -/
def out0_2 (x0 : Vec F S128x1024 .bf16) (x1 : Vec F S1024x2048 .bf16) : Vec F S128x2048 .f32 :=
  k0_pay1 x0 x1

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## What each input window's staging buffer holds when the body is called -/

/-- The row tile of x is fetched at every point, so its buffer holds the tile of the array as the region found it. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- T2 is fetched at the first point only; its block index never moves and the body leaves the buffer as it
    found it, so at every point the buffer still holds the whole of T2 as the region found it. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body's accesses: every load and the one store take a whole staging buffer -/

/-- The offsets of every access of the body are zero on both axes. -/
theorem zeroOffsets : (![0, 0] : Fin 2 → Nat) = fun _ => 0 := funext fun a => by fin_cases a <;> rfl

/-- The whole row tile of x. -/
abbrev xTile : Rect S128x1024 := Rect.unit (s := S128x1024) ![0, 0] S128x1024.size inb_S128x1024_S128x1024_0_0
/-- The whole of T2. -/
abbrev t2All : Rect S1024x2048 := Rect.unit (s := S1024x2048) ![0, 0] S1024x2048.size inb_S1024x2048_S1024x2048_0_0
/-- The whole row tile of the product. -/
abbrev mTile : Rect S128x2048 := Rect.unit (s := S128x2048) ![0, 0] S128x2048.size inb_S128x2048_S128x2048_0_0

/-- The one store covers the product tile's buffer. -/
theorem cover_mTile (p : Vec F S128x2048 .f32) (y : S128x2048.Idx) :
    ∃ pc ∈ ([⟨mTile, p⟩] : List (View.Piece (Elt F) S128x2048 .f32)), y ∈ pc.1.set :=
  ⟨_, List.mem_singleton_self _, View.mem_set_unit_zero (S := S128x2048) zeroOffsets inb_S128x2048_S128x2048_0_0 y⟩

/-! ## The body's triple -/

set_option maxHeartbeats 1000000 in
/-- The body on whole staging memrefs — the x tile's at `x0`, T2's at `x1`, the product tile's at anything — runs to
    the continuation with the two inputs as they were and the product tile's buffer at the matmul of the two. -/
theorem sound_kernel0 (c : Dev nD) (E : Set ℕ) (i : grid0.Coords)
    (arg1 : Memref sig .tc .vmem S128x1024 .bf16) (harg1 : arg1.IsWhole)
    (arg2 : Memref sig .tc .vmem S1024x2048 .bf16) (harg2 : arg2.IsWhole)
    (arg3 : Memref sig .tc .vmem S128x2048 .f32) (harg3 : arg3.IsWhole)
    (x0 : Vec F S128x1024 .bf16) (x1 : Vec F S1024x2048 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__project_kernel i arg1 harg1 arg2 harg2 arg3 harg3) K := by
  simp only [cc0__project_kernel_eq_skeleton]; unfold cc0__project_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover_mTile _),
    View.canon_unit_zero (S := S128x2048) zeroOffsets inb_S128x2048_S128x2048_0_0]
  simp only [View.readAt_eq_ld, View.ld_unit_zero (S := S128x1024) zeroOffsets, View.ld_unit_zero (S := S1024x2048) zeroOffsets]
  rfl

/-! ## The body obligation, at a generic point -/

/-- What the body is called with at point `t`: the invariant, what the core owes, and the three windows' current
    staging buffers, each at what the pipeline put there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the same invariant and debt, the inputs' buffers at their blocks, the product tile's buffer at the
    matmul of the two. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks (`before0_0`, `before0_1`), so the body's triple
    applies; the invariant and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Defs.lean ====
/-
  The second pallas_call (pairwise L1 distance, exp, masked row sum) as the pipeline's proof data.

  Its grid is 4 x 4, point t = 4*bi + bj.  Window 0 stages rows 64*bi .. 64*bi+63 of M, window 1 rows
  64*bj .. 64*bj+63 of the SAME array M, window 2 is the output block of rows 64*bi ..; a 64 x 128 scratch
  is carried from point to point.  At bj = 0 the body zeroes the scratch; at every point it adds to the
  scratch the masked sum over the 64 partner rows of exp(-(L1 distance)); at bj = 3 it copies the scratch
  into the output block, which the pipeline writes back there and only there (the output window is idle
  at the other points).

  `upd` is one point's update of the scratch as a pure function of the two input blocks and of what the
  scratch held when it was read; `accAt1` is the scratch after each point, by recursion on the point;
  the proof data name the arrays as the region finds them, what every staging buffer holds after the
  body, and the invariant between points (the scratch at `accAt1`).  The array M is read through two
  windows: each holds one half of its full share.
-/
import proofs.«123585_j16758962389448_1_alg».proof.Proof.Gen.Kernel.Launch
import proofs.«123585_j16758962389448_1_alg».proof.Proof.Gen.Kernel.Skeleton
import proofs.«123585_j16758962389448_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- The unscoped buffers' contents when the region is entered: the parameter everything here is stated at.
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One point's update of the scratch: from the block `x0` of rows of this point's row tile, the block `x1` of
    the partner tile, and the scratch `s` as the body reads it (after the reset, at a point that resets),
    `s + sum over the 64 partner rows of exp(0 - sum_k |x0 - x1|) * [row differs from partner row]`. -/
def upd (i : grid1.Coords) (x0 x1 : Vec F S64x128x16 .f32) (s : Vec F S64x128 .f32) : Vec F S64x128 .f32 :=
  k1_pay1 (BitVec.ofNat 32 (i 0).val) (BitVec.ofNat 32 (i 1).val) (k1_pay3 x0) (k1_pay4 x1)
    (k1_pay10 (k1_pay3 x0) (k1_pay4 x1)
      (k1_pay8 (k1_pay3 x0) (k1_pay4 x1) (k1_pay5 x0 x1) (k1_pay6 x1) (k1_pay7 x0)) (k1_pay9 (k1_pay3 x0)))
    (k1_pay11 (k1_pay3 x0)) (k1_pay12 (k1_pay4 x1)) s

/-- The scratch after the body at point `n`: the update of the zero vector at a point that resets (bj = 0),
    else of what the point before left. -/
def accAt1 (c : Dev nD) : (n : ℕ) → n < cfg1.N → Vec F S64x128 .f32
  | 0, hn => upd (grid1.coords ⟨0, hn⟩) (iblk1 V c 0 ⟨0, hn⟩) (iblk1 V c 1 ⟨0, hn⟩) (k1_pay2 (F := F))
  | n + 1, hn =>
    if (n + 1) % 4 = 0 then
      upd (grid1.coords ⟨n + 1, hn⟩) (iblk1 V c 0 ⟨n + 1, hn⟩) (iblk1 V c 1 ⟨n + 1, hn⟩) (k1_pay2 (F := F))
    else
      upd (grid1.coords ⟨n + 1, hn⟩) (iblk1 V c 0 ⟨n + 1, hn⟩) (iblk1 V c 1 ⟨n + 1, hn⟩) (accAt1 c n (Nat.lt_of_succ_lt hn))

theorem accAt1_reset (c : Dev nD) (t : Fin cfg1.N) (h0 : t.val % 4 = 0) :
    accAt1 V c t.val t.isLt = upd (grid1.coords t) (iblk1 V c 0 t) (iblk1 V c 1 t) (k1_pay2 (F := F)) := by
  obtain ⟨n, hn⟩ := t
  cases n with
  | zero => rfl
  | succ n => exact (if_pos h0)

theorem accAt1_step (c : Dev nD) (t : Fin cfg1.N) (h0 : ¬ t.val % 4 = 0) :
    accAt1 V c t.val t.isLt = upd (grid1.coords t) (iblk1 V c 0 t) (iblk1 V c 1 t)
      (accAt1 V c (t.val - 1) (Nat.lt_of_le_of_lt (Nat.sub_le _ _) t.isLt)) := by
  obtain ⟨n, hn⟩ := t
  cases n with
  | zero => exact absurd (Nat.zero_mod _) h0
  | succ n => exact (if_neg h0)

/-- The scratch operand: a whole scoped buffer of the kernel's own. -/
abbrev scM1 : Memref sig .tc .vmem S64x128 .f32 := Memref.whole cc1_scratch0

/-- The region invariant before position `n`: before the first point every scoped buffer that is no staging
    buffer of this call at anything; afterwards the same with the scratch at what the point before left. -/
def PhiS1 (c : Dev nD) : (n : ℕ) → n ≤ cfg1.N → sProp 𝕄
  | 0, _ => Pipeline.ΦA spec1 c
  | n + 1, hn =>
    iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg2_1), ((c : Thread nD τ).loc cc0_stg2_1) ↦{fullShare} f)
        ∗ owns (c : Thread nD τ) scM1 fullShare (accAt1 V c n hn))
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn =
    iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg2_1), ((c : Thread nD τ).loc cc0_stg2_1) ↦{fullShare} f)
        ∗ owns (c : Thread nD τ) scM1 fullShare (accAt1 V c n hn))
      ∗ (∃ r, prngReg c r)) := rfl

theorem PhiS1_pos (c : Dev nD) (n : ℕ) (h : n ≤ cfg1.N) (hz : n ≠ 0) :
    PhiS1 V c n h =
    iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg2_1), ((c : Thread nD τ).loc cc0_stg2_1) ↦{fullShare} f)
        ∗ owns (c : Thread nD τ) scM1 fullShare (accAt1 V c (n - 1) (by omega)))
      ∗ (∃ r, prngReg c r)) := by
  cases n with
  | zero => exact absurd rfl hz
  | succ n => rfl

/-- The class invariant with the scratch as a memref owned at some contents. -/
theorem PhiA1_eq (c : Dev nD) :
    (Pipeline.ΦA spec1 c : sProp 𝕄) =
    iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg2_1), ((c : Thread nD τ).loc cc0_stg2_1) ↦{fullShare} f)
        ∗ (∃ d, owns (c : Thread nD τ) scM1 fullShare d))
      ∗ (∃ r, prngReg c r)) := by
  unfold Pipeline.ΦA; rw [scopedRest1_eq]; simp only [scM1, owns_whole]; try rfl

/-- The proof data of the second pipeline on core `c`: the arrays as the region finds them; after the body at
    point `t` each input's buffer at its block and the output's at the scratch's contents then (consulted only at
    the points that write back, bj = 3); the invariant `PhiS1`; nothing owed; the array M, read through windows 0
    and 1, held half and half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]
theorem Phi1_castSucc (c : Dev nD) (t : Fin cfg1.N) :
    (dat1 V c).Φ t.castSucc = PhiS1 V c t.val (Nat.le_of_lt t.isLt) := by
  dsimp only [dat1]; simp only [Fin.coe_castSucc]

end Cert.Kernel.Hand

end
-- ==== Proof.K.R1Facts.lean ====
/-
  The second pallas_call's schedule facts, decided over its 16 grid points (t = 4*bi + bj): the body's two
  branch conditions in closed form (the reset at bj = 0, the copy-out at bj = 3), where the output window is
  idle and where it is written back, the staging memrefs the pipeline passes at a point, and each input
  window's staging buffer holding its block at every point (fetched there or not).
-/
import proofs.«123585_j16758962389448_1_alg».proof.Proof.K.R1Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- The unscoped buffers' contents when the region is entered.
variable (V : (c : Dev nD) → (b : Ref sig .tc) → Buf (Elt F) ((c : Thread nD τ).loc b))

/-- The body's first conditional (the reset): taken when the partner-tile coordinate bj is 0. -/
abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The body's second conditional (the copy of the scratch into the output block): taken when bj is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Where the body does not copy out (bj ≠ 3) the output window is idle and its block is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- Where it copies out (bj = 3) the window is live. -/
theorem liveAt1_2 : ∀ t : Fin cfg1.N, cond1_1 (grid1.coords t) → cfg1.idle 2 (grid1.coords t) = false := by decide +kernel

/-- Each window's current staging memref at point `t`, as the pipeline passes it, and its wholeness. -/
abbrev ms1_0 (t : Fin cfg1.N) : Memref sig .tc .vmem S64x128x16 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x128x16 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x128 .f32 := win1_2.stage (cfg1.slots t 2)
abbrev hs1_2 (t : Fin cfg1.N) : (ms1_2 t).IsWhole := hstage1_2 ((cfg1.slots t 2).cast nbuf1_2)

/-- Input window 0's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
/-- Input window 1's likewise. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

end Cert.Kernel.Hand

end
-- ==== Proof.K.R1RunA.lean ====
/-
  The second pallas_call's body run once, at a point that resets the scratch (bj = 0) and does not copy out: on whole memrefs, the two input blocks at
  `x0`, `x1`, it ends with the scratch at `upd i x0 x1 s`, `s` what the scratch held when the body read it.
-/
import proofs.«123585_j16758962389448_1_alg».proof.Proof.K.R1Facts
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
theorem run1_A (c : Dev nD) (i : grid1.Coords) (arg2 : Memref sig .tc .vmem S64x128x16 .f32) (harg2 : arg2.IsWhole)
    (arg3 : Memref sig .tc .vmem S64x128x16 .f32) (harg3 : arg3.IsWhole) (arg4 : Memref sig .tc .vmem S64x128 .f32) (harg4 : arg4.IsWhole)
    (arg5 : Memref sig .tc .vmem S64x128 .f32) (harg5 : arg5.IsWhole) (hc0 : cond1_0 i) (hc1 : ¬cond1_1 i)
    (x0 x1 : Vec F S64x128x16 .f32) (xi : Vec F S64x128 .f32) (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi
              ∗ owns (c : Thread nD τ) arg5 fullShare (upd i x0 x1 (k1_pay2 (F := F)))) -∗ K ⟨⟩))
      ⊢ wp frame (wpE (defs₀ (F := F)) Variants.none c none) E (cc1_kernel i arg2 harg2 arg3 harg3 arg4 harg4 arg5 harg5) K := by
  -- every load and store of the body is through a whole-block rectangle at zero offsets
  have hz2 : (![0, 0] : Fin 2 → Nat) = fun _ => 0 := funext fun a => by fin_cases a <;> rfl
  have hz3 : (![0, 0, 0] : Fin 3 → Nat) = fun _ => 0 := funext fun a => by fin_cases a <;> rfl
  -- the body as its memory operations over the payloads
  rw [cc1_kernel_eq_skeleton]; unfold cc1_kernel_skel
  unfold owns
  iintro ⟨⟨%f0, %hf0, H0⟩, ⟨%f1, %hf1, H1⟩, ⟨%f4, %hf4, H4⟩, ⟨%ds, %fs, -, HS⟩, Hk⟩
  obtain rfl := harg2.eq_unread hf0; obtain rfl := harg3.eq_unread hf1; obtain rfl := harg4.eq_unread hf4
  -- the run: the reset branch is taken (the scratch is stored the zero block), the copy-out is not
  sl_exec (disch := first | exact hc0 | exact hc1)
  sl_step
  iapply Hk
  -- the two input blocks are handed back as they were read
  isplitl [H0]
  · iexists _; isplitr; · ipureintro; exact harg2.read_unread _
    iexact H0
  isplitl [H1]
  · iexists _; isplitr; · ipureintro; exact harg3.read_unread _
    iexact H1
  -- the output block was not touched
  isplitl [H4]
  · iexists _; isplitr; · ipureintro; exact harg4.read_unread _
    iexact H4
  -- the scratch: the update's store is the later of two covering stores, so it reads back as its payload, whose load of the
  -- scratch read the zero block the reset had just stored
  iexists _; isplitr
  swap; · iexact HS
  ipureintro
  rw [View.read_writes_eq_canon _ _ _ (fun y => ⟨_, List.mem_cons.mpr (Or.inl rfl), View.mem_set_unit_zero (S := S64x128) hz2 inb_S64x128_S64x128_0_0 y⟩)]
  rw [View.canon_cons_unit_zero (S := S64x128) hz2]
  sl_unfold_words
  rw [View.readCov_unit_zero (S := S64x128) _ hz2]
  simp only [View.readAt_eq_ld, harg2.read_unread, harg3.read_unread, View.ld_unit_zero (S := S64x128) hz2,
    View.ld_unit_zero (S := S64x128x16) hz3]
  rfl

end Cert.Kernel.Hand

end
-- ==== Proof.K.R1RunB.lean ====
/-
  The second pallas_call's body run once, at a point that neither resets nor copies out (bj = 1, 2): on whole memrefs, the two input blocks at
  `x0`, `x1`, it ends with the scratch at `upd i x0 x1 s`, `s` what the scratch held when the body read it.
-/
import proofs.«123585_j16758962389448_1_alg».proof.Proof.K.R1Facts
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
theorem run1_B (c : Dev nD) (i : grid1.Coords) (arg2 : Memref sig .tc .vmem S64x128x16 .f32) (harg2 : arg2.IsWhole)
    (arg3 : Memref sig .tc .vmem S64x128x16 .f32) (harg3 : arg3.IsWhole) (arg4 : Memref sig .tc .vmem S64x128 .f32) (harg4 : arg4.IsWhole)
    (arg5 : Memref sig .tc .vmem S64x128 .f32) (harg5 : arg5.IsWhole) (hc0 : ¬cond1_0 i) (hc1 : ¬cond1_1 i)
    (x0 x1 : Vec F S64x128x16 .f32) (xi xs : Vec F S64x128 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi
              ∗ owns (c : Thread nD τ) arg5 fullShare (upd i x0 x1 xs)) -∗ K ⟨⟩))
      ⊢ wp frame (wpE (defs₀ (F := F)) Variants.none c none) E (cc1_kernel i arg2 harg2 arg3 harg3 arg4 harg4 arg5 harg5) K := by
  -- every load and store of the body is through a whole-block rectangle at zero offsets
  have hz2 : (![0, 0] : Fin 2 → Nat) = fun _ => 0 := funext fun a => by fin_cases a <;> rfl
  have hz3 : (![0, 0, 0] : Fin 3 → Nat) = fun _ => 0 := funext fun a => by fin_cases a <;> rfl
  -- the body as its memory operations over the payloads
  rw [cc1_kernel_eq_skeleton]; unfold cc1_kernel_skel
  unfold owns
  iintro ⟨⟨%f0, %hf0, H0⟩, ⟨%f1, %hf1, H1⟩, ⟨%f4, %hf4, H4⟩, ⟨%fs, %hfs, HS⟩, Hk⟩
  obtain rfl := harg2.eq_unread hf0; obtain rfl := harg3.eq_unread hf1; obtain rfl := harg4.eq_unread hf4; obtain rfl := harg5.eq_unread hfs
  -- the run: neither branch is taken; the scratch gets one whole-block store of the update
  sl_exec (disch := first | exact hc0 | exact hc1)
  sl_step
  iapply Hk
  -- the two input blocks are handed back as they were read
  isplitl [H0]
  · iexists _; isplitr; · ipureintro; exact harg2.read_unread _
    iexact H0
  isplitl [H1]
  · iexists _; isplitr; · ipureintro; exact harg3.read_unread _
    iexact H1
  -- the output block was not touched
  isplitl [H4]
  · iexists _; isplitr; · ipureintro; exact harg4.read_unread _
    iexact H4
  -- the scratch: its one covering store reads back as its payload, over the whole blocks x0, x1 and the scratch's contents xs
  iexists _; isplitr
  swap; · iexact HS
  ipureintro
  rw [View.read_writes_eq_canon _ _ _ (fun y => ⟨_, List.mem_singleton_self _, View.mem_set_unit_zero (S := S64x128) hz2 inb_S64x128_S64x128_0_0 y⟩)]
  rw [View.canon_unit_zero (S := S64x128) hz2]
  sl_unfold_words
  simp only [View.readAt_eq_ld, harg2.read_unread, harg3.read_unread, harg5.read_unread, View.ld_unit_zero (S := S64x128) hz2,
    View.ld_unit_zero (S := S64x128x16) hz3]
  rfl

end Cert.Kernel.Hand

end
-- ==== Proof.K.R1RunC.lean ====
/-
  The second pallas_call's body run once, at the point that copies the scratch out (bj = 3): on whole memrefs, the two input blocks at
  `x0`, `x1`, it ends with the scratch at `upd i x0 x1 s`, `s` what the scratch held when the body read it.
-/
import proofs.«123585_j16758962389448_1_alg».proof.Proof.K.R1Facts
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
theorem run1_C (c : Dev nD) (i : grid1.Coords) (arg2 : Memref sig .tc .vmem S64x128x16 .f32) (harg2 : arg2.IsWhole)
    (arg3 : Memref sig .tc .vmem S64x128x16 .f32) (harg3 : arg3.IsWhole) (arg4 : Memref sig .tc .vmem S64x128 .f32) (harg4 : arg4.IsWhole)
    (arg5 : Memref sig .tc .vmem S64x128 .f32) (harg5 : arg5.IsWhole) (hc0 : ¬cond1_0 i) (hc1 : cond1_1 i)
    (x0 x1 : Vec F S64x128x16 .f32) (xs : Vec F S64x128 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (upd i x0 x1 xs)
              ∗ owns (c : Thread nD τ) arg5 fullShare (upd i x0 x1 xs)) -∗ K ⟨⟩))
      ⊢ wp frame (wpE (defs₀ (F := F)) Variants.none c none) E (cc1_kernel i arg2 harg2 arg3 harg3 arg4 harg4 arg5 harg5) K := by
  -- every load and store of the body is through a whole-block rectangle at zero offsets
  have hz2 : (![0, 0] : Fin 2 → Nat) = fun _ => 0 := funext fun a => by fin_cases a <;> rfl
  have hz3 : (![0, 0, 0] : Fin 3 → Nat) = fun _ => 0 := funext fun a => by fin_cases a <;> rfl
  -- the body as its memory operations over the payloads
  rw [cc1_kernel_eq_skeleton]; unfold cc1_kernel_skel
  unfold owns
  iintro ⟨⟨%f0, %hf0, H0⟩, ⟨%f1, %hf1, H1⟩, ⟨%d4, %f4, -, H4⟩, ⟨%fs, %hfs, HS⟩, Hk⟩
  obtain rfl := harg2.eq_unread hf0; obtain rfl := harg3.eq_unread hf1; obtain rfl := harg5.eq_unread hfs
  -- the run: no reset; the scratch gets one whole-block store of the update, which the copy-out then stores into the output block
  sl_exec (disch := first | exact hc0 | exact hc1)
  sl_step
  iapply Hk
  -- the two input blocks are handed back as they were read
  isplitl [H0]
  · iexists _; isplitr; · ipureintro; exact harg2.read_unread _
    iexact H0
  isplitl [H1]
  · iexists _; isplitr; · ipureintro; exact harg3.read_unread _
    iexact H1
  -- the output block: its one covering store holds what the load of the scratch after the update's store read, the update
  isplitl [H4]
  · iexists _; isplitr
    swap; · iexact H4
    ipureintro
    sl_unfold_words
    rw [View.read_writes_eq_canon _ _ _ (fun y => ⟨_, List.mem_singleton_self _, View.mem_set_unit_zero (S := S64x128) hz2 inb_S64x128_S64x128_0_0 y⟩)]
    rw [View.canon_unit_zero (S := S64x128) hz2]
    rw [View.readCov_unit_zero (S := S64x128) _ hz2]
    simp only [View.readAt_eq_ld, harg2.read_unread, harg3.read_unread, harg5.read_unread, View.ld_unit_zero (S := S64x128) hz2,
      View.ld_unit_zero (S := S64x128x16) hz3]
    rfl
  -- the scratch: its one covering store reads back as its payload, over the whole blocks x0, x1 and the scratch's contents xs
  iexists _; isplitr
  swap; · iexact HS
  ipureintro
  sl_unfold_words
  rw [View.read_writes_eq_canon _ _ _ (fun y => ⟨_, List.mem_singleton_self _, View.mem_set_unit_zero (S := S64x128) hz2 inb_S64x128_S64x128_0_0 y⟩)]
  rw [View.canon_unit_zero (S := S64x128) hz2]
  simp only [View.readAt_eq_ld, harg2.read_unread, harg3.read_unread, harg5.read_unread, View.ld_unit_zero (S := S64x128) hz2,
    View.ld_unit_zero (S := S64x128x16) hz3]
  rfl

end Cert.Kernel.Hand

end
-- ==== Proof.K.R1Body.lean ====
/-
  The second pallas_call's body obligation: at every grid point the body, handed the invariant (the scratch at
  what the point before left), the two input blocks and the output window's buffer, returns the invariant at
  the next point and each buffer at what the proof data say; and the invariant's two ends.
-/
import proofs.«123585_j16758962389448_1_alg».proof.Proof.K.R1RunA
import proofs.«123585_j16758962389448_1_alg».proof.Proof.K.R1RunB
import proofs.«123585_j16758962389448_1_alg».proof.Proof.K.R1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- The unscoped buffers' contents when the region is entered.
variable (V : (c : Dev nD) → (b : Ref sig .tc) → Buf (Elt F) ((c : Thread nD τ).loc b))

/-- What the body is called with at point `t`: the invariant, the core's debt, and each window's current staging
    buffer at what it holds before the body. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- What it returns: the invariant at the next point, the same debt, and each buffer at what the proof data say. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point.  The two input buffers hold their blocks.  By the residue of the point mod 4 (bj):
    at bj = 0 the scratch, whatever it holds, is overwritten by the update of the zero vector (`accAt1_reset`);
    at bj = 1, 2 the scratch at what the point before left is updated (`accAt1_step`), and in both the output
    buffer, idle and not written back, is returned at what it came with; at bj = 3 the scratch is updated and copied
    into the output buffer, which is live there.  The other call's five staging buffers, the generator register and
    the core's debt pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 16 := lt_of_lt_of_eq t.isLt (show cfg1.N = 16 from N_1)
  by_cases h0 : t.val % 4 = 0
  · -- bj = 0: the reset
    have h1 : ¬ t.val % 4 = 3 := by omega
    have hc0 : cond1_0 (grid1.coords t) := (hcond1_0 t).mpr h0
    have hc1 : ¬ cond1_1 (grid1.coords t) := fun h => h1 ((hcond1_1 t).mp h)
    rw [Dat.leavesExact_idle (dat1 V c) 2 t (idleAt1_2 t hc1) (noFlush1_2 t hc1)]
    rw [accAt1_reset V c t h0]
    by_cases hz : t.val = 0
    · rw [Phi1_castSucc V c t, PhiS1_zero V c _ _ hz, PhiA1_eq]
      iintro ⟨⟨⟨Hs0, Hs1, Hs2, Hs3, Hs4, ⟨%ds, HS⟩⟩, Hg⟩, Ho, ⟨%d0, H0⟩, ⟨%d1, H1⟩, ⟨%d2, H2⟩⟩
      iapply (run1_A c (grid1.coords t) _ _ _ _ _ _ _ _ hc0 hc1 (iblk1 V c 0 t) (iblk1 V c 1 t) ((dat1 V c).before 2 t d2) Set.univ _)
      isplitl [H0]; · iexact H0
      isplitl [H1]; · iexact H1
      isplitl [H2]; · iexact H2
      isplitl [HS]; · iexists _; iexact HS
      iintro ⟨H0, H1, H2, HS⟩
      isplitl [Hs0 Hs1 Hs2 Hs3 Hs4 HS Hg]
      · isplitr [Hg]
        · isplitl [Hs0]; · iexact Hs0
          isplitl [Hs1]; · iexact Hs1
          isplitl [Hs2]; · iexact Hs2
          isplitl [Hs3]; · iexact Hs3
          isplitl [Hs4]; · iexact Hs4
          iexact HS
        iexact Hg
      isplitl [Ho]; · iexact Ho
      isplitl [H0]; · iexact H0
      isplitl [H1]; · iexact H1
      iexists _; iexact H2
    · rw [Phi1_castSucc V c t, PhiS1_pos V c _ _ hz]
      iintro ⟨⟨⟨Hs0, Hs1, Hs2, Hs3, Hs4, HS⟩, Hg⟩, Ho, ⟨%d0, H0⟩, ⟨%d1, H1⟩, ⟨%d2, H2⟩⟩
      iapply (run1_A c (grid1.coords t) _ _ _ _ _ _ _ _ hc0 hc1 (iblk1 V c 0 t) (iblk1 V c 1 t) ((dat1 V c).before 2 t d2) Set.univ _)
      isplitl [H0]; · iexact H0
      isplitl [H1]; · iexact H1
      isplitl [H2]; · iexact H2
      isplitl [HS]; · iexists _; iexact HS
      iintro ⟨H0, H1, H2, HS⟩
      isplitl [Hs0 Hs1 Hs2 Hs3 Hs4 HS Hg]
      · isplitr [Hg]
        · isplitl [Hs0]; · iexact Hs0
          isplitl [Hs1]; · iexact Hs1
          isplitl [Hs2]; · iexact Hs2
          isplitl [Hs3]; · iexact Hs3
          isplitl [Hs4]; · iexact Hs4
          iexact HS
        iexact Hg
      isplitl [Ho]; · iexact Ho
      isplitl [H0]; · iexact H0
      isplitl [H1]; · iexact H1
      iexists _; iexact H2
  · have hz : t.val ≠ 0 := fun h => h0 (by rw [h])
    have hc0 : ¬ cond1_0 (grid1.coords t) := fun h => h0 ((hcond1_0 t).mp h)
    rw [accAt1_step V c t h0]
    rw [Phi1_castSucc V c t, PhiS1_pos V c _ _ hz]
    by_cases h1 : t.val % 4 = 3
    · -- bj = 3: the update and the copy into the output buffer
      have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2, accAt1_step V c t h0]
      iintro ⟨⟨⟨Hs0, Hs1, Hs2, Hs3, Hs4, HS⟩, Hg⟩, Ho, ⟨%d0, H0⟩, ⟨%d1, H1⟩, ⟨%d2, H2⟩⟩
      iapply (run1_C c (grid1.coords t) _ _ _ _ _ _ _ _ hc0 hc1 (iblk1 V c 0 t) (iblk1 V c 1 t) _ Set.univ _)
      isplitl [H0]; · iexact H0
      isplitl [H1]; · iexact H1
      isplitl [H2]; · iexists _; iexact H2
      isplitl [HS]; · iexact HS
      iintro ⟨H0, H1, H2, HS⟩
      isplitl [Hs0 Hs1 Hs2 Hs3 Hs4 HS Hg]
      · isplitr [Hg]
        · isplitl [Hs0]; · iexact Hs0
          isplitl [Hs1]; · iexact Hs1
          isplitl [Hs2]; · iexact Hs2
          isplitl [Hs3]; · iexact Hs3
          isplitl [Hs4]; · iexact Hs4
          iexact HS
        iexact Hg
      isplitl [Ho]; · iexact Ho
      isplitl [H0]; · iexact H0
      isplitl [H1]; · iexact H1
      iexact H2
    · -- bj = 1, 2: the update alone
      have hc1 : ¬ cond1_1 (grid1.coords t) := fun h => h1 ((hcond1_1 t).mp h)
      rw [Dat.leavesExact_idle (dat1 V c) 2 t (idleAt1_2 t hc1) (noFlush1_2 t hc1)]
      iintro ⟨⟨⟨Hs0, Hs1, Hs2, Hs3, Hs4, HS⟩, Hg⟩, Ho, ⟨%d0, H0⟩, ⟨%d1, H1⟩, ⟨%d2, H2⟩⟩
      iapply (run1_B c (grid1.coords t) _ _ _ _ _ _ _ _ hc0 hc1 (iblk1 V c 0 t) (iblk1 V c 1 t) ((dat1 V c).before 2 t d2) _ Set.univ _)
      isplitl [H0]; · iexact H0
      isplitl [H1]; · iexact H1
      isplitl [H2]; · iexact H2
      isplitl [HS]; · iexact HS
      iintro ⟨H0, H1, H2, HS⟩
      isplitl [Hs0 Hs1 Hs2 Hs3 Hs4 HS Hg]
      · isplitr [Hg]
        · isplitl [Hs0]; · iexact Hs0
          isplitl [Hs1]; · iexact Hs1
          isplitl [Hs2]; · iexact Hs2
          isplitl [Hs3]; · iexact Hs3
          isplitl [Hs4]; · iexact Hs4
          iexact HS
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the scratch's contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hs0, Hs1, Hs2, Hs3, Hs4, HS⟩, Hg⟩
  isplitr [Hg]
  · isplitl [Hs0]; · iexact Hs0
    isplitl [Hs1]; · iexact Hs1
    isplitl [Hs2]; · iexact Hs2
    isplitl [Hs3]; · iexact Hs3
    isplitl [Hs4]; · iexact Hs4
    iexists _; iexact HS
  iexact Hg

/-- After the last point the invariant gives the class invariant back: the scratch's contents are forgotten. -/
theorem hout1 (c : Dev nD) : (dat1 V c).Φ (Fin.last cfg1.N) ⊢ Pipeline.ΦA spec1 c :=
  Phi1_out V c _ (by rw [Fin.val_last]; have : cfg1.N = 16 := N_1; omega)

end Cert.Kernel.Hand

end
-- ==== Proof.K.Segs.lean ====
/-
  The two pallas_calls as segments of the program.  Between two items of the program every unscoped buffer
  of a core is held whole at a known valuation; a region splits its windows' arrays out of that valuation on
  entry and puts them back, at what the pipeline leaves in them, on exit.  The first call's three windows
  are on three different arrays.  The second call reads the array M through two windows: on entry the whole
  of M is split into two halves of its share, one per window, and on exit the two halves (an input is never
  written) are joined back.
-/
import proofs.«123585_j16758962389448_1_alg».proof.Proof.K.Alg
import proofs.«123585_j16758962389448_1_alg».proof.Proof.K.R0
import proofs.«123585_j16758962389448_1_alg».proof.Proof.K.R1Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

-- The memory the program is launched from.
variable (m : (ℓ : Loc nD τ sig) → Buf (Elt F) ℓ)

/-! ## What the regions leave, and the contents each is entered at -/

/-- The first call's entry contents: the launch memory after the first host stretch (the reshape of T and the
    two roundings to bf16). -/
abbrev VR1 : (c : Dev nD) → (b : Ref sig .tc) → Buf (Elt F) ((c : Thread nD τ).loc b) := fun c b => Gen.V1 m c b

/-- What the first call leaves in its output array M2: every row tile's product, written back in point order. -/
def o3 (c : Dev nD) : Buf (Elt F) ((c : Thread nD τ).loc main_v3) := (dat0 (VR1 m) c).arrAt 2 cfg0.N

/-- The first call's result alone, every other buffer as launched: enough to state the second call's entry. -/
def outsA : Gen.Outs (F := F) := fun _ r c =>
  if h : r = main_v3 then h ▸ o3 m c else m ((c : Thread nD τ).loc r)

theorem outsA_v3 (c : Dev nD) : outsA m 2 main_v3 c = o3 m c := by
  unfold outsA; rw [dif_pos rfl]

/-- The second call's entry contents over the first call's result: M2 reshaped to M by the second host stretch. -/
abbrev VRA3 : (c : Dev nD) → (b : Ref sig .tc) → Buf (Elt F) ((c : Thread nD τ).loc b) := fun c b => Gen.V3 m (outsA m) c b

/-- What the second call leaves in its output array: each 64-row block's masked row sums, written back at bj = 3. -/
def o5 (c : Dev nD) : Buf (Elt F) ((c : Thread nD τ).loc main_v5) := (dat1 (VRA3 m) c).arrAt 2 cfg1.N

/-- What the two regions leave in the arrays they write: M2 after the first call, the row sums after the second. -/
def outs : Gen.Outs (F := F) := fun _ r c =>
  if h : r = main_v3 then h ▸ o3 m c
  else if h5 : r = main_v5 then h5 ▸ o5 m c
  else m ((c : Thread nD τ).loc r)

theorem outs_v3_o3 (c : Dev nD) : outs m 2 main_v3 c = o3 m c := by
  unfold outs; rw [dif_pos rfl]

theorem outs_v5_o5 (c : Dev nD) : outs m 4 main_v5 c = o5 m c := by
  unfold outs; rw [dif_neg (by decide), dif_pos rfl]

/-- The second call's entry contents see the regions' results only at M2. -/
theorem V3_outs (c : Dev nD) : Gen.V3 m (outs m) c = Gen.V3 m (outsA m) c := by
  show StableHlo.after hostOps1 (Function.update (Gen.V1 m c) main_v3 (outs m 2 main_v3 c))
    = StableHlo.after hostOps1 (Function.update (Gen.V1 m c) main_v3 (outsA m 2 main_v3 c))
  rw [outs_v3_o3, outsA_v3]

/-- The second call's entry contents. -/
abbrev VR3 : (c : Dev nD) → (b : Ref sig .tc) → Buf (Elt F) ((c : Thread nD τ).loc b) := fun c b => Gen.V3 m (outs m) c b

theorem VR3_eq : VR3 m = VRA3 m := by
  funext c b; show Gen.V3 m (outs m) c b = Gen.V3 m (outsA m) c b; rw [V3_outs]

theorem outs_v3 (c : Dev nD) : outs m 2 main_v3 c = (dat0 (VR1 m) c).arrAt 2 cfg0.N := outs_v3_o3 m c

theorem outs_v5 (c : Dev nD) : outs m 4 main_v5 c = (dat1 (VR3 m) c).arrAt 2 cfg1.N := by
  rw [VR3_eq]; exact outs_v5_o5 m c

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (VR1 m) c
  | ⟨1, _⟩ => fun c => dat1 (VR3 m) c

/-! ## The first call's segment -/

/-- At the first call's exit each window's array holds what the valuation after the call says: the two inputs
    (never written) what they held on entry, the output M2 the regions' result there. -/
theorem exitArr0 (c : Dev nD) : ∀ w : Fin cfg0.W,
    (pdats m 0 c).arrAt w cfg0.N = (fun b : Ref sig .tc => Gen.V2 m (outs m) c b) (Pipeline.arrRef spec0 w)
  | ⟨0, _⟩ => ((dat0 (VR1 m) c).arrAt_in 0 rfl _).trans ((A_eq0 (VR1 m) c 0).trans (Gen.V2_of m (outs m) c _ (by decide)).symm)
  | ⟨1, _⟩ => ((dat0 (VR1 m) c).arrAt_in 1 rfl _).trans ((A_eq0 (VR1 m) c 1).trans (Gen.V2_of m (outs m) c _ (by decide)).symm)
  | ⟨2, _⟩ => by
    show (dat0 (VR1 m) c).arrAt 2 cfg0.N
      = Function.update (Gen.V1 m c) (Proc.devRef .tc main_v3) (outs m 2 main_v3 c) (Proc.devRef .tc main_v3)
    rw [Function.update_self]; exact (outs_v3 m c).symm

/-- Every buffer that is no window's array of the first call holds after it what it held on entry. -/
theorem exitRest0 (c : Dev nD) : ∀ b : Ref sig .tc, b ∉ Finset.univ.image (Pipeline.arrRef spec0) →
    (fun b : Ref sig .tc => Gen.V2 m (outs m) c b) b = VR1 m c b := fun b hb =>
  Gen.V2_of m (outs m) c b fun h => hb (Finset.mem_image.mpr ⟨2, Finset.mem_univ _, (List.mem_singleton.mp h).symm⟩)

set_option backward.isDefEq.respectTransparency.types false in
/-- The first call over the thread state: entered from every unscoped buffer at the contents after the first host
    stretch, left at those contents updated at M2.  Its three arrays (x and T2 in bf16, M2) are split out of the
    unscoped buffers and put back; the generator register goes into the invariant and comes back; nothing is owed;
    the kernel has no semaphore of its own. -/
def reg0 : Pipeline.RegionSeg (pcfgs (F := F)) Gen.adm (pdats m) () defs₀ Variants.none L0 lv0 0 where
  win := Gen.launch0.win.to₀
  block_pos := Gen.launch0.block_pos
  stage_whole := Gen.launch0.stage_whole
  K := PEmpty
  osem k := k.elim
  ho := Pipeline.OwnSemFacts.none _
  hbody c := (body_obligation0 (VR1 m) c).loose
  hwaits := Pipeline.hwaits_of_owed_zero _ _ _ _ L0 lv0 0 fun _ _ => rfl
  pre c := iprop(StableHlo.held (c : Thread nD τ) (Pipeline.ucRefs τ sig) (Gen.V1 m c) ∗ Rst c)
  post c := iprop(StableHlo.held (c : Thread nD τ) (Pipeline.ucRefs τ sig) (Gen.V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (VR1 m c)
  hentry c := by
    rw [Pipeline.ownSems0_none]
    have hsplit := Pipeline.arrays_of_unscopedBufs (p := 0) (pcfgs (F := F)) Gen.adm (pdats m) Gen.launch0.win Gen.launch0.arr_whole c
      ((pdats m 0 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      Gen.launch0.win Gen.launch0.arr_whole c (pdats m) ((pdats m 0 c).share_full fun _ => rfl)
      (VR1 m c) (fun b => Gen.V2 m (outs m) c b) ((pdats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg0_pre (c : Dev nD) : (reg0 m).pre c = iprop(StableHlo.held (c : Thread nD τ) (Pipeline.ucRefs τ sig) (Gen.V1 m c) ∗ Rst c) := rfl
theorem reg0_post (c : Dev nD) : (reg0 m).post c = iprop(StableHlo.held (c : Thread nD τ) (Pipeline.ucRefs τ sig) (Gen.V2 m (outs m) c) ∗ Rst c) := rfl

/-! ## The second call's segment: the array M behind two windows -/

/-- The buffers behind the second call's windows are two: M (windows 0 and 1) and the output array (window 2). -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v4) ↦{fullShare} V main_v4) ∗ (((c : Thread nD τ).loc main_v5) ↦{fullShare} V main_v5)) := by
  unfold Pipeline.arrBufs
  exact bigSep_eq_bigSepL_of_eq [main_v4, main_v5] (by decide) (by decide) _

/-- The second call's arrays window by window: M at the left half of its share for window 0 and at the right half for
    window 1, the output array whole. -/
theorem arrays1_eq (c : Dev nD) (V : (c : Dev nD) → (b : Ref sig .tc) → Buf (Elt F) ((c : Thread nD τ).loc b))
    (G : (w : Fin cfg1.W) → Buf (Elt F) ((cfg1.win w).arr.view.loc (c : Thread nD τ))) :
    ((dat1 V c).arrays G : sProp 𝕄)
      = iprop((((c : Thread nD τ).loc main_v4) ↦{fullShare.left} G 0) ∗ (((c : Thread nD τ).loc main_v4) ↦{fullShare.right} G 1)
          ∗ (((c : Thread nD τ).loc main_v5) ↦{fullShare} G 2)) := by
  unfold Pipeline.Dat.arrays
  rw [Gen.bigSep_W1, (Gen.arr_whole1 0).set_eq_univ, (Gen.arr_whole1 2).set_eq_univ]
  rfl

/-- ENTRY.  The buffers behind the second call's windows, M and the output array, each whole at the full share at the
    entry contents, make the proof data's arrays: the full share of M is split into its two halves, one per input
    window, both at M's contents. -/
theorem arrSplit1 (c : Dev nD) :
    (Pipeline.arrBufs (Ix := Unit) (Name := ℕ) (U := UR sig nD τ) (Lvl := ℕ) spec1 c (VR3 m c) : sProp 𝕄)
      ⊢ (pdats m 1 c).arrays ((pdats m 1 c).arrAt · 0) := by
  show (Pipeline.arrBufs spec1 c (VR3 m c) : sProp 𝕄) ⊢ (dat1 (VR3 m) c).arrays ((dat1 (VR3 m) c).arrAt · 0)
  rw [arrBufs1_eq, arrays1_eq]
  rw [show (dat1 (VR3 m) c).arrAt 0 0 = VR3 m c main_v4 from rfl, show (dat1 (VR3 m) c).arrAt 1 0 = VR3 m c main_v4 from rfl,
    show (dat1 (VR3 m) c).arrAt 2 0 = VR3 m c main_v5 from rfl]
  iintro ⟨H4, H5⟩
  ihave H4' := (pointsTo_share (PosShare.mem_left_op_right fullShare)).1 $$ H4
  icases H4' with ⟨Hl, Hr⟩
  isplitl [Hl]; · iexact Hl
  isplitl [Hr]; · iexact Hr
  iexact H5

/-- EXIT.  The proof data's arrays after the last point make the buffers behind them whole again at the contents after
    the call: the two halves of M, both still at M's entry contents (an input is never written), are joined; the output
    array holds the regions' result. -/
theorem arrJoin1 (c : Dev nD) :
    (pdats m 1 c).arrays ((pdats m 1 c).arrAt · cfg1.N)
      ⊢ (Pipeline.arrBufs (Ix := Unit) (Name := ℕ) (U := UR sig nD τ) (Lvl := ℕ) spec1 c (fun b => Gen.V4 m (outs m) c b) : sProp 𝕄) := by
  show (dat1 (VR3 m) c).arrays ((dat1 (VR3 m) c).arrAt · cfg1.N) ⊢ (Pipeline.arrBufs spec1 c (fun b => Gen.V4 m (outs m) c b) : sProp 𝕄)
  rw [arrBufs1_eq, arrays1_eq]
  have e0 : (dat1 (VR3 m) c).arrAt 0 cfg1.N = Gen.V4 m (outs m) c main_v4 :=
    ((dat1 (VR3 m) c).arrAt_in 0 rfl _).trans ((A_eq1 (VR3 m) c 0).trans (Gen.V4_of m (outs m) c main_v4 (by decide)).symm)
  have e1 : (dat1 (VR3 m) c).arrAt 1 cfg1.N = Gen.V4 m (outs m) c main_v4 :=
    ((dat1 (VR3 m) c).arrAt_in 1 rfl _).trans ((A_eq1 (VR3 m) c 1).trans (Gen.V4_of m (outs m) c main_v4 (by decide)).symm)
  have e2 : (dat1 (VR3 m) c).arrAt 2 cfg1.N = Gen.V4 m (outs m) c main_v5 := by
    show (dat1 (VR3 m) c).arrAt 2 cfg1.N
      = Function.update (Gen.V3 m (outs m) c) (Proc.devRef .tc main_v5) (outs m 4 main_v5 c) (Proc.devRef .tc main_v5)
    rw [Function.update_self]; exact (outs_v5 m c).symm
  rw [e0, e1, e2]
  iintro ⟨Hl, Hr, H5⟩
  isplitl [Hl Hr]
  · iapply (pointsTo_share (PosShare.mem_left_op_right fullShare)).2
    isplitl [Hl]; · iexact Hl
    iexact Hr
  iexact H5

/-- Every buffer that is no window's array of the second call holds after it what it held on entry. -/
theorem exitRest1 (c : Dev nD) :
    (Pipeline.unscopedRest (Ix := Unit) (Name := ℕ) (U := UR sig nD τ) (Lvl := ℕ) spec1 c (VR3 m c) : sProp 𝕄)
      = Pipeline.unscopedRest spec1 c (fun b => Gen.V4 m (outs m) c b) := by
  unfold Pipeline.unscopedRest
  exact bigSep_congr fun b hb => by
    rw [show (fun b : Ref sig .tc => Gen.V4 m (outs m) c b) b = VR3 m c b from
      Gen.V4_of m (outs m) c b fun h => (Finset.mem_sdiff.mp hb).2 (Finset.mem_image.mpr ⟨2, Finset.mem_univ _, (List.mem_singleton.mp h).symm⟩)]

set_option backward.isDefEq.respectTransparency.types false in
/-- The second call over the thread state: entered from every unscoped buffer at the contents after the second host
    stretch, left at those contents updated at the output array.  The invariant before the first point is the class
    invariant (the scratch at anything) and after the last point gives it back; nothing is owed; the kernel has no
    semaphore of its own. -/
def reg1 : Pipeline.RegionSeg (pcfgs (F := F)) Gen.adm (pdats m) () defs₀ Variants.none L0 lv0 1 where
  win := Gen.winFacts₀1
  block_pos := Gen.block_pos1
  stage_whole := Gen.stage_whole1
  K := PEmpty
  osem k := k.elim
  ho := Pipeline.OwnSemFacts.none _
  hbody c := (body_obligation1 (VR3 m) c).loose
  hwaits := Pipeline.hwaits_of_owed_zero _ _ _ _ L0 lv0 1 fun _ _ => rfl
  pre c := iprop(StableHlo.held (c : Thread nD τ) (Pipeline.ucRefs τ sig) (Gen.V3 m (outs m) c) ∗ Rst c)
  post c := iprop(StableHlo.held (c : Thread nD τ) (Pipeline.ucRefs τ sig) (Gen.V4 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (VR3 m c)
  hentry c := by
    rw [Pipeline.ownSems0_none]
    have hsplit : (unscopedBufs (Ix := Unit) (Name := ℕ) (U := UR sig nD τ) (Lvl := ℕ) c (VR3 m c) : sProp 𝕄)
        ⊢ iprop((pdats m 1 c).arrays ((pdats m 1 c).arrAt · 0) ∗ Pipeline.unscopedRest spec1 c (VR3 m c)) := by
      rw [Pipeline.unscopedBufs_split₀ cfgs 1 Gen.winFacts₀1.arr_unscoped c (VR3 m c)]
      exact sep_mono (arrSplit1 m c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (VR3 m) c).Φ 0 from rfl]
    refine BIBase.Entails.trans ?_ (hin1 (VR3 m) c)
    unfold Pipeline.ΦA
    iintro ⟨Hp, -, Hr⟩
    isplitl [Hr]; · iexact Hr
    iexact Hp
  hout c := by
    rw [Pipeline.ownSems0_none, show (pdats m 1 c).Φ (Fin.last _) = (dat1 (VR3 m) c).Φ (Fin.last cfg1.N) from rfl]
    refine BIBase.Entails.trans (hout1 (VR3 m) c) ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (VR3 m c))
        ⊢ (unscopedBufs (Ix := Unit) (Name := ℕ) (U := UR sig nD τ) (Lvl := ℕ) c (fun b => Gen.V4 m (outs m) c b) : sProp 𝕄) := by
      rw [Pipeline.unscopedBufs_split₀ cfgs 1 Gen.winFacts₀1.arr_unscoped c (fun b => Gen.V4 m (outs m) c b), exitRest1 m c]
      exact sep_mono (arrJoin1 m c) .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg1_pre (c : Dev nD) : (reg1 m).pre c = iprop(StableHlo.held (c : Thread nD τ) (Pipeline.ucRefs τ sig) (Gen.V3 m (outs m) c) ∗ Rst c) := rfl
theorem reg1_post (c : Dev nD) : (reg1 m).post c = iprop(StableHlo.held (c : Thread nD τ) (Pipeline.ucRefs τ sig) (Gen.V4 m (outs m) c) ∗ Rst c) := rfl

end Cert.Kernel.Hand

end
-- ==== Proof.K.RunCond.lean ====
/-
  The whole program's run, given the two regions' records: every weakly fair execution of @main terminates and
  every core's unscoped buffers end at the last valuation V5 — the launch contents carried through the three
  host stretches (reshape and converts; reshape; concatenate) and the two kernel regions (the tiled matmul, the
  pairwise-distance row sums).  The conditional frame reads only the two argument arrays off that valuation;
  here every unscoped buffer is read, the result of the concatenate among them.

  `run_cond` is stated over any user algebra, level assignment and rest states, as the conditional frame is;
  `run_of_regs` fixes them at this program's choices — nothing is owed between cores, the user algebra is the
  pipeline library's alone, and beside the buffers each core carries its generator register and owes nothing —
  so that only the two region records and their entry / exit entailments remain.
-/
import proofs.«123585_j16758962389448_1_alg».proof.Proof.K.Alg

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

-- the library's launch theorem's implicit arguments are found by unifying its conclusion with this one, which takes unfolding
-- plain definitions in a metavariable's type
set_option backward.isDefEq.respectTransparency.types false in
/-- THE RUN, GIVEN THE REGIONS' RECORDS.  Under the conditional frame's hypotheses — a segment record per kernel
    region, entered from the valuation before it (V1, V3) and left at the one after it (V2, V4), beside rest
    states the launch makes on every core and that end owing nothing — every weakly fair execution of @main from
    memory `m` with zero counters terminates, and in every final memory each core's every unscoped buffer holds
    what the last valuation V5 gives it. -/
theorem run_cond (m : (ℓ : Loc nD τ sig) → Buf (Elt F) ℓ)
    {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Gen.Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) Gen.adm pdats ι defs₀ 𝒱₀ L lv 0)
    (hpre0 : ∀ c : Dev nD, iprop(StableHlo.held (c : Thread nD τ) (Pipeline.ucRefs τ sig) (Gen.V1 m c) ∗ E 0 c) ⊢ R0.pre c)
    (hpost0 : ∀ c : Dev nD, R0.post c ⊢ iprop(StableHlo.held (c : Thread nD τ) (Pipeline.ucRefs τ sig) (Gen.V2 m outs c) ∗ E 1 c))
    (R1 : RegionSeg (pcfgs (F := F)) Gen.adm pdats ι defs₀ 𝒱₀ L lv 1)
    (hpre1 : ∀ c : Dev nD, iprop(StableHlo.held (c : Thread nD τ) (Pipeline.ucRefs τ sig) (Gen.V3 m outs c) ∗ E 1 c) ⊢ R1.pre c)
    (hpost1 : ∀ c : Dev nD, R1.post c ⊢ iprop(StableHlo.held (c : Thread nD τ) (Pipeline.ucRefs τ sig) (Gen.V4 m outs c) ∗ E 2 c)) :
    θ_run defs (onTc (τ := τ) (main (F := F))) ⟨m, fun _ => 0, ρ⟩ (fun r => ∀ c : Dev nD, ∀ b ∈ Pipeline.ucRefs τ sig,
      r.2.mem ((c : Thread nD τ).1, b) = Gen.V5 m outs c b) := by
  refine Pipeline.θ_run_regions_kit_dev (pcfgs (F := F)) Gen.adm pdats ι cellOf_inj EP defs₀ 𝒱₀ L lv m ρ main
    (Gen.segs m outs 𝒱₀ L lv E ι pdats R0 R1)
    (fun c Q => by
      rewrite [main_chain c, Seg.run_eq_chain,
        show (Gen.segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Seg.pipes_host, Seg.pipes_region, Seg.pipes_nil]; decide) O₀ hL G u₀ hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V5 m outs c))
    (hch := fun c => ⟨.rfl, hpre0 c, hpost0 c, hpre1 c, hpost1 c, sep_mono .rfl (hE2 c)⟩)
    (hinit := ?_) (QY := fun c s => ∀ b ∈ Pipeline.ucRefs τ sig, s.mem ((c : Thread nD τ).1, b) = Gen.V5 m outs c b)
    (hfin := fun c s' => ?_) (hQ := fun _ h => h)
  · -- the launch: the unscoped buffers are held at the launch contents; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (Gen.V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation against the final memory
    unfold StableHlo.held
    iintro ⟨Hh, HSI⟩
    imodintro
    iapply (pointsTo_read_all (Pipeline.ucRefs τ sig) (fun b => ((c : Thread nD τ).1, b)) (Gen.V5 m outs c) s')
    isplitl [Hh] <;> iassumption

-- as for `run_cond`: the implicit arguments are found by unifying conclusions through plain definitions
set_option backward.isDefEq.respectTransparency.types false in
/-- THE RUN AT THIS PROGRAM'S CHOICES.  No level is assigned and no core owes anything at launch; the user algebra is
    the pipeline library's alone, its launch element the library's at every pipeline's staging cells; no ghost
    resource is dealt; the rest beside the buffers is, at every item, the core's generator register at some state and
    its debts, none.  The launch deals each core its register at `ρ c` and its debts at the empty set of waits, which
    is that rest; and that rest owes nothing.  What remains to be supplied is the two regions' records, each entered
    from the buffers at the valuation before it and left at the one after it. -/
theorem run_of_regs (m : (ℓ : Loc nD τ sig) → Buf (Elt F) ℓ) (ρ : Dev nD → PrngReg) (outs : Gen.Outs (F := F))
    (pdats : (p : Fin 2) → (c : Dev nD) → Dat τ (Elt F) Unit ℕ (UR sig nD τ) ℕ (cfgs p) c)
    (R0 : RegionSeg (pcfgs (F := F)) Gen.adm pdats () defs₀ Variants.none L0 lv0 0)
    (hpre0 : ∀ c : Dev nD, iprop(StableHlo.held (c : Thread nD τ) (Pipeline.ucRefs τ sig) (Gen.V1 m c) ∗ Rst c) ⊢ R0.pre c)
    (hpost0 : ∀ c : Dev nD, R0.post c ⊢ iprop(StableHlo.held (c : Thread nD τ) (Pipeline.ucRefs τ sig) (Gen.V2 m outs c) ∗ Rst c))
    (R1 : RegionSeg (pcfgs (F := F)) Gen.adm pdats () defs₀ Variants.none L0 lv0 1)
    (hpre1 : ∀ c : Dev nD, iprop(StableHlo.held (c : Thread nD τ) (Pipeline.ucRefs τ sig) (Gen.V3 m outs c) ∗ Rst c) ⊢ R1.pre c)
    (hpost1 : ∀ c : Dev nD, R1.post c ⊢ iprop(StableHlo.held (c : Thread nD τ) (Pipeline.ucRefs τ sig) (Gen.V4 m outs c) ∗ Rst c)) :
    θ_run defs (onTc (τ := τ) (main (F := F))) ⟨m, fun _ => 0, ρ⟩ (fun r => ∀ c : Dev nD, ∀ b ∈ Pipeline.ucRefs τ sig,
      r.2.mem ((c : Thread nD τ).1, b) = Gen.V5 m outs c b) :=
  run_cond (F := F) m (Ix := Unit) (U := UR sig nD τ) (Lvl := ℕ) emb₁ () Variants.none L0 lv0 (fun _ _ => rfl) ρ outs pdats
    (O₀ := 0) (G := fun _ => iprop(emp))
    (u₀ := initOf (Pipeline.cells cfgs cellOf_inj) (Pipeline.launchToks cfgs cellOf_inj))
    (hu₀ := by
      -- the whole user component is the library's; the ghost resources are empty on every core
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      -- core by core: of what the launch deals, the register at `ρ c` and the debts at no waits make the rest
      refine Pipeline.initEach L0 lv0 fun c => ?_
      iintro ⟨⟨-, HO, -, Hp, -⟩, -⟩
      imodintro
      isplitl [Hp]; · iexists _; iexact Hp
      iexists ∅; iexact HO)
    (hE2 := fun c => by
      iintro ⟨-, HO⟩
      iexact HO)
    R0 hpre0 hpost0 R1 hpre1 hpost1

end Cert.Kernel.Hand

end
-- ==== Proof.K.Main.lean ====
/-
  The whole program's run: from the two region records, every weakly fair execution of @main terminates,
  faults nowhere, and ends with every unscoped buffer at the contents the items leave one after the other
  (the host stretches' results, each pallas_call's output array at what its write-backs leave).  The frame —
  the two argument arrays end as launched — is that read at the arguments, which no item writes.
-/
import proofs.«123585_j16758962389448_1_alg».proof.Proof.K.Segs
import proofs.«123585_j16758962389448_1_alg».proof.Proof.K.RunCond

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-- An unscoped reference is among those the thread state holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- Every weakly fair execution terminates with every unscoped buffer at the last valuation. -/
theorem run : θ_run defs (onTc (τ := τ) (main (F := F))) ⟨m, fun _ => 0, ρ⟩
    (fun r => ∀ c : Dev nD, ∀ b ∈ Pipeline.ucRefs τ sig, r.2.mem ((c : Thread nD τ).1, b) = Gen.V5 m (outs m) c b) :=
  run_of_regs m ρ (outs m) (pdats m)
    (reg0 m) (fun c => Entails.of_eq (reg0_pre m c).symm) (fun c => Entails.of_eq (reg0_post m c))
    (reg1 m) (fun c => Entails.of_eq (reg1_pre m c).symm) (fun c => Entails.of_eq (reg1_post m c))

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (Gen.V5_main_arg0 m (outs m) c),
     (h c _ (mem_uc main_arg1 (by decide))).trans (Gen.V5_main_arg1 m (outs m) c)⟩) (run m ρ)

end Cert.Kernel.Hand

end
-- ==== Proof.KI.Alg.lean ====
/-
  The choices every region record and the launch share: no core owes another anything (no level is assigned),
  and beside the buffers each core carries its generator register at some state and the fact that it owes nothing.
-/
import proofs.«123585_j16758962389448_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- No level is assigned: nothing is owed between cores. -/
abbrev L0 : GSem nD τ sig → Finset Unit := fun _ => ∅
abbrev lv0 : GSem nD τ sig → Unit → ℕ := fun _ _ => 0

/-- What rides beside the buffers through every item of the program: the core's generator register at some state
    and its debts, none. -/
abbrev Rst (c : Dev nD) : sProp 𝕄 :=
  iprop((∃ r, prngReg c r) ∗ ∃ W, owes (c : Thread nD τ) (0 : CellTallies nD τ sig Unit) W)

end Cert.KernelIdeal.Hand

end
-- ==== Proof.KI.R0.lean ====
/-
  The first pallas_call (the projection M2 = x . T2, one matmul per 128-row tile) as the pipeline's proof
  data, at the contents `V` the region finds: two input windows (the row tile of x, fetched at every
  point; the whole of T2, fetched once) and one output window (the row tile of the product) whose staging
  buffer the body stores whole.
-/
import proofs.«123585_j16758962389448_1_alg».proof.Proof.Gen.KernelIdeal.Launch
import proofs.«123585_j16758962389448_1_alg».proof.Proof.Gen.KernelIdeal.Skeleton
import proofs.«123585_j16758962389448_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- The unscoped buffers' contents when the region is entered.
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the output window's staging buffer: the product of the two input blocks. -/
def out0_2 (x0 : Vec F S128x1024 .bf16) (x1 : Vec F S1024x2048 .bf16) : Vec F S128x2048 .f32 :=
  k0_pay1 x0 x1

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## What each input window's staging buffer holds when the body is called -/

/-- The row tile of x is fetched at every point, so its buffer holds the tile of the array as the region found it. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- T2 is fetched at the first point only; its block index never moves and the body leaves the buffer as it
    found it, so at every point the buffer still holds the whole of T2 as the region found it. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body's accesses: every load and the one store take a whole staging buffer -/

/-- The offsets of every access of the body are zero on both axes. -/
theorem zeroOffsets : (![0, 0] : Fin 2 → Nat) = fun _ => 0 := funext fun a => by fin_cases a <;> rfl

/-- The whole row tile of x. -/
abbrev xTile : Rect S128x1024 := Rect.unit (s := S128x1024) ![0, 0] S128x1024.size inb_S128x1024_S128x1024_0_0
/-- The whole of T2. -/
abbrev t2All : Rect S1024x2048 := Rect.unit (s := S1024x2048) ![0, 0] S1024x2048.size inb_S1024x2048_S1024x2048_0_0
/-- The whole row tile of the product. -/
abbrev mTile : Rect S128x2048 := Rect.unit (s := S128x2048) ![0, 0] S128x2048.size inb_S128x2048_S128x2048_0_0

/-- The one store covers the product tile's buffer. -/
theorem cover_mTile (p : Vec F S128x2048 .f32) (y : S128x2048.Idx) :
    ∃ pc ∈ ([⟨mTile, p⟩] : List (View.Piece (Elt F) S128x2048 .f32)), y ∈ pc.1.set :=
  ⟨_, List.mem_singleton_self _, View.mem_set_unit_zero (S := S128x2048) zeroOffsets inb_S128x2048_S128x2048_0_0 y⟩

/-! ## The body's triple -/

set_option maxHeartbeats 1000000 in
/-- The body on whole staging memrefs — the x tile's at `x0`, T2's at `x1`, the product tile's at anything — runs to
    the continuation with the two inputs as they were and the product tile's buffer at the matmul of the two. -/
theorem sound_kernel0 (c : Dev nD) (E : Set ℕ) (i : grid0.Coords)
    (arg1 : Memref sig .tc .vmem S128x1024 .bf16) (harg1 : arg1.IsWhole)
    (arg2 : Memref sig .tc .vmem S1024x2048 .bf16) (harg2 : arg2.IsWhole)
    (arg3 : Memref sig .tc .vmem S128x2048 .f32) (harg3 : arg3.IsWhole)
    (x0 : Vec F S128x1024 .bf16) (x1 : Vec F S1024x2048 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__project_kernel i arg1 harg1 arg2 harg2 arg3 harg3) K := by
  simp only [cc0__project_kernel_eq_skeleton]; unfold cc0__project_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover_mTile _),
    View.canon_unit_zero (S := S128x2048) zeroOffsets inb_S128x2048_S128x2048_0_0]
  simp only [View.readAt_eq_ld, View.ld_unit_zero (S := S128x1024) zeroOffsets, View.ld_unit_zero (S := S1024x2048) zeroOffsets]
  rfl

/-! ## The body obligation, at a generic point -/

/-- What the body is called with at point `t`: the invariant, what the core owes, and the three windows' current
    staging buffers, each at what the pipeline put there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the same invariant and debt, the inputs' buffers at their blocks, the product tile's buffer at the
    matmul of the two. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks (`before0_0`, `before0_1`), so the body's triple
    applies; the invariant and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Defs.lean ====
/-
  The second pallas_call (pairwise L1 distance, exp, masked row sum) as the pipeline's proof data.

  Its grid is 4 x 4, point t = 4*bi + bj.  Window 0 stages rows 64*bi .. 64*bi+63 of M, window 1 rows
  64*bj .. 64*bj+63 of the SAME array M, window 2 is the output block of rows 64*bi ..; a 64 x 128 scratch
  is carried from point to point.  At bj = 0 the body zeroes the scratch; at every point it adds to the
  scratch the masked sum over the 64 partner rows of exp(-(L1 distance)); at bj = 3 it copies the scratch
  into the output block, which the pipeline writes back there and only there (the output window is idle
  at the other points).

  `upd` is one point's update of the scratch as a pure function of the two input blocks and of what the
  scratch held when it was read; `accAt1` is the scratch after each point, by recursion on the point;
  the proof data name the arrays as the region finds them, what every staging buffer holds after the
  body, and the invariant between points (the scratch at `accAt1`).  The array M is read through two
  windows: each holds one half of its full share.
-/
import proofs.«123585_j16758962389448_1_alg».proof.Proof.Gen.KernelIdeal.Launch
import proofs.«123585_j16758962389448_1_alg».proof.Proof.Gen.KernelIdeal.Skeleton
import proofs.«123585_j16758962389448_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- The unscoped buffers' contents when the region is entered: the parameter everything here is stated at.
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One point's update of the scratch: from the block `x0` of rows of this point's row tile, the block `x1` of
    the partner tile, and the scratch `s` as the body reads it (after the reset, at a point that resets),
    `s + sum over the 64 partner rows of exp(0 - sum_k |x0 - x1|) * [row differs from partner row]`. -/
def upd (i : grid1.Coords) (x0 x1 : Vec F S64x128x16 .f32) (s : Vec F S64x128 .f32) : Vec F S64x128 .f32 :=
  k1_pay1 (BitVec.ofNat 32 (i 0).val) (BitVec.ofNat 32 (i 1).val) (k1_pay3 x0) (k1_pay4 x1)
    (k1_pay10 (k1_pay3 x0) (k1_pay4 x1)
      (k1_pay8 (k1_pay3 x0) (k1_pay4 x1) (k1_pay5 x0 x1) (k1_pay6 x1) (k1_pay7 x0)) (k1_pay9 (k1_pay3 x0)))
    (k1_pay11 (k1_pay3 x0)) (k1_pay12 (k1_pay4 x1)) s

/-- The scratch after the body at point `n`: the update of the zero vector at a point that resets (bj = 0),
    else of what the point before left. -/
def accAt1 (c : Dev nD) : (n : ℕ) → n < cfg1.N → Vec F S64x128 .f32
  | 0, hn => upd (grid1.coords ⟨0, hn⟩) (iblk1 V c 0 ⟨0, hn⟩) (iblk1 V c 1 ⟨0, hn⟩) (k1_pay2 (F := F))
  | n + 1, hn =>
    if (n + 1) % 4 = 0 then
      upd (grid1.coords ⟨n + 1, hn⟩) (iblk1 V c 0 ⟨n + 1, hn⟩) (iblk1 V c 1 ⟨n + 1, hn⟩) (k1_pay2 (F := F))
    else
      upd (grid1.coords ⟨n + 1, hn⟩) (iblk1 V c 0 ⟨n + 1, hn⟩) (iblk1 V c 1 ⟨n + 1, hn⟩) (accAt1 c n (Nat.lt_of_succ_lt hn))

theorem accAt1_reset (c : Dev nD) (t : Fin cfg1.N) (h0 : t.val % 4 = 0) :
    accAt1 V c t.val t.isLt = upd (grid1.coords t) (iblk1 V c 0 t) (iblk1 V c 1 t) (k1_pay2 (F := F)) := by
  obtain ⟨n, hn⟩ := t
  cases n with
  | zero => rfl
  | succ n => exact (if_pos h0)

theorem accAt1_step (c : Dev nD) (t : Fin cfg1.N) (h0 : ¬ t.val % 4 = 0) :
    accAt1 V c t.val t.isLt = upd (grid1.coords t) (iblk1 V c 0 t) (iblk1 V c 1 t)
      (accAt1 V c (t.val - 1) (Nat.lt_of_le_of_lt (Nat.sub_le _ _) t.isLt)) := by
  obtain ⟨n, hn⟩ := t
  cases n with
  | zero => exact absurd (Nat.zero_mod _) h0
  | succ n => exact (if_neg h0)

/-- The scratch operand: a whole scoped buffer of the kernel's own. -/
abbrev scM1 : Memref sig .tc .vmem S64x128 .f32 := Memref.whole cc1_scratch0

/-- The region invariant before position `n`: before the first point every scoped buffer that is no staging
    buffer of this call at anything; afterwards the same with the scratch at what the point before left. -/
def PhiS1 (c : Dev nD) : (n : ℕ) → n ≤ cfg1.N → sProp 𝕄
  | 0, _ => Pipeline.ΦA spec1 c
  | n + 1, hn =>
    iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg2_1), ((c : Thread nD τ).loc cc0_stg2_1) ↦{fullShare} f)
        ∗ owns (c : Thread nD τ) scM1 fullShare (accAt1 V c n hn))
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn =
    iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg2_1), ((c : Thread nD τ).loc cc0_stg2_1) ↦{fullShare} f)
        ∗ owns (c : Thread nD τ) scM1 fullShare (accAt1 V c n hn))
      ∗ (∃ r, prngReg c r)) := rfl

theorem PhiS1_pos (c : Dev nD) (n : ℕ) (h : n ≤ cfg1.N) (hz : n ≠ 0) :
    PhiS1 V c n h =
    iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg2_1), ((c : Thread nD τ).loc cc0_stg2_1) ↦{fullShare} f)
        ∗ owns (c : Thread nD τ) scM1 fullShare (accAt1 V c (n - 1) (by omega)))
      ∗ (∃ r, prngReg c r)) := by
  cases n with
  | zero => exact absurd rfl hz
  | succ n => rfl

/-- The class invariant with the scratch as a memref owned at some contents. -/
theorem PhiA1_eq (c : Dev nD) :
    (Pipeline.ΦA spec1 c : sProp 𝕄) =
    iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg2_1), ((c : Thread nD τ).loc cc0_stg2_1) ↦{fullShare} f)
        ∗ (∃ d, owns (c : Thread nD τ) scM1 fullShare d))
      ∗ (∃ r, prngReg c r)) := by
  unfold Pipeline.ΦA; rw [scopedRest1_eq]; simp only [scM1, owns_whole]; try rfl

/-- The proof data of the second pipeline on core `c`: the arrays as the region finds them; after the body at
    point `t` each input's buffer at its block and the output's at the scratch's contents then (consulted only at
    the points that write back, bj = 3); the invariant `PhiS1`; nothing owed; the array M, read through windows 0
    and 1, held half and half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]
theorem Phi1_castSucc (c : Dev nD) (t : Fin cfg1.N) :
    (dat1 V c).Φ t.castSucc = PhiS1 V c t.val (Nat.le_of_lt t.isLt) := by
  dsimp only [dat1]; simp only [Fin.coe_castSucc]

end Cert.KernelIdeal.Hand

end
-- ==== Proof.KI.R1Facts.lean ====
/-
  The second pallas_call's schedule facts, decided over its 16 grid points (t = 4*bi + bj): the body's two
  branch conditions in closed form (the reset at bj = 0, the copy-out at bj = 3), where the output window is
  idle and where it is written back, the staging memrefs the pipeline passes at a point, and each input
  window's staging buffer holding its block at every point (fetched there or not).
-/
import proofs.«123585_j16758962389448_1_alg».proof.Proof.KI.R1Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- The unscoped buffers' contents when the region is entered.
variable (V : (c : Dev nD) → (b : Ref sig .tc) → Buf (Elt F) ((c : Thread nD τ).loc b))

/-- The body's first conditional (the reset): taken when the partner-tile coordinate bj is 0. -/
abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The body's second conditional (the copy of the scratch into the output block): taken when bj is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Where the body does not copy out (bj ≠ 3) the output window is idle and its block is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- Where it copies out (bj = 3) the window is live. -/
theorem liveAt1_2 : ∀ t : Fin cfg1.N, cond1_1 (grid1.coords t) → cfg1.idle 2 (grid1.coords t) = false := by decide +kernel

/-- Each window's current staging memref at point `t`, as the pipeline passes it, and its wholeness. -/
abbrev ms1_0 (t : Fin cfg1.N) : Memref sig .tc .vmem S64x128x16 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x128x16 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x128 .f32 := win1_2.stage (cfg1.slots t 2)
abbrev hs1_2 (t : Fin cfg1.N) : (ms1_2 t).IsWhole := hstage1_2 ((cfg1.slots t 2).cast nbuf1_2)

/-- Input window 0's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
/-- Input window 1's likewise. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

end Cert.KernelIdeal.Hand

end
-- ==== Proof.KI.R1RunA.lean ====
/-
  The second pallas_call's body run once, at a point that resets the scratch (bj = 0) and does not copy out: on whole memrefs, the two input blocks at
  `x0`, `x1`, it ends with the scratch at `upd i x0 x1 s`, `s` what the scratch held when the body read it.
-/
import proofs.«123585_j16758962389448_1_alg».proof.Proof.KI.R1Facts
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
theorem run1_A (c : Dev nD) (i : grid1.Coords) (arg2 : Memref sig .tc .vmem S64x128x16 .f32) (harg2 : arg2.IsWhole)
    (arg3 : Memref sig .tc .vmem S64x128x16 .f32) (harg3 : arg3.IsWhole) (arg4 : Memref sig .tc .vmem S64x128 .f32) (harg4 : arg4.IsWhole)
    (arg5 : Memref sig .tc .vmem S64x128 .f32) (harg5 : arg5.IsWhole) (hc0 : cond1_0 i) (hc1 : ¬cond1_1 i)
    (x0 x1 : Vec F S64x128x16 .f32) (xi : Vec F S64x128 .f32) (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi
              ∗ owns (c : Thread nD τ) arg5 fullShare (upd i x0 x1 (k1_pay2 (F := F)))) -∗ K ⟨⟩))
      ⊢ wp frame (wpE (defs₀ (F := F)) Variants.none c none) E (cc1_kernel i arg2 harg2 arg3 harg3 arg4 harg4 arg5 harg5) K := by
  -- every load and store of the body is through a whole-block rectangle at zero offsets
  have hz2 : (![0, 0] : Fin 2 → Nat) = fun _ => 0 := funext fun a => by fin_cases a <;> rfl
  have hz3 : (![0, 0, 0] : Fin 3 → Nat) = fun _ => 0 := funext fun a => by fin_cases a <;> rfl
  -- the body as its memory operations over the payloads
  rw [cc1_kernel_eq_skeleton]; unfold cc1_kernel_skel
  unfold owns
  iintro ⟨⟨%f0, %hf0, H0⟩, ⟨%f1, %hf1, H1⟩, ⟨%f4, %hf4, H4⟩, ⟨%ds, %fs, -, HS⟩, Hk⟩
  obtain rfl := harg2.eq_unread hf0; obtain rfl := harg3.eq_unread hf1; obtain rfl := harg4.eq_unread hf4
  -- the run: the reset branch is taken (the scratch is stored the zero block), the copy-out is not
  sl_exec (disch := first | exact hc0 | exact hc1)
  sl_step
  iapply Hk
  -- the two input blocks are handed back as they were read
  isplitl [H0]
  · iexists _; isplitr; · ipureintro; exact harg2.read_unread _
    iexact H0
  isplitl [H1]
  · iexists _; isplitr; · ipureintro; exact harg3.read_unread _
    iexact H1
  -- the output block was not touched
  isplitl [H4]
  · iexists _; isplitr; · ipureintro; exact harg4.read_unread _
    iexact H4
  -- the scratch: the update's store is the later of two covering stores, so it reads back as its payload, whose load of the
  -- scratch read the zero block the reset had just stored
  iexists _; isplitr
  swap; · iexact HS
  ipureintro
  rw [View.read_writes_eq_canon _ _ _ (fun y => ⟨_, List.mem_cons.mpr (Or.inl rfl), View.mem_set_unit_zero (S := S64x128) hz2 inb_S64x128_S64x128_0_0 y⟩)]
  rw [View.canon_cons_unit_zero (S := S64x128) hz2]
  sl_unfold_words
  rw [View.readCov_unit_zero (S := S64x128) _ hz2]
  simp only [View.readAt_eq_ld, harg2.read_unread, harg3.read_unread, View.ld_unit_zero (S := S64x128) hz2,
    View.ld_unit_zero (S := S64x128x16) hz3]
  rfl

end Cert.KernelIdeal.Hand

end
-- ==== Proof.KI.R1RunB.lean ====
/-
  The second pallas_call's body run once, at a point that neither resets nor copies out (bj = 1, 2): on whole memrefs, the two input blocks at
  `x0`, `x1`, it ends with the scratch at `upd i x0 x1 s`, `s` what the scratch held when the body read it.
-/
import proofs.«123585_j16758962389448_1_alg».proof.Proof.KI.R1Facts
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
theorem run1_B (c : Dev nD) (i : grid1.Coords) (arg2 : Memref sig .tc .vmem S64x128x16 .f32) (harg2 : arg2.IsWhole)
    (arg3 : Memref sig .tc .vmem S64x128x16 .f32) (harg3 : arg3.IsWhole) (arg4 : Memref sig .tc .vmem S64x128 .f32) (harg4 : arg4.IsWhole)
    (arg5 : Memref sig .tc .vmem S64x128 .f32) (harg5 : arg5.IsWhole) (hc0 : ¬cond1_0 i) (hc1 : ¬cond1_1 i)
    (x0 x1 : Vec F S64x128x16 .f32) (xi xs : Vec F S64x128 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi
              ∗ owns (c : Thread nD τ) arg5 fullShare (upd i x0 x1 xs)) -∗ K ⟨⟩))
      ⊢ wp frame (wpE (defs₀ (F := F)) Variants.none c none) E (cc1_kernel i arg2 harg2 arg3 harg3 arg4 harg4 arg5 harg5) K := by
  -- every load and store of the body is through a whole-block rectangle at zero offsets
  have hz2 : (![0, 0] : Fin 2 → Nat) = fun _ => 0 := funext fun a => by fin_cases a <;> rfl
  have hz3 : (![0, 0, 0] : Fin 3 → Nat) = fun _ => 0 := funext fun a => by fin_cases a <;> rfl
  -- the body as its memory operations over the payloads
  rw [cc1_kernel_eq_skeleton]; unfold cc1_kernel_skel
  unfold owns
  iintro ⟨⟨%f0, %hf0, H0⟩, ⟨%f1, %hf1, H1⟩, ⟨%f4, %hf4, H4⟩, ⟨%fs, %hfs, HS⟩, Hk⟩
  obtain rfl := harg2.eq_unread hf0; obtain rfl := harg3.eq_unread hf1; obtain rfl := harg4.eq_unread hf4; obtain rfl := harg5.eq_unread hfs
  -- the run: neither branch is taken; the scratch gets one whole-block store of the update
  sl_exec (disch := first | exact hc0 | exact hc1)
  sl_step
  iapply Hk
  -- the two input blocks are handed back as they were read
  isplitl [H0]
  · iexists _; isplitr; · ipureintro; exact harg2.read_unread _
    iexact H0
  isplitl [H1]
  · iexists _; isplitr; · ipureintro; exact harg3.read_unread _
    iexact H1
  -- the output block was not touched
  isplitl [H4]
  · iexists _; isplitr; · ipureintro; exact harg4.read_unread _
    iexact H4
  -- the scratch: its one covering store reads back as its payload, over the whole blocks x0, x1 and the scratch's contents xs
  iexists _; isplitr
  swap; · iexact HS
  ipureintro
  rw [View.read_writes_eq_canon _ _ _ (fun y => ⟨_, List.mem_singleton_self _, View.mem_set_unit_zero (S := S64x128) hz2 inb_S64x128_S64x128_0_0 y⟩)]
  rw [View.canon_unit_zero (S := S64x128) hz2]
  sl_unfold_words
  simp only [View.readAt_eq_ld, harg2.read_unread, harg3.read_unread, harg5.read_unread, View.ld_unit_zero (S := S64x128) hz2,
    View.ld_unit_zero (S := S64x128x16) hz3]
  rfl

end Cert.KernelIdeal.Hand

end
-- ==== Proof.KI.R1RunC.lean ====
/-
  The second pallas_call's body run once, at the point that copies the scratch out (bj = 3): on whole memrefs, the two input blocks at
  `x0`, `x1`, it ends with the scratch at `upd i x0 x1 s`, `s` what the scratch held when the body read it.
-/
import proofs.«123585_j16758962389448_1_alg».proof.Proof.KI.R1Facts
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
theorem run1_C (c : Dev nD) (i : grid1.Coords) (arg2 : Memref sig .tc .vmem S64x128x16 .f32) (harg2 : arg2.IsWhole)
    (arg3 : Memref sig .tc .vmem S64x128x16 .f32) (harg3 : arg3.IsWhole) (arg4 : Memref sig .tc .vmem S64x128 .f32) (harg4 : arg4.IsWhole)
    (arg5 : Memref sig .tc .vmem S64x128 .f32) (harg5 : arg5.IsWhole) (hc0 : ¬cond1_0 i) (hc1 : cond1_1 i)
    (x0 x1 : Vec F S64x128x16 .f32) (xs : Vec F S64x128 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (upd i x0 x1 xs)
              ∗ owns (c : Thread nD τ) arg5 fullShare (upd i x0 x1 xs)) -∗ K ⟨⟩))
      ⊢ wp frame (wpE (defs₀ (F := F)) Variants.none c none) E (cc1_kernel i arg2 harg2 arg3 harg3 arg4 harg4 arg5 harg5) K := by
  -- every load and store of the body is through a whole-block rectangle at zero offsets
  have hz2 : (![0, 0] : Fin 2 → Nat) = fun _ => 0 := funext fun a => by fin_cases a <;> rfl
  have hz3 : (![0, 0, 0] : Fin 3 → Nat) = fun _ => 0 := funext fun a => by fin_cases a <;> rfl
  -- the body as its memory operations over the payloads
  rw [cc1_kernel_eq_skeleton]; unfold cc1_kernel_skel
  unfold owns
  iintro ⟨⟨%f0, %hf0, H0⟩, ⟨%f1, %hf1, H1⟩, ⟨%d4, %f4, -, H4⟩, ⟨%fs, %hfs, HS⟩, Hk⟩
  obtain rfl := harg2.eq_unread hf0; obtain rfl := harg3.eq_unread hf1; obtain rfl := harg5.eq_unread hfs
  -- the run: no reset; the scratch gets one whole-block store of the update, which the copy-out then stores into the output block
  sl_exec (disch := first | exact hc0 | exact hc1)
  sl_step
  iapply Hk
  -- the two input blocks are handed back as they were read
  isplitl [H0]
  · iexists _; isplitr; · ipureintro; exact harg2.read_unread _
    iexact H0
  isplitl [H1]
  · iexists _; isplitr; · ipureintro; exact harg3.read_unread _
    iexact H1
  -- the output block: its one covering store holds what the load of the scratch after the update's store read, the update
  isplitl [H4]
  · iexists _; isplitr
    swap; · iexact H4
    ipureintro
    sl_unfold_words
    rw [View.read_writes_eq_canon _ _ _ (fun y => ⟨_, List.mem_singleton_self _, View.mem_set_unit_zero (S := S64x128) hz2 inb_S64x128_S64x128_0_0 y⟩)]
    rw [View.canon_unit_zero (S := S64x128) hz2]
    rw [View.readCov_unit_zero (S := S64x128) _ hz2]
    simp only [View.readAt_eq_ld, harg2.read_unread, harg3.read_unread, harg5.read_unread, View.ld_unit_zero (S := S64x128) hz2,
      View.ld_unit_zero (S := S64x128x16) hz3]
    rfl
  -- the scratch: its one covering store reads back as its payload, over the whole blocks x0, x1 and the scratch's contents xs
  iexists _; isplitr
  swap; · iexact HS
  ipureintro
  sl_unfold_words
  rw [View.read_writes_eq_canon _ _ _ (fun y => ⟨_, List.mem_singleton_self _, View.mem_set_unit_zero (S := S64x128) hz2 inb_S64x128_S64x128_0_0 y⟩)]
  rw [View.canon_unit_zero (S := S64x128) hz2]
  simp only [View.readAt_eq_ld, harg2.read_unread, harg3.read_unread, harg5.read_unread, View.ld_unit_zero (S := S64x128) hz2,
    View.ld_unit_zero (S := S64x128x16) hz3]
  rfl

end Cert.KernelIdeal.Hand

end
-- ==== Proof.KI.R1Body.lean ====
/-
  The second pallas_call's body obligation: at every grid point the body, handed the invariant (the scratch at
  what the point before left), the two input blocks and the output window's buffer, returns the invariant at
  the next point and each buffer at what the proof data say; and the invariant's two ends.
-/
import proofs.«123585_j16758962389448_1_alg».proof.Proof.KI.R1RunA
import proofs.«123585_j16758962389448_1_alg».proof.Proof.KI.R1RunB
import proofs.«123585_j16758962389448_1_alg».proof.Proof.KI.R1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- The unscoped buffers' contents when the region is entered.
variable (V : (c : Dev nD) → (b : Ref sig .tc) → Buf (Elt F) ((c : Thread nD τ).loc b))

/-- What the body is called with at point `t`: the invariant, the core's debt, and each window's current staging
    buffer at what it holds before the body. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- What it returns: the invariant at the next point, the same debt, and each buffer at what the proof data say. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point.  The two input buffers hold their blocks.  By the residue of the point mod 4 (bj):
    at bj = 0 the scratch, whatever it holds, is overwritten by the update of the zero vector (`accAt1_reset`);
    at bj = 1, 2 the scratch at what the point before left is updated (`accAt1_step`), and in both the output
    buffer, idle and not written back, is returned at what it came with; at bj = 3 the scratch is updated and copied
    into the output buffer, which is live there.  The other call's five staging buffers, the generator register and
    the core's debt pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 16 := lt_of_lt_of_eq t.isLt (show cfg1.N = 16 from N_1)
  by_cases h0 : t.val % 4 = 0
  · -- bj = 0: the reset
    have h1 : ¬ t.val % 4 = 3 := by omega
    have hc0 : cond1_0 (grid1.coords t) := (hcond1_0 t).mpr h0
    have hc1 : ¬ cond1_1 (grid1.coords t) := fun h => h1 ((hcond1_1 t).mp h)
    rw [Dat.leavesExact_idle (dat1 V c) 2 t (idleAt1_2 t hc1) (noFlush1_2 t hc1)]
    rw [accAt1_reset V c t h0]
    by_cases hz : t.val = 0
    · rw [Phi1_castSucc V c t, PhiS1_zero V c _ _ hz, PhiA1_eq]
      iintro ⟨⟨⟨Hs0, Hs1, Hs2, Hs3, Hs4, ⟨%ds, HS⟩⟩, Hg⟩, Ho, ⟨%d0, H0⟩, ⟨%d1, H1⟩, ⟨%d2, H2⟩⟩
      iapply (run1_A c (grid1.coords t) _ _ _ _ _ _ _ _ hc0 hc1 (iblk1 V c 0 t) (iblk1 V c 1 t) ((dat1 V c).before 2 t d2) Set.univ _)
      isplitl [H0]; · iexact H0
      isplitl [H1]; · iexact H1
      isplitl [H2]; · iexact H2
      isplitl [HS]; · iexists _; iexact HS
      iintro ⟨H0, H1, H2, HS⟩
      isplitl [Hs0 Hs1 Hs2 Hs3 Hs4 HS Hg]
      · isplitr [Hg]
        · isplitl [Hs0]; · iexact Hs0
          isplitl [Hs1]; · iexact Hs1
          isplitl [Hs2]; · iexact Hs2
          isplitl [Hs3]; · iexact Hs3
          isplitl [Hs4]; · iexact Hs4
          iexact HS
        iexact Hg
      isplitl [Ho]; · iexact Ho
      isplitl [H0]; · iexact H0
      isplitl [H1]; · iexact H1
      iexists _; iexact H2
    · rw [Phi1_castSucc V c t, PhiS1_pos V c _ _ hz]
      iintro ⟨⟨⟨Hs0, Hs1, Hs2, Hs3, Hs4, HS⟩, Hg⟩, Ho, ⟨%d0, H0⟩, ⟨%d1, H1⟩, ⟨%d2, H2⟩⟩
      iapply (run1_A c (grid1.coords t) _ _ _ _ _ _ _ _ hc0 hc1 (iblk1 V c 0 t) (iblk1 V c 1 t) ((dat1 V c).before 2 t d2) Set.univ _)
      isplitl [H0]; · iexact H0
      isplitl [H1]; · iexact H1
      isplitl [H2]; · iexact H2
      isplitl [HS]; · iexists _; iexact HS
      iintro ⟨H0, H1, H2, HS⟩
      isplitl [Hs0 Hs1 Hs2 Hs3 Hs4 HS Hg]
      · isplitr [Hg]
        · isplitl [Hs0]; · iexact Hs0
          isplitl [Hs1]; · iexact Hs1
          isplitl [Hs2]; · iexact Hs2
          isplitl [Hs3]; · iexact Hs3
          isplitl [Hs4]; · iexact Hs4
          iexact HS
        iexact Hg
      isplitl [Ho]; · iexact Ho
      isplitl [H0]; · iexact H0
      isplitl [H1]; · iexact H1
      iexists _; iexact H2
  · have hz : t.val ≠ 0 := fun h => h0 (by rw [h])
    have hc0 : ¬ cond1_0 (grid1.coords t) := fun h => h0 ((hcond1_0 t).mp h)
    rw [accAt1_step V c t h0]
    rw [Phi1_castSucc V c t, PhiS1_pos V c _ _ hz]
    by_cases h1 : t.val % 4 = 3
    · -- bj = 3: the update and the copy into the output buffer
      have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2, accAt1_step V c t h0]
      iintro ⟨⟨⟨Hs0, Hs1, Hs2, Hs3, Hs4, HS⟩, Hg⟩, Ho, ⟨%d0, H0⟩, ⟨%d1, H1⟩, ⟨%d2, H2⟩⟩
      iapply (run1_C c (grid1.coords t) _ _ _ _ _ _ _ _ hc0 hc1 (iblk1 V c 0 t) (iblk1 V c 1 t) _ Set.univ _)
      isplitl [H0]; · iexact H0
      isplitl [H1]; · iexact H1
      isplitl [H2]; · iexists _; iexact H2
      isplitl [HS]; · iexact HS
      iintro ⟨H0, H1, H2, HS⟩
      isplitl [Hs0 Hs1 Hs2 Hs3 Hs4 HS Hg]
      · isplitr [Hg]
        · isplitl [Hs0]; · iexact Hs0
          isplitl [Hs1]; · iexact Hs1
          isplitl [Hs2]; · iexact Hs2
          isplitl [Hs3]; · iexact Hs3
          isplitl [Hs4]; · iexact Hs4
          iexact HS
        iexact Hg
      isplitl [Ho]; · iexact Ho
      isplitl [H0]; · iexact H0
      isplitl [H1]; · iexact H1
      iexact H2
    · -- bj = 1, 2: the update alone
      have hc1 : ¬ cond1_1 (grid1.coords t) := fun h => h1 ((hcond1_1 t).mp h)
      rw [Dat.leavesExact_idle (dat1 V c) 2 t (idleAt1_2 t hc1) (noFlush1_2 t hc1)]
      iintro ⟨⟨⟨Hs0, Hs1, Hs2, Hs3, Hs4, HS⟩, Hg⟩, Ho, ⟨%d0, H0⟩, ⟨%d1, H1⟩, ⟨%d2, H2⟩⟩
      iapply (run1_B c (grid1.coords t) _ _ _ _ _ _ _ _ hc0 hc1 (iblk1 V c 0 t) (iblk1 V c 1 t) ((dat1 V c).before 2 t d2) _ Set.univ _)
      isplitl [H0]; · iexact H0
      isplitl [H1]; · iexact H1
      isplitl [H2]; · iexact H2
      isplitl [HS]; · iexact HS
      iintro ⟨H0, H1, H2, HS⟩
      isplitl [Hs0 Hs1 Hs2 Hs3 Hs4 HS Hg]
      · isplitr [Hg]
        · isplitl [Hs0]; · iexact Hs0
          isplitl [Hs1]; · iexact Hs1
          isplitl [Hs2]; · iexact Hs2
          isplitl [Hs3]; · iexact Hs3
          isplitl [Hs4]; · iexact Hs4
          iexact HS
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the scratch's contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hs0, Hs1, Hs2, Hs3, Hs4, HS⟩, Hg⟩
  isplitr [Hg]
  · isplitl [Hs0]; · iexact Hs0
    isplitl [Hs1]; · iexact Hs1
    isplitl [Hs2]; · iexact Hs2
    isplitl [Hs3]; · iexact Hs3
    isplitl [Hs4]; · iexact Hs4
    iexists _; iexact HS
  iexact Hg

/-- After the last point the invariant gives the class invariant back: the scratch's contents are forgotten. -/
theorem hout1 (c : Dev nD) : (dat1 V c).Φ (Fin.last cfg1.N) ⊢ Pipeline.ΦA spec1 c :=
  Phi1_out V c _ (by rw [Fin.val_last]; have : cfg1.N = 16 := N_1; omega)

end Cert.KernelIdeal.Hand

end
-- ==== Proof.KI.Segs.lean ====
/-
  The two pallas_calls as segments of the program.  Between two items of the program every unscoped buffer
  of a core is held whole at a known valuation; a region splits its windows' arrays out of that valuation on
  entry and puts them back, at what the pipeline leaves in them, on exit.  The first call's three windows
  are on three different arrays.  The second call reads the array M through two windows: on entry the whole
  of M is split into two halves of its share, one per window, and on exit the two halves (an input is never
  written) are joined back.
-/
import proofs.«123585_j16758962389448_1_alg».proof.Proof.KI.Alg
import proofs.«123585_j16758962389448_1_alg».proof.Proof.KI.R0
import proofs.«123585_j16758962389448_1_alg».proof.Proof.KI.R1Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

-- The memory the program is launched from.
variable (m : (ℓ : Loc nD τ sig) → Buf (Elt F) ℓ)

/-! ## What the regions leave, and the contents each is entered at -/

/-- The first call's entry contents: the launch memory after the first host stretch (the reshape of T and the
    two roundings to bf16). -/
abbrev VR1 : (c : Dev nD) → (b : Ref sig .tc) → Buf (Elt F) ((c : Thread nD τ).loc b) := fun c b => Gen.V1 m c b

/-- What the first call leaves in its output array M2: every row tile's product, written back in point order. -/
def o3 (c : Dev nD) : Buf (Elt F) ((c : Thread nD τ).loc main_v3) := (dat0 (VR1 m) c).arrAt 2 cfg0.N

/-- The first call's result alone, every other buffer as launched: enough to state the second call's entry. -/
def outsA : Gen.Outs (F := F) := fun _ r c =>
  if h : r = main_v3 then h ▸ o3 m c else m ((c : Thread nD τ).loc r)

theorem outsA_v3 (c : Dev nD) : outsA m 2 main_v3 c = o3 m c := by
  unfold outsA; rw [dif_pos rfl]

/-- The second call's entry contents over the first call's result: M2 reshaped to M by the second host stretch. -/
abbrev VRA3 : (c : Dev nD) → (b : Ref sig .tc) → Buf (Elt F) ((c : Thread nD τ).loc b) := fun c b => Gen.V3 m (outsA m) c b

/-- What the second call leaves in its output array: each 64-row block's masked row sums, written back at bj = 3. -/
def o5 (c : Dev nD) : Buf (Elt F) ((c : Thread nD τ).loc main_v5) := (dat1 (VRA3 m) c).arrAt 2 cfg1.N

/-- What the two regions leave in the arrays they write: M2 after the first call, the row sums after the second. -/
def outs : Gen.Outs (F := F) := fun _ r c =>
  if h : r = main_v3 then h ▸ o3 m c
  else if h5 : r = main_v5 then h5 ▸ o5 m c
  else m ((c : Thread nD τ).loc r)

theorem outs_v3_o3 (c : Dev nD) : outs m 2 main_v3 c = o3 m c := by
  unfold outs; rw [dif_pos rfl]

theorem outs_v5_o5 (c : Dev nD) : outs m 4 main_v5 c = o5 m c := by
  unfold outs; rw [dif_neg (by decide), dif_pos rfl]

/-- The second call's entry contents see the regions' results only at M2. -/
theorem V3_outs (c : Dev nD) : Gen.V3 m (outs m) c = Gen.V3 m (outsA m) c := by
  show StableHlo.after hostOps1 (Function.update (Gen.V1 m c) main_v3 (outs m 2 main_v3 c))
    = StableHlo.after hostOps1 (Function.update (Gen.V1 m c) main_v3 (outsA m 2 main_v3 c))
  rw [outs_v3_o3, outsA_v3]

/-- The second call's entry contents. -/
abbrev VR3 : (c : Dev nD) → (b : Ref sig .tc) → Buf (Elt F) ((c : Thread nD τ).loc b) := fun c b => Gen.V3 m (outs m) c b

theorem VR3_eq : VR3 m = VRA3 m := by
  funext c b; show Gen.V3 m (outs m) c b = Gen.V3 m (outsA m) c b; rw [V3_outs]

theorem outs_v3 (c : Dev nD) : outs m 2 main_v3 c = (dat0 (VR1 m) c).arrAt 2 cfg0.N := outs_v3_o3 m c

theorem outs_v5 (c : Dev nD) : outs m 4 main_v5 c = (dat1 (VR3 m) c).arrAt 2 cfg1.N := by
  rw [VR3_eq]; exact outs_v5_o5 m c

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (VR1 m) c
  | ⟨1, _⟩ => fun c => dat1 (VR3 m) c

/-! ## The first call's segment -/

/-- At the first call's exit each window's array holds what the valuation after the call says: the two inputs
    (never written) what they held on entry, the output M2 the regions' result there. -/
theorem exitArr0 (c : Dev nD) : ∀ w : Fin cfg0.W,
    (pdats m 0 c).arrAt w cfg0.N = (fun b : Ref sig .tc => Gen.V2 m (outs m) c b) (Pipeline.arrRef spec0 w)
  | ⟨0, _⟩ => ((dat0 (VR1 m) c).arrAt_in 0 rfl _).trans ((A_eq0 (VR1 m) c 0).trans (Gen.V2_of m (outs m) c _ (by decide)).symm)
  | ⟨1, _⟩ => ((dat0 (VR1 m) c).arrAt_in 1 rfl _).trans ((A_eq0 (VR1 m) c 1).trans (Gen.V2_of m (outs m) c _ (by decide)).symm)
  | ⟨2, _⟩ => by
    show (dat0 (VR1 m) c).arrAt 2 cfg0.N
      = Function.update (Gen.V1 m c) (Proc.devRef .tc main_v3) (outs m 2 main_v3 c) (Proc.devRef .tc main_v3)
    rw [Function.update_self]; exact (outs_v3 m c).symm

/-- Every buffer that is no window's array of the first call holds after it what it held on entry. -/
theorem exitRest0 (c : Dev nD) : ∀ b : Ref sig .tc, b ∉ Finset.univ.image (Pipeline.arrRef spec0) →
    (fun b : Ref sig .tc => Gen.V2 m (outs m) c b) b = VR1 m c b := fun b hb =>
  Gen.V2_of m (outs m) c b fun h => hb (Finset.mem_image.mpr ⟨2, Finset.mem_univ _, (List.mem_singleton.mp h).symm⟩)

set_option backward.isDefEq.respectTransparency.types false in
/-- The first call over the thread state: entered from every unscoped buffer at the contents after the first host
    stretch, left at those contents updated at M2.  Its three arrays (x and T2 in bf16, M2) are split out of the
    unscoped buffers and put back; the generator register goes into the invariant and comes back; nothing is owed;
    the kernel has no semaphore of its own. -/
def reg0 : Pipeline.RegionSeg (pcfgs (F := F)) Gen.adm (pdats m) () defs₀ Variants.none L0 lv0 0 where
  win := Gen.launch0.win.to₀
  block_pos := Gen.launch0.block_pos
  stage_whole := Gen.launch0.stage_whole
  K := PEmpty
  osem k := k.elim
  ho := Pipeline.OwnSemFacts.none _
  hbody c := (body_obligation0 (VR1 m) c).loose
  hwaits := Pipeline.hwaits_of_owed_zero _ _ _ _ L0 lv0 0 fun _ _ => rfl
  pre c := iprop(StableHlo.held (c : Thread nD τ) (Pipeline.ucRefs τ sig) (Gen.V1 m c) ∗ Rst c)
  post c := iprop(StableHlo.held (c : Thread nD τ) (Pipeline.ucRefs τ sig) (Gen.V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (VR1 m c)
  hentry c := by
    rw [Pipeline.ownSems0_none]
    have hsplit := Pipeline.arrays_of_unscopedBufs (p := 0) (pcfgs (F := F)) Gen.adm (pdats m) Gen.launch0.win Gen.launch0.arr_whole c
      ((pdats m 0 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      Gen.launch0.win Gen.launch0.arr_whole c (pdats m) ((pdats m 0 c).share_full fun _ => rfl)
      (VR1 m c) (fun b => Gen.V2 m (outs m) c b) ((pdats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg0_pre (c : Dev nD) : (reg0 m).pre c = iprop(StableHlo.held (c : Thread nD τ) (Pipeline.ucRefs τ sig) (Gen.V1 m c) ∗ Rst c) := rfl
theorem reg0_post (c : Dev nD) : (reg0 m).post c = iprop(StableHlo.held (c : Thread nD τ) (Pipeline.ucRefs τ sig) (Gen.V2 m (outs m) c) ∗ Rst c) := rfl

/-! ## The second call's segment: the array M behind two windows -/

/-- The buffers behind the second call's windows are two: M (windows 0 and 1) and the output array (window 2). -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v4) ↦{fullShare} V main_v4) ∗ (((c : Thread nD τ).loc main_v5) ↦{fullShare} V main_v5)) := by
  unfold Pipeline.arrBufs
  exact bigSep_eq_bigSepL_of_eq [main_v4, main_v5] (by decide) (by decide) _

/-- The second call's arrays window by window: M at the left half of its share for window 0 and at the right half for
    window 1, the output array whole. -/
theorem arrays1_eq (c : Dev nD) (V : (c : Dev nD) → (b : Ref sig .tc) → Buf (Elt F) ((c : Thread nD τ).loc b))
    (G : (w : Fin cfg1.W) → Buf (Elt F) ((cfg1.win w).arr.view.loc (c : Thread nD τ))) :
    ((dat1 V c).arrays G : sProp 𝕄)
      = iprop((((c : Thread nD τ).loc main_v4) ↦{fullShare.left} G 0) ∗ (((c : Thread nD τ).loc main_v4) ↦{fullShare.right} G 1)
          ∗ (((c : Thread nD τ).loc main_v5) ↦{fullShare} G 2)) := by
  unfold Pipeline.Dat.arrays
  rw [Gen.bigSep_W1, (Gen.arr_whole1 0).set_eq_univ, (Gen.arr_whole1 2).set_eq_univ]
  rfl

/-- ENTRY.  The buffers behind the second call's windows, M and the output array, each whole at the full share at the
    entry contents, make the proof data's arrays: the full share of M is split into its two halves, one per input
    window, both at M's contents. -/
theorem arrSplit1 (c : Dev nD) :
    (Pipeline.arrBufs (Ix := Unit) (Name := ℕ) (U := UR sig nD τ) (Lvl := ℕ) spec1 c (VR3 m c) : sProp 𝕄)
      ⊢ (pdats m 1 c).arrays ((pdats m 1 c).arrAt · 0) := by
  show (Pipeline.arrBufs spec1 c (VR3 m c) : sProp 𝕄) ⊢ (dat1 (VR3 m) c).arrays ((dat1 (VR3 m) c).arrAt · 0)
  rw [arrBufs1_eq, arrays1_eq]
  rw [show (dat1 (VR3 m) c).arrAt 0 0 = VR3 m c main_v4 from rfl, show (dat1 (VR3 m) c).arrAt 1 0 = VR3 m c main_v4 from rfl,
    show (dat1 (VR3 m) c).arrAt 2 0 = VR3 m c main_v5 from rfl]
  iintro ⟨H4, H5⟩
  ihave H4' := (pointsTo_share (PosShare.mem_left_op_right fullShare)).1 $$ H4
  icases H4' with ⟨Hl, Hr⟩
  isplitl [Hl]; · iexact Hl
  isplitl [Hr]; · iexact Hr
  iexact H5

/-- EXIT.  The proof data's arrays after the last point make the buffers behind them whole again at the contents after
    the call: the two halves of M, both still at M's entry contents (an input is never written), are joined; the output
    array holds the regions' result. -/
theorem arrJoin1 (c : Dev nD) :
    (pdats m 1 c).arrays ((pdats m 1 c).arrAt · cfg1.N)
      ⊢ (Pipeline.arrBufs (Ix := Unit) (Name := ℕ) (U := UR sig nD τ) (Lvl := ℕ) spec1 c (fun b => Gen.V4 m (outs m) c b) : sProp 𝕄) := by
  show (dat1 (VR3 m) c).arrays ((dat1 (VR3 m) c).arrAt · cfg1.N) ⊢ (Pipeline.arrBufs spec1 c (fun b => Gen.V4 m (outs m) c b) : sProp 𝕄)
  rw [arrBufs1_eq, arrays1_eq]
  have e0 : (dat1 (VR3 m) c).arrAt 0 cfg1.N = Gen.V4 m (outs m) c main_v4 :=
    ((dat1 (VR3 m) c).arrAt_in 0 rfl _).trans ((A_eq1 (VR3 m) c 0).trans (Gen.V4_of m (outs m) c main_v4 (by decide)).symm)
  have e1 : (dat1 (VR3 m) c).arrAt 1 cfg1.N = Gen.V4 m (outs m) c main_v4 :=
    ((dat1 (VR3 m) c).arrAt_in 1 rfl _).trans ((A_eq1 (VR3 m) c 1).trans (Gen.V4_of m (outs m) c main_v4 (by decide)).symm)
  have e2 : (dat1 (VR3 m) c).arrAt 2 cfg1.N = Gen.V4 m (outs m) c main_v5 := by
    show (dat1 (VR3 m) c).arrAt 2 cfg1.N
      = Function.update (Gen.V3 m (outs m) c) (Proc.devRef .tc main_v5) (outs m 4 main_v5 c) (Proc.devRef .tc main_v5)
    rw [Function.update_self]; exact (outs_v5 m c).symm
  rw [e0, e1, e2]
  iintro ⟨Hl, Hr, H5⟩
  isplitl [Hl Hr]
  · iapply (pointsTo_share (PosShare.mem_left_op_right fullShare)).2
    isplitl [Hl]; · iexact Hl
    iexact Hr
  iexact H5

/-- Every buffer that is no window's array of the second call holds after it what it held on entry. -/
theorem exitRest1 (c : Dev nD) :
    (Pipeline.unscopedRest (Ix := Unit) (Name := ℕ) (U := UR sig nD τ) (Lvl := ℕ) spec1 c (VR3 m c) : sProp 𝕄)
      = Pipeline.unscopedRest spec1 c (fun b => Gen.V4 m (outs m) c b) := by
  unfold Pipeline.unscopedRest
  exact bigSep_congr fun b hb => by
    rw [show (fun b : Ref sig .tc => Gen.V4 m (outs m) c b) b = VR3 m c b from
      Gen.V4_of m (outs m) c b fun h => (Finset.mem_sdiff.mp hb).2 (Finset.mem_image.mpr ⟨2, Finset.mem_univ _, (List.mem_singleton.mp h).symm⟩)]

set_option backward.isDefEq.respectTransparency.types false in
/-- The second call over the thread state: entered from every unscoped buffer at the contents after the second host
    stretch, left at those contents updated at the output array.  The invariant before the first point is the class
    invariant (the scratch at anything) and after the last point gives it back; nothing is owed; the kernel has no
    semaphore of its own. -/
def reg1 : Pipeline.RegionSeg (pcfgs (F := F)) Gen.adm (pdats m) () defs₀ Variants.none L0 lv0 1 where
  win := Gen.winFacts₀1
  block_pos := Gen.block_pos1
  stage_whole := Gen.stage_whole1
  K := PEmpty
  osem k := k.elim
  ho := Pipeline.OwnSemFacts.none _
  hbody c := (body_obligation1 (VR3 m) c).loose
  hwaits := Pipeline.hwaits_of_owed_zero _ _ _ _ L0 lv0 1 fun _ _ => rfl
  pre c := iprop(StableHlo.held (c : Thread nD τ) (Pipeline.ucRefs τ sig) (Gen.V3 m (outs m) c) ∗ Rst c)
  post c := iprop(StableHlo.held (c : Thread nD τ) (Pipeline.ucRefs τ sig) (Gen.V4 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (VR3 m c)
  hentry c := by
    rw [Pipeline.ownSems0_none]
    have hsplit : (unscopedBufs (Ix := Unit) (Name := ℕ) (U := UR sig nD τ) (Lvl := ℕ) c (VR3 m c) : sProp 𝕄)
        ⊢ iprop((pdats m 1 c).arrays ((pdats m 1 c).arrAt · 0) ∗ Pipeline.unscopedRest spec1 c (VR3 m c)) := by
      rw [Pipeline.unscopedBufs_split₀ cfgs 1 Gen.winFacts₀1.arr_unscoped c (VR3 m c)]
      exact sep_mono (arrSplit1 m c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (VR3 m) c).Φ 0 from rfl]
    refine BIBase.Entails.trans ?_ (hin1 (VR3 m) c)
    unfold Pipeline.ΦA
    iintro ⟨Hp, -, Hr⟩
    isplitl [Hr]; · iexact Hr
    iexact Hp
  hout c := by
    rw [Pipeline.ownSems0_none, show (pdats m 1 c).Φ (Fin.last _) = (dat1 (VR3 m) c).Φ (Fin.last cfg1.N) from rfl]
    refine BIBase.Entails.trans (hout1 (VR3 m) c) ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (VR3 m c))
        ⊢ (unscopedBufs (Ix := Unit) (Name := ℕ) (U := UR sig nD τ) (Lvl := ℕ) c (fun b => Gen.V4 m (outs m) c b) : sProp 𝕄) := by
      rw [Pipeline.unscopedBufs_split₀ cfgs 1 Gen.winFacts₀1.arr_unscoped c (fun b => Gen.V4 m (outs m) c b), exitRest1 m c]
      exact sep_mono (arrJoin1 m c) .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem reg1_pre (c : Dev nD) : (reg1 m).pre c = iprop(StableHlo.held (c : Thread nD τ) (Pipeline.ucRefs τ sig) (Gen.V3 m (outs m) c) ∗ Rst c) := rfl
theorem reg1_post (c : Dev nD) : (reg1 m).post c = iprop(StableHlo.held (c : Thread nD τ) (Pipeline.ucRefs τ sig) (Gen.V4 m (outs m) c) ∗ Rst c) := rfl

end Cert.KernelIdeal.Hand

end
-- ==== Proof.KI.RunCond.lean ====
/-
  The whole program's run, given the two regions' records: every weakly fair execution of @main terminates and
  every core's unscoped buffers end at the last valuation V5 — the launch contents carried through the three
  host stretches (reshape and converts; reshape; concatenate) and the two kernel regions (the tiled matmul, the
  pairwise-distance row sums).  The conditional frame reads only the two argument arrays off that valuation;
  here every unscoped buffer is read, the result of the concatenate among them.

  `run_cond` is stated over any user algebra, level assignment and rest states, as the conditional frame is;
  `run_of_regs` fixes them at this program's choices — nothing is owed between cores, the user algebra is the
  pipeline library's alone, and beside the buffers each core carries its generator register and owes nothing —
  so that only the two region records and their entry / exit entailments remain.
-/
import proofs.«123585_j16758962389448_1_alg».proof.Proof.KI.Alg

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

-- the library's launch theorem's implicit arguments are found by unifying its conclusion with this one, which takes unfolding
-- plain definitions in a metavariable's type
set_option backward.isDefEq.respectTransparency.types false in
/-- THE RUN, GIVEN THE REGIONS' RECORDS.  Under the conditional frame's hypotheses — a segment record per kernel
    region, entered from the valuation before it (V1, V3) and left at the one after it (V2, V4), beside rest
    states the launch makes on every core and that end owing nothing — every weakly fair execution of @main from
    memory `m` with zero counters terminates, and in every final memory each core's every unscoped buffer holds
    what the last valuation V5 gives it. -/
theorem run_cond (m : (ℓ : Loc nD τ sig) → Buf (Elt F) ℓ)
    {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Gen.Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) Gen.adm pdats ι defs₀ 𝒱₀ L lv 0)
    (hpre0 : ∀ c : Dev nD, iprop(StableHlo.held (c : Thread nD τ) (Pipeline.ucRefs τ sig) (Gen.V1 m c) ∗ E 0 c) ⊢ R0.pre c)
    (hpost0 : ∀ c : Dev nD, R0.post c ⊢ iprop(StableHlo.held (c : Thread nD τ) (Pipeline.ucRefs τ sig) (Gen.V2 m outs c) ∗ E 1 c))
    (R1 : RegionSeg (pcfgs (F := F)) Gen.adm pdats ι defs₀ 𝒱₀ L lv 1)
    (hpre1 : ∀ c : Dev nD, iprop(StableHlo.held (c : Thread nD τ) (Pipeline.ucRefs τ sig) (Gen.V3 m outs c) ∗ E 1 c) ⊢ R1.pre c)
    (hpost1 : ∀ c : Dev nD, R1.post c ⊢ iprop(StableHlo.held (c : Thread nD τ) (Pipeline.ucRefs τ sig) (Gen.V4 m outs c) ∗ E 2 c)) :
    θ_run defs (onTc (τ := τ) (main (F := F))) ⟨m, fun _ => 0, ρ⟩ (fun r => ∀ c : Dev nD, ∀ b ∈ Pipeline.ucRefs τ sig,
      r.2.mem ((c : Thread nD τ).1, b) = Gen.V5 m outs c b) := by
  refine Pipeline.θ_run_regions_kit_dev (pcfgs (F := F)) Gen.adm pdats ι cellOf_inj EP defs₀ 𝒱₀ L lv m ρ main
    (Gen.segs m outs 𝒱₀ L lv E ι pdats R0 R1)
    (fun c Q => by
      rewrite [main_chain c, Seg.run_eq_chain,
        show (Gen.segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Seg.pipes_host, Seg.pipes_region, Seg.pipes_nil]; decide) O₀ hL G u₀ hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V5 m outs c))
    (hch := fun c => ⟨.rfl, hpre0 c, hpost0 c, hpre1 c, hpost1 c, sep_mono .rfl (hE2 c)⟩)
    (hinit := ?_) (QY := fun c s => ∀ b ∈ Pipeline.ucRefs τ sig, s.mem ((c : Thread nD τ).1, b) = Gen.V5 m outs c b)
    (hfin := fun c s' => ?_) (hQ := fun _ h => h)
  · -- the launch: the unscoped buffers are held at the launch contents; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (Gen.V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation against the final memory
    unfold StableHlo.held
    iintro ⟨Hh, HSI⟩
    imodintro
    iapply (pointsTo_read_all (Pipeline.ucRefs τ sig) (fun b => ((c : Thread nD τ).1, b)) (Gen.V5 m outs c) s')
    isplitl [Hh] <;> iassumption

-- as for `run_cond`: the implicit arguments are found by unifying conclusions through plain definitions
set_option backward.isDefEq.respectTransparency.types false in
/-- THE RUN AT THIS PROGRAM'S CHOICES.  No level is assigned and no core owes anything at launch; the user algebra is
    the pipeline library's alone, its launch element the library's at every pipeline's staging cells; no ghost
    resource is dealt; the rest beside the buffers is, at every item, the core's generator register at some state and
    its debts, none.  The launch deals each core its register at `ρ c` and its debts at the empty set of waits, which
    is that rest; and that rest owes nothing.  What remains to be supplied is the two regions' records, each entered
    from the buffers at the valuation before it and left at the one after it. -/
theorem run_of_regs (m : (ℓ : Loc nD τ sig) → Buf (Elt F) ℓ) (ρ : Dev nD → PrngReg) (outs : Gen.Outs (F := F))
    (pdats : (p : Fin 2) → (c : Dev nD) → Dat τ (Elt F) Unit ℕ (UR sig nD τ) ℕ (cfgs p) c)
    (R0 : RegionSeg (pcfgs (F := F)) Gen.adm pdats () defs₀ Variants.none L0 lv0 0)
    (hpre0 : ∀ c : Dev nD, iprop(StableHlo.held (c : Thread nD τ) (Pipeline.ucRefs τ sig) (Gen.V1 m c) ∗ Rst c) ⊢ R0.pre c)
    (hpost0 : ∀ c : Dev nD, R0.post c ⊢ iprop(StableHlo.held (c : Thread nD τ) (Pipeline.ucRefs τ sig) (Gen.V2 m outs c) ∗ Rst c))
    (R1 : RegionSeg (pcfgs (F := F)) Gen.adm pdats () defs₀ Variants.none L0 lv0 1)
    (hpre1 : ∀ c : Dev nD, iprop(StableHlo.held (c : Thread nD τ) (Pipeline.ucRefs τ sig) (Gen.V3 m outs c) ∗ Rst c) ⊢ R1.pre c)
    (hpost1 : ∀ c : Dev nD, R1.post c ⊢ iprop(StableHlo.held (c : Thread nD τ) (Pipeline.ucRefs τ sig) (Gen.V4 m outs c) ∗ Rst c)) :
    θ_run defs (onTc (τ := τ) (main (F := F))) ⟨m, fun _ => 0, ρ⟩ (fun r => ∀ c : Dev nD, ∀ b ∈ Pipeline.ucRefs τ sig,
      r.2.mem ((c : Thread nD τ).1, b) = Gen.V5 m outs c b) :=
  run_cond (F := F) m (Ix := Unit) (U := UR sig nD τ) (Lvl := ℕ) emb₁ () Variants.none L0 lv0 (fun _ _ => rfl) ρ outs pdats
    (O₀ := 0) (G := fun _ => iprop(emp))
    (u₀ := initOf (Pipeline.cells cfgs cellOf_inj) (Pipeline.launchToks cfgs cellOf_inj))
    (hu₀ := by
      -- the whole user component is the library's; the ghost resources are empty on every core
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      -- core by core: of what the launch deals, the register at `ρ c` and the debts at no waits make the rest
      refine Pipeline.initEach L0 lv0 fun c => ?_
      iintro ⟨⟨-, HO, -, Hp, -⟩, -⟩
      imodintro
      isplitl [Hp]; · iexists _; iexact Hp
      iexists ∅; iexact HO)
    (hE2 := fun c => by
      iintro ⟨-, HO⟩
      iexact HO)
    R0 hpre0 hpost0 R1 hpre1 hpost1

end Cert.KernelIdeal.Hand

end
-- ==== Proof.KI.Main.lean ====
/-
  The whole program's run: from the two region records, every weakly fair execution of @main terminates,
  faults nowhere, and ends with every unscoped buffer at the contents the items leave one after the other
  (the host stretches' results, each pallas_call's output array at what its write-backs leave).  The frame —
  the two argument arrays end as launched — is that read at the arguments, which no item writes.
-/
import proofs.«123585_j16758962389448_1_alg».proof.Proof.KI.Segs
import proofs.«123585_j16758962389448_1_alg».proof.Proof.KI.RunCond

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-- An unscoped reference is among those the thread state holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- Every weakly fair execution terminates with every unscoped buffer at the last valuation. -/
theorem run : θ_run defs (onTc (τ := τ) (main (F := F))) ⟨m, fun _ => 0, ρ⟩
    (fun r => ∀ c : Dev nD, ∀ b ∈ Pipeline.ucRefs τ sig, r.2.mem ((c : Thread nD τ).1, b) = Gen.V5 m (outs m) c b) :=
  run_of_regs m ρ (outs m) (pdats m)
    (reg0 m) (fun c => Entails.of_eq (reg0_pre m c).symm) (fun c => Entails.of_eq (reg0_post m c))
    (reg1 m) (fun c => Entails.of_eq (reg1_pre m c).symm) (fun c => Entails.of_eq (reg1_post m c))

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (Gen.V5_main_arg0 m (outs m) c),
     (h c _ (mem_uc main_arg1 (by decide))).trans (Gen.V5_main_arg1 m (outs m) c)⟩) (run m ρ)

end Cert.KernelIdeal.Hand

end
-- ==== Proof.Spec.lean ====
/-
  The function both programs compute, over the extended reals, index by index.

  From x : 256 x 1024 and T : 1024 x 128 x 16 form the projected features
      M[p, o, k] = sum over q of x[p, q] * T[q, o, k],
  then for a row p, a partner row p' and a feature o the similarity term
      exp(0 - sum over k of |M[p, o, k] - M[p', o, k]|) * (0 if p = p', else 1),
  and the feature array  feat[p, o] = sum over all 256 partners p' of the term.
  The result of either program is x with feat appended along the second axis.

  Two laws join the two programs' arrangements of this: |a - b| = |b - a| on the extended reals (the
  kernel subtracts the partner from the row, the reference the row from the partner), and a sum over the
  256 partners is the sum over the 4 tiles of 64 of the sums inside a tile (the kernel walks the partners
  tile by tile, accumulating).  Neither needs the entries to be finite.
-/
import Idealize.ShloMosaic.PureOps.Ideal
import Idealize.ShloMosaic.Lib.ValueIdx

noncomputable section

namespace Cert.Spec

open Idealize.ShloMosaic Idealize.ShloMosaic.ValueIdx
open scoped BigOperators

/-- The absolute value on the extended reals. -/
def eabs (a : EReal) : EReal := max a (-a)

/-- |a - b| = |b - a| for all extended reals, the infinities included: where one operand is infinite both
    differences are infinite and both absolute values are the top element. -/
theorem eabs_sub_comm (a b : EReal) : eabs (a - b) = eabs (b - a) := by
  unfold eabs
  induction a using EReal.rec <;> induction b using EReal.rec
  all_goals first
    | (rw [← EReal.coe_sub, ← EReal.coe_sub, ← EReal.coe_neg, ← EReal.coe_neg, neg_sub, neg_sub, max_comm])
    | simp
    | (simp [sub_eq_add_neg])
    | rfl

/-- The projected features: M[p, o, k] = sum over q of x[p, q] * T[q, o, k]. -/
def proj (x : (⟨2, ![256, 1024]⟩ : Shape).Idx → EReal) (T : (⟨3, ![1024, 128, 16]⟩ : Shape).Idx → EReal) :
    (⟨3, ![256, 128, 16]⟩ : Shape).Idx → EReal :=
  fun j => ∑ q : Fin 1024, x (ix2 (j 0) q) * T (ix3 q (j 1) (j 2))

/-- The similarity of row `p` with partner row `p'` at feature `o`: exp of minus their L1 distance over the 16
    inner features, and nothing for the row with itself. -/
def term (M : (⟨3, ![256, 128, 16]⟩ : Shape).Idx → EReal) (p p' : Fin 256) (o : Fin 128) : EReal :=
  Ideal.exp (0 - ∑ k : Fin 16, eabs (M (ix3 p o k) - M (ix3 p' o k))) * (if p = p' then 0 else 1)

/-- The feature array: each row's similarities summed over all partner rows. -/
def feat (M : (⟨3, ![256, 128, 16]⟩ : Shape).Idx → EReal) : (⟨2, ![256, 128]⟩ : Shape).Idx → EReal :=
  fun j => ∑ p' : Fin 256, term M (j 0) p' (j 1)

/-- Row `b` of tile `bj` among the 256 rows cut into 4 tiles of 64. -/
def rowOf (bj : Fin 4) (b : Fin 64) : Fin 256 := ⟨64 * bj.val + b.val, by omega⟩

theorem rowOf_val (bj : Fin 4) (b : Fin 64) : (rowOf bj b).val = 64 * bj.val + b.val := rfl

/-- A sum over the 256 rows is the sum over the tiles of the sums inside each tile. -/
theorem sum_tiles (f : Fin 256 → EReal) : ∑ p' : Fin 256, f p' = ∑ bj : Fin 4, ∑ b : Fin 64, f (rowOf bj b) := by
  rw [← Fintype.sum_prod_type' (f := fun bj b => f (rowOf bj b))]
  refine (Fintype.sum_equiv (finProdFinEquiv (m := 4) (n := 64)) (fun q => f (rowOf q.1 q.2)) f (fun q => ?_)).symm
  refine congrArg f (Fin.ext ?_)
  show 64 * q.1.val + q.2.val = q.2.val + 64 * q.1.val
  omega

end Cert.Spec

end
-- ==== Proof.Val.Upd.lean ====
/-
  One grid point's update of the scratch, read at an index, at the ideal instance: entry (a, o) of the updated
  scratch is the entry it had plus the sum over the 64 partner rows b of the block of
      exp(0 - sum over k of |x0[a, o, k] - x1[b, o, k]|) * (0 if the two rows are the same row of M, else 1),
  the row of M behind row a of this point's tile being 64 * bi + a and behind partner b being 64 * bj + b.
-/
import proofs.«123585_j16758962389448_1_alg».proof.Proof.KI.R1Defs
import proofs.«123585_j16758962389448_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand
open scoped BigOperators

section Layout
variable {α : Type}

/-- The inner-feature coordinate a slice at offset k reads lies below 16. -/
theorem slice_lt {k : ℕ} (h : S64x128x16.Slices ![0, 0, k] S64x128x1) : k < 16 := by
  have := h.2 (2 : Fin 3)
  have e : k + 1 ≤ 16 := this
  omega

/-- The slice of inner feature k, read at (a, o, 0): the block at (a, o, k). -/
theorem slice_apply (k : ℕ) (X : S64x128x16.Idx → α) (h : S64x128x16.Slices ![0, 0, k] S64x128x1)
    (a : Fin 64) (o : Fin 128) (u : Fin 1) :
    extractStridedSlice S64x128x1 ![0, 0, k] X h (ix3 a o u) = X (ix3 a o ⟨k, slice_lt h⟩) :=
  extractStridedSlice_apply _ X h _ _ (fun ax => by
    match ax with
    | ⟨0, _⟩ => exact (Nat.zero_add _).symm
    | ⟨1, _⟩ => exact (Nat.zero_add _).symm
    | ⟨2, _⟩ => show k = k + u.val; omega)

/-- Dropping the trailing unit axis: (a, o) reads (a, o, 0). -/
theorem dropLast_apply (Y : S64x128x1.Idx → α) (h : S64x128x1.ShapeCasts S64x128) (a : Fin 64) (o : Fin 128) :
    shapeCast S64x128 Y h (ix2 a o) = Y (ix3 a o (0 : Fin 1)) :=
  shapeCast_apply Y h _ _ (by
    rw [Shape.rowMajor_val_three, Shape.rowMajor_val_two]
    show (a.val * 128 + o.val) * 1 + 0 = a.val * 128 + o.val
    omega)

/-- A unit middle axis added: (a, u, o) reads (a, o). -/
theorem addMid_apply (Z : S64x128.Idx → α) (h : S64x128.ShapeCasts S64x1x128) (a : Fin 64) (u : Fin 1) (o : Fin 128) :
    shapeCast S64x1x128 Z h (ix3 a u o) = Z (ix2 a o) :=
  shapeCast_apply Z h _ _ (by
    rw [Shape.rowMajor_val_three, Shape.rowMajor_val_two]
    show a.val * 128 + o.val = (a.val * 1 + u.val) * 128 + o.val
    omega)

/-- A unit leading axis added: (u, b, o) reads (b, o). -/
theorem addLead_apply (Z : S64x128.Idx → α) (h : S64x128.ShapeCasts S1x64x128) (u : Fin 1) (b : Fin 64) (o : Fin 128) :
    shapeCast S1x64x128 Z h (ix3 u b o) = Z (ix2 b o) :=
  shapeCast_ab_1ab_apply Z h u b o

/-- A unit trailing axis added: (a, b, u) reads (a, b). -/
theorem addLast_apply (Z : S64x64.Idx → α) (h : S64x64.ShapeCasts S64x64x1) (a b : Fin 64) (u : Fin 1) :
    shapeCast S64x64x1 Z h (ix3 a b u) = Z (ix2 a b) :=
  shapeCast_apply Z h _ _ (by
    rw [Shape.rowMajor_val_three, Shape.rowMajor_val_two]
    show a.val * 64 + b.val = (a.val * 64 + b.val) * 1 + u.val
    omega)

/-- The row tile's values spread over the partners: (a, b, o) reads (a, 0, o). -/
theorem overPartners_apply (W : S64x1x128.Idx → α) (h : S64x1x128.Broadcasts S64x64x128) (a b : Fin 64) (o : Fin 128) :
    broadcastTo S64x64x128 W h (ix3 a b o) = W (ix3 a (0 : Fin 1) o) :=
  broadcastTo_apply W h _ _ (fun ax => by
    match ax with
    | ⟨0, _⟩ => rfl
    | ⟨1, _⟩ => rfl
    | ⟨2, _⟩ => rfl)

/-- The partner tile's values spread over the rows: (a, b, o) reads (0, b, o). -/
theorem overRows_apply (W : S1x64x128.Idx → α) (h : S1x64x128.Broadcasts S64x64x128) (a b : Fin 64) (o : Fin 128) :
    broadcastTo S64x64x128 W h (ix3 a b o) = W (ix3 (0 : Fin 1) b o) :=
  broadcastTo_apply W h _ _ (fun ax => by
    match ax with
    | ⟨0, _⟩ => rfl
    | ⟨1, _⟩ => rfl
    | ⟨2, _⟩ => rfl)

/-- The row-pair mask spread over the features: (a, b, o) reads (a, b, 0). -/
theorem overFeatures_apply (W : S64x64x1.Idx → α) (h : S64x64x1.Broadcasts S64x64x128) (a b : Fin 64) (o : Fin 128) :
    broadcastTo S64x64x128 W h (ix3 a b o) = W (ix3 a b (0 : Fin 1)) :=
  broadcastTo_apply W h _ _ (fun ax => by
    match ax with
    | ⟨0, _⟩ => rfl
    | ⟨1, _⟩ => rfl
    | ⟨2, _⟩ => rfl)

end Layout

/-- The zero vector the reset stores is zero at every entry. -/
theorem pay2_apply (y : S64x128.Idx) : (k1_pay2 (F := Ideal)) y = 0 := by
  unfold k1_pay2
  rw [shapeCast_self]
  exact Ideal.ofBits_zero_f32

/-- The absolute value at an index, as the specification writes it. -/
theorem absf_at {s : Shape} {φ : FTy} (v : FVec Ideal s φ) (j : s.Idx) : absf v j = Cert.Spec.eabs (v j) := rfl

/-- A block cast to its own shape is the block. -/
theorem pay3_eq (x : Vec Ideal S64x128x16 .f32) : k1_pay3 x = x := by
  unfold k1_pay3; exact shapeCast_self _ _
theorem pay4_eq (x : Vec Ideal S64x128x16 .f32) : k1_pay4 x = x := by
  unfold k1_pay4; exact shapeCast_self _ _

/-- |x0[a, o, k] - x1[b, o, k]|: the k-th term of the L1 distance of row a and partner b at feature o. -/
def dterm (x0 x1 : FVec Ideal S64x128x16 .f32) (a b : Fin 64) (o : Fin 128) (k : Fin 16) : EReal :=
  Cert.Spec.eabs (x0 (ix3 a o k) - x1 (ix3 b o k))

theorem pay7_apply (x0 : Vec Ideal S64x128x16 .f32) (a b : Fin 64) (o : Fin 128) :
    k1_pay7 x0 (ix3 a b o) = x0 (ix3 a o ⟨3, by omega⟩) := by
  unfold k1_pay7
  simp only [pay3_eq, overPartners_apply, addMid_apply, dropLast_apply, slice_apply]

theorem pay6_apply (x1 : Vec Ideal S64x128x16 .f32) (u : Fin 1) (b : Fin 64) (o : Fin 128) :
    k1_pay6 x1 (ix3 u b o) = x1 (ix3 b o ⟨3, by omega⟩) := by
  unfold k1_pay6
  simp only [pay4_eq, addLead_apply, dropLast_apply, slice_apply]

theorem pay9_apply (v4 : FVec Ideal S64x128x16 .f32) (a : Fin 64) (o : Fin 128) (u : Fin 1) :
    k1_pay9 v4 (ix3 a o u) = v4 (ix3 a o ⟨9, by omega⟩) := by
  unfold k1_pay9
  simp only [slice_apply]

theorem pay11_apply (v4 : FVec Ideal S64x128x16 .f32) (a : Fin 64) (u : Fin 1) (o : Fin 128) :
    k1_pay11 v4 (ix3 a u o) = v4 (ix3 a o ⟨14, by omega⟩) := by
  unfold k1_pay11
  simp only [addMid_apply, dropLast_apply, slice_apply]

theorem pay12_apply (v6 : FVec Ideal S64x128x16 .f32) (u : Fin 1) (b : Fin 64) (o : Fin 128) :
    k1_pay12 v6 (ix3 u b o) = v6 (ix3 b o ⟨14, by omega⟩) := by
  unfold k1_pay12
  simp only [addLead_apply, dropLast_apply, slice_apply]

/-- The first three terms of the distance, added onto zero from the left. -/
theorem pay5_apply (x0 x1 : Vec Ideal S64x128x16 .f32) (a b : Fin 64) (o : Fin 128) :
    k1_pay5 x0 x1 (ix3 a b o)
      = 0 + dterm x0 x1 a b o ⟨0, by omega⟩ + dterm x0 x1 a b o ⟨1, by omega⟩ + dterm x0 x1 a b o ⟨2, by omega⟩ := by
  unfold k1_pay5
  simp only [pay3_eq, pay4_eq, addf_apply, subf_apply, absf_at, broadcast_apply, overPartners_apply, overRows_apply,
    addMid_apply, addLead_apply, dropLast_apply, slice_apply, Ideal.ofBits_def, Ideal.ofBits_zero_f32]
  rfl

/-- Terms 3 to 8 added onto the running sum; term 3's two operands come in already spread. -/
theorem pay8_apply (v4 v6 : FVec Ideal S64x128x16 .f32) (v40 : FVec Ideal S64x64x128 .f32) (v46 : FVec Ideal S1x64x128 .f32)
    (v47 : FVec Ideal S64x64x128 .f32) (a b : Fin 64) (o : Fin 128) :
    k1_pay8 v4 v6 v40 v46 v47 (ix3 a b o)
      = v40 (ix3 a b o) + Cert.Spec.eabs (v47 (ix3 a b o) - v46 (ix3 (0 : Fin 1) b o))
          + dterm v4 v6 a b o ⟨4, by omega⟩ + dterm v4 v6 a b o ⟨5, by omega⟩ + dterm v4 v6 a b o ⟨6, by omega⟩
          + dterm v4 v6 a b o ⟨7, by omega⟩ + dterm v4 v6 a b o ⟨8, by omega⟩ := by
  unfold k1_pay8
  simp only [addf_apply, subf_apply, absf_at, overPartners_apply, overRows_apply,
    addMid_apply, addLead_apply, dropLast_apply, slice_apply]
  rfl

/-- Terms 9 to 13 added onto the running sum; term 9's row slice comes in already cut. -/
theorem pay10_apply (v4 v6 : FVec Ideal S64x128x16 .f32) (v106 : FVec Ideal S64x64x128 .f32) (v107 : FVec Ideal S64x128x1 .f32)
    (a b : Fin 64) (o : Fin 128) :
    k1_pay10 v4 v6 v106 v107 (ix3 a b o)
      = v106 (ix3 a b o) + Cert.Spec.eabs (v107 (ix3 a o (0 : Fin 1)) - v6 (ix3 b o ⟨9, by omega⟩))
          + dterm v4 v6 a b o ⟨10, by omega⟩ + dterm v4 v6 a b o ⟨11, by omega⟩ + dterm v4 v6 a b o ⟨12, by omega⟩
          + dterm v4 v6 a b o ⟨13, by omega⟩ := by
  unfold k1_pay10
  simp only [addf_apply, subf_apply, absf_at, overPartners_apply, overRows_apply,
    addMid_apply, addLead_apply, dropLast_apply, slice_apply]
  rfl

/-- Sixteen terms added onto zero one after the other from the left are their sum. -/
theorem fold16 (T : Fin 16 → EReal) :
    0 + T ⟨0, by omega⟩ + T ⟨1, by omega⟩ + T ⟨2, by omega⟩ + T ⟨3, by omega⟩ + T ⟨4, by omega⟩ + T ⟨5, by omega⟩
      + T ⟨6, by omega⟩ + T ⟨7, by omega⟩ + T ⟨8, by omega⟩ + T ⟨9, by omega⟩ + T ⟨10, by omega⟩ + T ⟨11, by omega⟩
      + T ⟨12, by omega⟩ + T ⟨13, by omega⟩ + T ⟨14, by omega⟩ + T ⟨15, by omega⟩ = ∑ k : Fin 16, T k := by
  simp only [Fin.sum_univ_castSucc, Fin.sum_univ_zero]
  rfl

/-! ## The sum over the partners, and the mask -/

theorem exp_at {s : Shape} {φ : FTy} (v : FVec Ideal s φ) (j : s.Idx) : exp v j = Ideal.exp (v j) := rfl
theorem cmpi_at {s : Shape} {w : ℕ} (p : CmpIPredicate) (x y : IVec s w) (j : s.Idx) : cmpi p x y j = IntOp.cmpi p (x j) (y j) := rfl
theorem addi_at {s : Shape} {w : ℕ} (x y : IVec s w) (j : s.Idx) : addi x y j = IntOp.addi (x j) (y j) := rfl

/-- The index (a, o) of the scratch with partner b put back on the reduced axis is (a, b, o). -/
theorem lift_mid (h : S64x64x128.Reduces [1] S64x128) (a : Fin 64) (o : Fin 128) (b : Fin (S64x64x128.size 1)) :
    h.lift (ix2 a o) b = ix3 a (⟨b.val, b.isLt⟩ : Fin 64) o := by
  funext c; apply Fin.ext
  fin_cases c <;> rfl

/-- The lane sum over the partner axis, at (a, o): the sum over the 64 partners b of the entry (a, b, o). -/
theorem partnerSum_apply (src : FVec Ideal S64x64x128 .f32) (h : S64x64x128.Reduces [1] S64x128) (hφ : FKind.Formats FTy.f32)
    (hacc : (0x00000000#32 : BitVec FTy.f32.bits) = FKind.add.neutral .f32 hφ) (a : Fin 64) (o : Fin 128) :
    multiReduction .add [1] S64x128 src 0x00000000#32 h hφ hacc (ix2 a o) = ∑ b : Fin 64, src (ix3 a b o) := by
  refine (Ideal.multiReduction_add_single src _ h hφ hacc (ix2 a o)).trans ?_
  exact Finset.sum_congr rfl (fun b _ => congrArg src (lift_mid h a o b))

theorem rowIota_apply (h : S64x64.Iotas .tc 32 [0]) (a b : Fin 64) : iota .tc S64x64 32 [0] h (ix2 a b) = BitVec.ofNat 32 a.val :=
  iota_single_apply .tc S64x64 32 0 h (ix2 a b)
theorem colIota_apply (h : S64x64.Iotas .tc 32 [1]) (a b : Fin 64) : iota .tc S64x64 32 [1] h (ix2 a b) = BitVec.ofNat 32 b.val :=
  iota_single_apply .tc S64x64 32 1 h (ix2 a b)

/-- The mask entry of row a and partner b as the body computes it from the two grid coordinate words: the
    comparison "row number differs from partner row number" on 32-bit words, widened and converted. -/
def maskAt (w0 w1 : BitVec 32) (a b : Fin 64) : EReal :=
  FloatOps.sitofp (F := Ideal) .f32
    ((IntOp.cmpi .ne (IntOp.addi (Scalar.muli w0 64#32) (BitVec.ofNat 32 a.val))
      (IntOp.addi (Scalar.muli w1 64#32) (BitVec.ofNat 32 b.val))).setWidth 32)

/-- The last step of the body at (a, o): the last distance term joins the running sum, and the scratch gains the sum
    over the partners of exp(0 - distance) times the mask. -/
theorem pay1_apply (w0 w1 : BitVec 32) (v4 v6 : FVec Ideal S64x128x16 .f32) (v161 : FVec Ideal S64x64x128 .f32)
    (v166 : FVec Ideal S64x1x128 .f32) (v167 : FVec Ideal S1x64x128 .f32) (v201 : Vec Ideal S64x128 .f32) (a : Fin 64) (o : Fin 128) :
    k1_pay1 w0 w1 v4 v6 v161 v166 v167 v201 (ix2 a o)
      = v201 (ix2 a o) + ∑ b : Fin 64,
          Ideal.exp (0 - (v161 (ix3 a b o) + Cert.Spec.eabs (v166 (ix3 a (0 : Fin 1) o) - v167 (ix3 (0 : Fin 1) b o))
            + dterm v4 v6 a b o ⟨15, by omega⟩)) * maskAt w0 w1 a b := by
  unfold k1_pay1
  simp only [shapeCast_self, addf_apply]
  refine congrArg (v201 (ix2 a o) + ·) ?_
  refine (partnerSum_apply _ _ _ _ a o).trans ?_
  refine Finset.sum_congr rfl (fun b _ => ?_)
  simp only [mulf_apply, exp_at, subf_apply, addf_apply, absf_at, broadcast_apply, overFeatures_apply, addLast_apply,
    sitofp_apply, extui_apply, cmpi_at, addi_at, rowIota_apply, colIota_apply, overPartners_apply, overRows_apply,
    addMid_apply, addLead_apply, dropLast_apply, slice_apply, Ideal.ofBits_def, Ideal.ofBits_zero_f32]
  rw [rowIota_apply iota_S64x64_d0_w32 a b, colIota_apply iota_S64x64_d1_w32 a b]
  rfl

/-- The row number 64 * p + a of a tile p below 4 and a row a below 64, computed on 32-bit words, does not wrap. -/
theorem rowWord (p a : ℕ) (hp : p < 4) (ha : a < 64) :
    IntOp.addi (Scalar.muli (BitVec.ofNat 32 p) 64#32) (BitVec.ofNat 32 a) = BitVec.ofNat 32 (64 * p + a) := by
  apply BitVec.eq_of_toNat_eq
  simp only [IntOp.addi, Scalar.muli, IntOp.muli, BitVec.toNat_add, BitVec.toNat_mul, BitVec.toNat_ofNat]
  omega

/-- "The two row numbers differ", as a one-bit word widened to 32 bits and converted: 0 where they are equal, else 1. -/
theorem maskWord (n m : ℕ) (hn : n < 2 ^ 32) (hm : m < 2 ^ 32) :
    (FloatOps.sitofp (F := Ideal) .f32 ((IntOp.cmpi .ne (BitVec.ofNat 32 n) (BitVec.ofNat 32 m)).setWidth 32) : EReal)
      = if n = m then 0 else 1 := by
  show (((((IntOp.cmpi .ne (BitVec.ofNat 32 n) (BitVec.ofNat 32 m)).setWidth 32).toInt : ℤ) : ℝ) : EReal) = _
  by_cases h : n = m
  · subst h
    have e : IntOp.cmpi .ne (BitVec.ofNat 32 n) (BitVec.ofNat 32 n) = 0#1 := by simp [IntOp.cmpi]
    rw [e, if_pos rfl]
    have e2 : ((0#1 : BitVec 1).setWidth 32).toInt = 0 := by decide
    rw [e2]; simp
  · have hne : BitVec.ofNat 32 n ≠ BitVec.ofNat 32 m := by
      intro e; apply h
      have := congrArg BitVec.toNat e
      simp only [BitVec.toNat_ofNat] at this
      omega
    have e : IntOp.cmpi .ne (BitVec.ofNat 32 n) (BitVec.ofNat 32 m) = 1#1 := by
      show BitVec.ofBool (BitVec.ofNat 32 n != BitVec.ofNat 32 m) = 1#1
      rw [bne_iff_ne.mpr hne]; rfl
    rw [e, if_neg h]
    have e2 : ((1#1 : BitVec 1).setWidth 32).toInt = 1 := by decide
    rw [e2]; simp

/-- At the grid point (bi, bj) the mask entry of row a and partner b is 0 where 64 * bi + a = 64 * bj + b, else 1. -/
theorem maskAt_eq (i : grid1.Coords) (a b : Fin 64) :
    maskAt (BitVec.ofNat 32 (i 0).val) (BitVec.ofNat 32 (i 1).val) a b
      = if 64 * (i 0).val + a.val = 64 * (i 1).val + b.val then 0 else 1 := by
  have h0 : (i 0).val < 4 := (i 0).isLt
  have h1 : (i 1).val < 4 := (i 1).isLt
  unfold maskAt
  rw [rowWord _ _ h0 a.isLt, rowWord _ _ h1 b.isLt]
  exact maskWord _ _ (by omega) (by omega)

/-- The update at entry (a, o). -/
theorem upd_apply (i : grid1.Coords) (x0 x1 : Vec Ideal S64x128x16 .f32) (s : Vec Ideal S64x128 .f32) (a : Fin 64) (o : Fin 128) :
    upd (F := Ideal) i x0 x1 s (ix2 a o)
      = s (ix2 a o) + ∑ b : Fin 64, Ideal.exp (0 - ∑ k : Fin 16, Cert.Spec.eabs (x0 (ix3 a o k) - x1 (ix3 b o k)))
          * (if 64 * (i 0).val + a.val = 64 * (i 1).val + b.val then 0 else 1) := by
  unfold upd
  refine (pay1_apply _ _ _ _ _ _ _ s a o).trans ?_
  refine congrArg (s (ix2 a o) + ·) ?_
  refine Finset.sum_congr rfl (fun b _ => ?_)
  rw [pay10_apply, pay8_apply, pay5_apply, pay7_apply, pay6_apply, pay9_apply, pay11_apply, pay12_apply, pay3_eq, pay4_eq,
    maskAt_eq]
  refine congrArg (fun d => Ideal.exp (0 - d) * _) ?_
  exact fold16 (dterm x0 x1 a b o)

end Cert.KernelIdeal.Val

end
-- ==== Proof.Val.Acc.lean ====
/-
  What the second pallas_call leaves in its output array, at the ideal instance: the feature array of the
  array M it reads.  The scratch after point 4*bi + bj holds, at entry (a, o), the sum over the partner tiles
  0..bj and the 64 rows of each of the similarity term of row 64*bi + a; the output block of row tile bi is
  written back once, at bj = 3, with the scratch's contents then: the sum over all four tiles, which is the
  sum over all 256 partners.
-/
import proofs.«123585_j16758962389448_1_alg».proof.Proof.KI.R1Facts
import proofs.«123585_j16758962389448_1_alg».proof.Proof.Val.Upd

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand
open scoped BigOperators

variable (V : (c : Dev nD) → (b : Ref sig .tc) → Buf (Elt Ideal) ((c : Thread nD τ).loc b))

/-- The array M both input windows read, as the region finds it. -/
abbrev Marr (c : Dev nD) : S256x128x16.Idx → EReal := V c main_v4

/-- The block of the row tile (window 0) and of the partner tile (window 1) at point `t`. -/
abbrev rowBlk (c : Dev nD) (t : Fin cfg1.N) : Vec Ideal S64x128x16 .f32 := iblk1 V c 0 t
abbrev partnerBlk (c : Dev nD) (t : Fin cfg1.N) : Vec Ideal S64x128x16 .f32 := iblk1 V c 1 t

/-- Row `b` of tile `q` among the 256 rows (for q below 4: 64 * q + b). -/
def rowN (q : ℕ) (b : Fin 64) : Fin 256 := ⟨(64 * q + b.val) % 256, Nat.mod_lt _ (by decide)⟩

theorem rowN_val (q : ℕ) (b : Fin 64) (h : q < 4) : (rowN q b).val = 64 * q + b.val :=
  Nat.mod_eq_of_lt (by have := b.isLt; omega)

theorem rowN_eq (q : Fin 4) (b : Fin 64) : rowN q.val b = Cert.Spec.rowOf q b :=
  Fin.ext (rowN_val q.val b q.isLt)

/-- The grid is 4 x 4 and point t has coordinates (t / 4, t % 4); the three index maps at t. -/
theorem point_facts : ∀ t : Fin cfg1.N,
    ((grid1.coords t) 0).val = t.val / 4 ∧ ((grid1.coords t) 1).val = t.val % 4
    ∧ win1_0.index t (0 : Fin 3) = t.val / 4 ∧ win1_0.index t (1 : Fin 3) = 0 ∧ win1_0.index t (2 : Fin 3) = 0
    ∧ win1_1.index t (0 : Fin 3) = t.val % 4 ∧ win1_1.index t (1 : Fin 3) = 0 ∧ win1_1.index t (2 : Fin 3) = 0
    ∧ win1_2.index t (0 : Fin 2) = t.val / 4 ∧ win1_2.index t (1 : Fin 2) = 0 :=
  (by decide +kernel : ∀ t : Fin grid1.N, _)

/-- Window 0's block at t reads rows 64 * (t / 4) .. of M. -/
theorem rowBlk_apply (c : Dev nD) (t : Fin cfg1.N) (a : Fin 64) (o : Fin 128) (k : Fin 16) :
    rowBlk V c t (ix3 a o k) = Marr V c (ix3 (rowN (t.val / 4) a) o k) := by
  obtain ⟨-, -, e0, e1, e2, -⟩ := point_facts t
  have hN : cfg1.N = 16 := N_1
  have ht := t.isLt
  unfold rowBlk iblk1
  rw [View.read_apply]
  show V c main_v4 _ = V c main_v4 _
  congr 1
  funext d
  apply Fin.ext
  match d with
  | ⟨0, _⟩ => show win1_0.index t (0 : Fin 3) * 64 + 1 * a.val = (64 * (t.val / 4) + a.val) % 256; rw [e0]; omega
  | ⟨1, _⟩ => show win1_0.index t (1 : Fin 3) * 128 + 1 * o.val = o.val; rw [e1]; omega
  | ⟨2, _⟩ => show win1_0.index t (2 : Fin 3) * 16 + 1 * k.val = k.val; rw [e2]; omega

/-- Window 1's block at t reads rows 64 * (t % 4) .. of the same array. -/
theorem partnerBlk_apply (c : Dev nD) (t : Fin cfg1.N) (b : Fin 64) (o : Fin 128) (k : Fin 16) :
    partnerBlk V c t (ix3 b o k) = Marr V c (ix3 (rowN (t.val % 4) b) o k) := by
  obtain ⟨-, -, -, -, -, e0, e1, e2, -⟩ := point_facts t
  unfold partnerBlk iblk1
  rw [View.read_apply]
  show V c main_v4 _ = V c main_v4 _
  congr 1
  funext d
  apply Fin.ext
  match d with
  | ⟨0, _⟩ => show win1_1.index t (0 : Fin 3) * 64 + 1 * b.val = (64 * (t.val % 4) + b.val) % 256; rw [e0]; omega
  | ⟨1, _⟩ => show win1_1.index t (1 : Fin 3) * 128 + 1 * o.val = o.val; rw [e1]; omega
  | ⟨2, _⟩ => show win1_1.index t (2 : Fin 3) * 16 + 1 * k.val = k.val; rw [e2]; omega

/-- One point's update at entry (a, o): what the scratch held plus the similarity terms of row 64 * (t / 4) + a
    with the 64 rows of partner tile t % 4. -/
theorem point_sum (c : Dev nD) (t : Fin cfg1.N) (s : Vec Ideal S64x128 .f32) (a : Fin 64) (o : Fin 128) :
    upd (F := Ideal) (grid1.coords t) (rowBlk V c t) (partnerBlk V c t) s (ix2 a o)
      = s (ix2 a o) + ∑ b : Fin 64, Cert.Spec.term (Marr V c) (rowN (t.val / 4) a) (rowN (t.val % 4) b) o := by
  obtain ⟨g0, g1, -⟩ := point_facts t
  have hN : cfg1.N = 16 := N_1
  have ht := t.isLt
  refine (upd_apply (grid1.coords t) (rowBlk V c t) (partnerBlk V c t) s a o).trans ?_
  refine congrArg (fun z => s (ix2 a o) + z) (Finset.sum_congr rfl fun b _ => ?_)
  have e1 : (∑ k : Fin 16, Cert.Spec.eabs (rowBlk V c t (ix3 a o k) - partnerBlk V c t (ix3 b o k)))
      = ∑ k : Fin 16, Cert.Spec.eabs (Marr V c (ix3 (rowN (t.val / 4) a) o k) - Marr V c (ix3 (rowN (t.val % 4) b) o k)) :=
    Finset.sum_congr rfl fun k _ => by rw [rowBlk_apply, partnerBlk_apply]
  have e2 : (64 * ((grid1.coords t) 0).val + a.val = 64 * ((grid1.coords t) 1).val + b.val)
      ↔ rowN (t.val / 4) a = rowN (t.val % 4) b := by
    rw [g0, g1, Fin.ext_iff, rowN_val _ _ (by omega), rowN_val _ _ (by omega)]
  unfold Cert.Spec.term
  rw [e1, if_congr e2 rfl rfl]

/-- The scratch after point n, at entry (a, o): the similarity terms of row 64 * (n / 4) + a summed over the
    partner tiles 0 .. n % 4 and the 64 rows of each. -/
theorem acc_eq (c : Dev nD) : ∀ (n : ℕ) (hn : n < cfg1.N) (a : Fin 64) (o : Fin 128),
    accAt1 V c n hn (ix2 a o)
      = ∑ q ∈ Finset.range (n % 4 + 1), ∑ b : Fin 64, Cert.Spec.term (Marr V c) (rowN (n / 4) a) (rowN q b) o := by
  intro n
  induction n with
  | zero =>
    intro hn a o
    refine (congrFun (accAt1_reset (F := Ideal) V c ⟨0, hn⟩ rfl) (ix2 a o)).trans ?_
    refine (point_sum V c ⟨0, hn⟩ (k1_pay2 (F := Ideal)) a o).trans ?_
    rw [pay2_apply, zero_add]
    show _ = ∑ q ∈ Finset.range 1, _
    rw [Finset.sum_range_one]
    rfl
  | succ n ih =>
    intro hn a o
    by_cases h0 : (n + 1) % 4 = 0
    · refine (congrFun (accAt1_reset (F := Ideal) V c ⟨n + 1, hn⟩ h0) (ix2 a o)).trans ?_
      refine (point_sum V c ⟨n + 1, hn⟩ (k1_pay2 (F := Ideal)) a o).trans ?_
      rw [pay2_apply, zero_add]
      show (∑ b : Fin 64, Cert.Spec.term (Marr V c) (rowN ((n + 1) / 4) a) (rowN ((n + 1) % 4) b) o) = _
      rw [h0, Finset.sum_range_one]
    · refine (congrFun (accAt1_step (F := Ideal) V c ⟨n + 1, hn⟩ h0) (ix2 a o)).trans ?_
      refine (point_sum V c ⟨n + 1, hn⟩ _ a o).trans ?_
      show accAt1 V c n _ (ix2 a o) + (∑ b : Fin 64, Cert.Spec.term (Marr V c) (rowN ((n + 1) / 4) a) (rowN ((n + 1) % 4) b) o) = _
      rw [ih (Nat.lt_of_succ_lt hn) a o]
      have hq : n / 4 = (n + 1) / 4 := by omega
      have hr : n % 4 + 1 = (n + 1) % 4 := by omega
      rw [hq, hr, Finset.sum_range_succ]

/-- At a point that writes back (t % 4 = 3) the scratch holds the feature array's entry of row 64 * (t / 4) + a:
    the four tiles' sums together are the sum over all 256 partners. -/
theorem acc_flush (c : Dev nD) (t : Fin cfg1.N) (h3 : t.val % 4 = 3) (a : Fin 64) (o : Fin 128) :
    accAt1 V c t.val t.isLt (ix2 a o) = Cert.Spec.feat (Marr V c) (ix2 (rowN (t.val / 4) a) o) := by
  rw [acc_eq V c t.val t.isLt a o, h3, Finset.sum_range]
  show _ = ∑ p' : Fin 256, Cert.Spec.term (Marr V c) (rowN (t.val / 4) a) p' o
  rw [Cert.Spec.sum_tiles]
  exact Finset.sum_congr rfl fun q _ => Finset.sum_congr rfl fun b _ => by rw [rowN_eq]

/-- What a flushing point writes back is its block of the feature array. -/
theorem flushed_eq (c : Dev nD) (t : Fin cfg1.N) (hf : (cfg1.win 2).flush t = true) :
    (dat1 (F := Ideal) V c).flushed 2 t = ((cfg1.win 2).blk t).view.read (Elt Ideal) (Cert.Spec.feat (Marr V c)) := by
  have h3 : t.val % 4 = 3 := (flush1_2 t).mp hf
  obtain ⟨-, -, -, -, -, -, -, -, e0, e1⟩ := point_facts t
  have hN : cfg1.N = 16 := N_1
  have ht := t.isLt
  show (cfg1.win 2).cut (grid1.coords t) ((dat1 (F := Ideal) V c).after 2 t) = _
  rw [after1_2]
  funext j
  obtain ⟨a, o, rfl⟩ : ∃ (a : Fin 64) (o : Fin 128), j = ix2 a o := ⟨j 0, j 1, eq_ix2 j⟩
  rw [View.read_apply]
  show accAt1 V c t.val t.isLt (ix2 a o) = Cert.Spec.feat (Marr V c) _
  rw [acc_flush V c t h3 a o]
  congr 1
  funext d
  apply Fin.ext
  match d with
  | ⟨0, _⟩ => show (64 * (t.val / 4) + a.val) % 256 = win1_2.index t (0 : Fin 2) * 64 + 1 * a.val; rw [e0]; omega
  | ⟨1, _⟩ => show o.val = win1_2.index t (1 : Fin 2) * 128 + 1 * o.val; rw [e1]; omega

/-- An index of the output array is in point t's block iff each coordinate is in the block's range on its axis. -/
theorem mem_outBlk (t : Fin cfg1.N) (i : S256x128.Idx) :
    i ∈ ((cfg1.win 2).blk t).view.set ↔ ∀ a : Fin 2, win1_2.index t a * S64x128.size a ≤ (i a).val ∧ (i a).val < win1_2.index t a * S64x128.size a + S64x128.size a := by
  show i ∈ ((View.whole main_v5).slice (win1_2.rect t)).set ↔ _
  rw [View.set_slice_whole, Rect.mem_set_unit]
  exact Iff.rfl

/-- Row p of the output is written back at point 4 * (p / 64) + 3. -/
theorem covered (i : S256x128.Idx) :
    ∃ t : Fin cfg1.N, (cfg1.win 2).flush t = true ∧ i ∈ ((cfg1.win 2).blk t).view.set := by
  have hN : cfg1.N = 16 := N_1
  have hi0 : (i 0).val < 256 := (i 0).isLt
  have hi1 : (i 1).val < 128 := (i 1).isLt
  refine ⟨⟨4 * ((i 0).val / 64) + 3, by omega⟩, (flush1_2 _).mpr (by show (4 * ((i 0).val / 64) + 3) % 4 = 3; omega), ?_⟩
  obtain ⟨-, -, -, -, -, -, -, -, e0, e1⟩ := point_facts ⟨4 * ((i 0).val / 64) + 3, by omega⟩
  rw [mem_outBlk]
  intro a
  match a with
  | ⟨0, _⟩ =>
    show win1_2.index _ (0 : Fin 2) * 64 ≤ (i 0).val ∧ (i 0).val < win1_2.index _ (0 : Fin 2) * 64 + 64
    rw [e0]; show (4 * ((i 0).val / 64) + 3) / 4 * 64 ≤ (i 0).val ∧ (i 0).val < (4 * ((i 0).val / 64) + 3) / 4 * 64 + 64; omega
  | ⟨1, _⟩ =>
    show win1_2.index _ (1 : Fin 2) * 128 ≤ (i 1).val ∧ (i 1).val < win1_2.index _ (1 : Fin 2) * 128 + 128
    rw [e1]; omega

/-- The feature array after the region, entry by entry. -/
theorem arr1_eq (c : Dev nD) :
    ((dat1 (F := Ideal) V c).arrAt 2 cfg1.N : S256x128.Idx → EReal) = Cert.Spec.feat (V c main_v4 : S256x128x16.Idx → EReal) := by
  exact (dat1 (F := Ideal) V c).arrAt_eq_of_cover 2 (Cert.Spec.feat (Marr V c)) (flushed_eq V c) covered

end Cert.KernelIdeal.Val

end
-- ==== Proof.Val.Mm.lean ====
/-
  What the first pallas_call leaves in its output array, at the ideal instance: entry (p, j) of the 256 x 2048
  product is the sum over q of the first operand's entry (p, q) times the second's entry (q, j) — each 128-row
  tile is one matrix product into a zero accumulator, and the two tiles cover the array.
-/
import proofs.«123585_j16758962389448_1_alg».proof.Proof.KI.R0
import proofs.«123585_j16758962389448_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand
open scoped BigOperators

/-! ## One tile's matrix product at an index

The tile product contracts axis 1 of the 128 x 1024 tile with axis 0 of the 1024 x 2048 operand: at output index
(r, j) and contraction index q the left operand is read at (r, q) and the right at (q, j). -/

/-- The left operand's row is the output's row. -/
theorem tileLhs_0 (i : S128x2048.Idx) (q : dot_S128x1024_S1024x2048_S128x2048_1_0_0_1_n_n.contr.Idx) :
    (dot_S128x1024_S1024x2048_S128x2048_1_0_0_1_n_n.lhsIdx i q 0).val = (i 0).val := by
  unfold DotDims.lhsIdx
  rw [dif_neg (show ¬(0 : Fin S128x1024.rank) ∈ dot_S128x1024_S1024x2048_S128x2048_1_0_0_1_n_n.lhsBatch by decide), dif_pos (show (0 : Fin S128x1024.rank) ∈ dot_S128x1024_S1024x2048_S128x2048_1_0_0_1_n_n.lhsNonContracting by decide)]
  rfl
/-- The left operand's column is the contraction index. -/
theorem tileLhs_1 (i : S128x2048.Idx) (q : dot_S128x1024_S1024x2048_S128x2048_1_0_0_1_n_n.contr.Idx) :
    (dot_S128x1024_S1024x2048_S128x2048_1_0_0_1_n_n.lhsIdx i q 1).val = (q ⟨0, by decide⟩).val :=
  dot_S128x1024_S1024x2048_S128x2048_1_0_0_1_n_n.lhsIdx_val_of_single rfl i q
/-- The right operand's row is the contraction index. -/
theorem tileRhs_0 (i : S128x2048.Idx) (q : dot_S128x1024_S1024x2048_S128x2048_1_0_0_1_n_n.contr.Idx) :
    (dot_S128x1024_S1024x2048_S128x2048_1_0_0_1_n_n.rhsIdx i q 0).val = (q ⟨0, by decide⟩).val :=
  dot_S128x1024_S1024x2048_S128x2048_1_0_0_1_n_n.rhsIdx_val_of_single rfl i q
/-- The right operand's column is the output's column. -/
theorem tileRhs_1 (i : S128x2048.Idx) (q : dot_S128x1024_S1024x2048_S128x2048_1_0_0_1_n_n.contr.Idx) :
    (dot_S128x1024_S1024x2048_S128x2048_1_0_0_1_n_n.rhsIdx i q 1).val = (i 1).val := by
  unfold DotDims.rhsIdx
  rw [dif_neg (show ¬(1 : Fin S1024x2048.rank) ∈ dot_S128x1024_S1024x2048_S128x2048_1_0_0_1_n_n.rhsBatch by decide), dif_pos (show (1 : Fin S1024x2048.rank) ∈ dot_S128x1024_S1024x2048_S128x2048_1_0_0_1_n_n.rhsNonContracting by decide)]
  rfl

/-- Where the left operand is read: row of the output, column the contraction index. -/
abbrev tileLidx (i : S128x2048.Idx) (k : Fin 1024) : S128x1024.Idx := fun a => match a with
  | ⟨0, _⟩ => ⟨(i 0).val, (i 0).isLt⟩
  | ⟨1, _⟩ => ⟨k.val, k.isLt⟩
/-- Where the right operand is read: row the contraction index, column of the output. -/
abbrev tileRidx (i : S128x2048.Idx) (k : Fin 1024) : S1024x2048.Idx := fun a => match a with
  | ⟨0, _⟩ => ⟨k.val, k.isLt⟩
  | ⟨1, _⟩ => ⟨(i 1).val, (i 1).isLt⟩

/-- The matrix product of a tile into the zero accumulator, entry by entry: the sum over the contraction index of the
    products of the operands' entries. -/
theorem tileMatmul_apply (y0 : FVec Ideal S128x1024 .bf16) (y1 : FVec Ideal S1024x2048 .bf16) (i : S128x2048.Idx) :
    FloatOps.matmul dot_S128x1024_S1024x2048_S128x2048_1_0_0_1_n_n none y0 y1 (constant (F := Ideal) S128x2048 .f32 0x00000000#32) i
      = ∑ k : Fin 1024, y0 (tileLidx i k) * y1 (tileRidx i k) := by
  rw [Ideal.matmul_constant_zero_apply, ← Equiv.sum_comp (ValueIdx.contrEquiv1 dot_S128x1024_S1024x2048_S128x2048_1_0_0_1_n_n 1024 rfl rfl).symm]
  refine Finset.sum_congr rfl fun k _ => ?_
  have hk := ValueIdx.contrEquiv1_symm_val dot_S128x1024_S1024x2048_S128x2048_1_0_0_1_n_n 1024 rfl rfl k
  have el : dot_S128x1024_S1024x2048_S128x2048_1_0_0_1_n_n.lhsIdx i ((ValueIdx.contrEquiv1 dot_S128x1024_S1024x2048_S128x2048_1_0_0_1_n_n 1024 rfl rfl).symm k) = tileLidx i k := funext fun a => Fin.ext (by
    match a with
    | ⟨0, _⟩ => exact tileLhs_0 _ _
    | ⟨1, _⟩ => exact (tileLhs_1 _ _).trans hk)
  have er : dot_S128x1024_S1024x2048_S128x2048_1_0_0_1_n_n.rhsIdx i ((ValueIdx.contrEquiv1 dot_S128x1024_S1024x2048_S128x2048_1_0_0_1_n_n 1024 rfl rfl).symm k) = tileRidx i k := funext fun a => Fin.ext (by
    match a with
    | ⟨0, _⟩ => exact (tileRhs_0 _ _).trans hk
    | ⟨1, _⟩ => exact tileRhs_1 _ _)
  rw [el, er]

/-- What the body leaves in the product tile's buffer, entry (r, j): the sum over q of the row tile's entry (r, q)
    times the second operand's entry (q, j). The two casts are to the operands' own shapes: the identity. -/
theorem tileProduct_apply (x0 : Vec Ideal S128x1024 .bf16) (x1 : Vec Ideal S1024x2048 .bf16) (r : Fin 128) (j : Fin 2048) :
    out0_2 (F := Ideal) x0 x1 (ix2 r j) = ∑ q : Fin 1024, x0 (ix2 r q) * x1 (ix2 q j) := by
  unfold out0_2 k0_pay1
  show FloatOps.matmul dot_S128x1024_S1024x2048_S128x2048_1_0_0_1_n_n none
      (shapeCast S128x1024 x0 shapeCasts_S128x1024_S128x1024) (shapeCast S1024x2048 x1 shapeCasts_S1024x2048_S1024x2048)
      (constant (F := Ideal) S128x2048 .f32 0x00000000#32) (ix2 r j) = _
  rw [shapeCast_self, shapeCast_self]
  refine (tileMatmul_apply x0 x1 (ix2 r j)).trans ?_
  refine Finset.sum_congr rfl fun k _ => ?_
  have el : tileLidx (ix2 r j) k = ix2 r k := funext fun a => by match a with | ⟨0, _⟩ => rfl | ⟨1, _⟩ => rfl
  have er : tileRidx (ix2 r j) k = ix2 k j := funext fun a => by match a with | ⟨0, _⟩ => rfl | ⟨1, _⟩ => rfl
  rw [el, er]

variable (V : (c : Dev nD) → (b : Ref sig .tc) → Buf (Elt Ideal) ((c : Thread nD τ).loc b))

/-- The first operand's array, the second's, and the product array after the region, at their literal types. -/
abbrev lhs0 (c : Dev nD) : S256x1024.Idx → EReal := V c main_v2
abbrev rhs0 (c : Dev nD) : S1024x2048.Idx → EReal := V c main_v1
abbrev res0 (c : Dev nD) : S256x2048.Idx → EReal := (dat0 (F := Ideal) V c).arrAt 2 cfg0.N

/-! ## From the tiles to the array

Point t of the two-point grid reads rows 128 t .. 128 t + 127 of the first operand and the whole second operand,
and writes rows 128 t .. 128 t + 127 of the product: the two row tiles fill the 256 rows. -/

/-- The whole product of two arrays: entry (p, j) is the sum over q of a0 (p, q) * a1 (q, j). -/
abbrev arrProduct0 (a0 : S256x1024.Idx → EReal) (a1 : S1024x2048.Idx → EReal) : S256x2048.Idx → EReal :=
  fun i => ∑ q : Fin 1024, a0 (ix2 (i 0) q) * a1 (ix2 q (i 1))

/-- The block indices at point t: the row tile t of the first operand and of the product (column block 0), block
    (0, 0) of the second operand. -/
theorem tileIdx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The first operand's block at point t is rows 128 t .. 128 t + 127 of its array. -/
theorem lhsTile_apply (c : Dev nD) (t : Fin cfg0.N) (x : S128x1024.Idx) (k : S256x1024.Idx)
    (hk0 : (k 0).val = 128 * t.val + (x 0).val) (hk1 : (k 1).val = (x 1).val) :
    (iblk0 (F := Ideal) V c 0 t : Vec Ideal S128x1024 .bf16) x = lhs0 V c k := by
  obtain ⟨e0, e1, -⟩ := tileIdx_facts0 t
  unfold iblk0
  rw [View.read_apply]
  show V c main_v2 _ = V c main_v2 _
  congr 1
  funext a
  apply Fin.ext
  match a with
  | ⟨0, _⟩ => show win0_0.index t (0 : Fin 2) * 128 + 1 * (x 0).val = (k 0).val; rw [e0, hk0]; omega
  | ⟨1, _⟩ => show win0_0.index t (1 : Fin 2) * 1024 + 1 * (x 1).val = (k 1).val; rw [e1, hk1]; omega

/-- The second operand's block at every point is its whole array. -/
theorem rhsTile_apply (c : Dev nD) (t : Fin cfg0.N) (x : S1024x2048.Idx) (k : S1024x2048.Idx)
    (hk0 : (k 0).val = (x 0).val) (hk1 : (k 1).val = (x 1).val) :
    (iblk0 (F := Ideal) V c 1 t : Vec Ideal S1024x2048 .bf16) x = rhs0 V c k := by
  obtain ⟨-, -, e0, e1, -⟩ := tileIdx_facts0 t
  unfold iblk0
  rw [View.read_apply]
  show V c main_v1 _ = V c main_v1 _
  congr 1
  funext a
  apply Fin.ext
  match a with
  | ⟨0, _⟩ => show win0_1.index t (0 : Fin 2) * 1024 + 1 * (x 0).val = (k 0).val; rw [e0, hk0]; omega
  | ⟨1, _⟩ => show win0_1.index t (1 : Fin 2) * 2048 + 1 * (x 1).val = (k 1).val; rw [e1, hk1]; omega

/-- The product of a row tile with the whole second operand is the row tile of the whole product: over blocks that
    read the arrays a0, a1 at rows 128 n + r and everywhere, entry (r, j) of the tile product is entry
    (128 n + r, j) of the product of the arrays. -/
theorem tileProduct_eq (a0 : S256x1024.Idx → EReal) (a1 : S1024x2048.Idx → EReal)
    (x0 : Vec Ideal S128x1024 .bf16) (x1 : Vec Ideal S1024x2048 .bf16) (n : Nat) (hn : n < 2)
    (h0 : ∀ (r : Fin 128) (q : Fin 1024), x0 (ix2 r q) = a0 (ix2 (⟨128 * n + r.val, by omega⟩ : Fin 256) q))
    (h1 : ∀ (q : Fin 1024) (j : Fin 2048), x1 (ix2 q j) = a1 (ix2 q j)) (r : Fin 128) (j : Fin 2048) :
    out0_2 (F := Ideal) x0 x1 (ix2 r j) = arrProduct0 a0 a1 (ix2 (⟨128 * n + r.val, by omega⟩ : Fin 256) j) := by
  refine (tileProduct_apply x0 x1 r j).trans ?_
  show _ = ∑ q : Fin 1024, a0 (ix2 (⟨128 * n + r.val, by omega⟩ : Fin 256) q) * a1 (ix2 q j)
  refine Finset.sum_congr rfl fun q _ => ?_
  rw [h0 r q, h1 q j]

/-- What point t writes back is block t of the product of the two arrays as the region finds them. -/
theorem flushed0_eq (c : Dev nD) (t : Fin cfg0.N) :
    (dat0 (F := Ideal) V c).flushed 2 t = ((cfg0.win 2).blk t).view.read (Elt Ideal) (arrProduct0 (lhs0 V c) (rhs0 V c)) := by
  show (cfg0.win 2).cut (grid0.coords t) ((dat0 (F := Ideal) V c).after 2 t) = _
  rw [after0_2]
  have hN : cfg0.N = 2 := N_0
  have ht : t.val < 2 := hN ▸ t.isLt
  obtain ⟨-, -, -, -, e0, e1⟩ := tileIdx_facts0 t
  funext y
  have hy0 : (y 0).val < 128 := (y 0).isLt
  have hy1 : (y 1).val < 2048 := (y 1).isLt
  rw [View.read_apply]
  show out0_2 (F := Ideal) (iblk0 (F := Ideal) V c 0 t) (iblk0 (F := Ideal) V c 1 t) (ix2 (⟨(y 0).val, hy0⟩ : Fin 128) (⟨(y 1).val, hy1⟩ : Fin 2048)) = arrProduct0 (lhs0 V c) (rhs0 V c) _
  refine (tileProduct_eq (lhs0 V c) (rhs0 V c) _ _ t.val ht
    (fun r q => lhsTile_apply V c t _ _ rfl rfl) (fun q j => rhsTile_apply V c t _ _ rfl rfl) _ _).trans ?_
  congr 1
  funext a
  apply Fin.ext
  match a with
  | ⟨0, _⟩ => show 128 * t.val + (y 0).val = win0_2.index t (0 : Fin 2) * 128 + 1 * (y 0).val; rw [e0]; omega
  | ⟨1, _⟩ => show (y 1).val = win0_2.index t (1 : Fin 2) * 2048 + 1 * (y 1).val; rw [e1]; omega

/-- An index of the product array is in point t's block iff each coordinate is in the block's range on its axis. -/
theorem mem_tile0 (t : Fin cfg0.N) (i : S256x2048.Idx) :
    i ∈ ((cfg0.win 2).blk t).view.set ↔ ∀ a : Fin 2, win0_2.index t a * S128x2048.size a ≤ (i a).val ∧ (i a).val < win0_2.index t a * S128x2048.size a + S128x2048.size a := by
  show i ∈ ((View.whole main_v3).slice (win0_2.rect t)).set ↔ _
  rw [View.set_slice_whole, Rect.mem_set_unit]
  exact Iff.rfl

/-- Every row of the product array is in one of the two row tiles: row p in tile p / 128. -/
theorem tiles_cover0 (i : S256x2048.Idx) :
    ∃ t : Fin cfg0.N, (cfg0.win 2).flush t = true ∧ i ∈ ((cfg0.win 2).blk t).view.set := by
  have hN : cfg0.N = 2 := N_0
  have hi0 : (i 0).val < 256 := (i 0).isLt
  have hi1 : (i 1).val < 2048 := (i 1).isLt
  let t : Fin cfg0.N := ⟨(i 0).val / 128, by rw [hN]; omega⟩
  obtain ⟨-, -, -, -, e0, e1⟩ := tileIdx_facts0 t
  have et : t.val = (i 0).val / 128 := rfl
  refine ⟨t, flush0_2 t, ?_⟩
  rw [mem_tile0]
  intro a
  match a with
  | ⟨0, _⟩ => show win0_2.index t (0 : Fin 2) * 128 ≤ (i 0).val ∧ (i 0).val < win0_2.index t (0 : Fin 2) * 128 + 128; rw [e0, et]; omega
  | ⟨1, _⟩ => show win0_2.index t (1 : Fin 2) * 2048 ≤ (i 1).val ∧ (i 1).val < win0_2.index t (1 : Fin 2) * 2048 + 2048; rw [e1]; omega

/-- The product array after the region is the product of the two arrays as the region finds them. -/
theorem arr0_eq (c : Dev nD) : res0 V c = arrProduct0 (lhs0 V c) (rhs0 V c) :=
  (dat0 (F := Ideal) V c).arrAt_eq_of_cover 2 (arrProduct0 (lhs0 V c) (rhs0 V c)) (fun t _ => flushed0_eq V c t) tiles_cover0

/-- The product array after the region, entry by entry. -/
theorem arr0_apply (c : Dev nD) (j : S256x2048.Idx) :
    res0 V c j = ∑ q : Fin 1024, lhs0 V c (ix2 (j 0) q) * rhs0 V c (ix2 q (j 1)) :=
  congrFun (arr0_eq V c) j

end Cert.KernelIdeal.Val

end
-- ==== Proof.Val.Host.lean ====
/-
  The host operations of the kernel's program read at the ideal instance: the two format changes before the
  first pallas_call are the identity, so that call multiplies x by T reshaped to 1024 x 2048; the reshape of
  its 256 x 2048 product to 256 x 128 x 16 is the projected features M; the final operation appends the
  second call's output to x.
-/
import proofs.«123585_j16758962389448_1_alg».proof.Proof.Gen.KernelIdeal.Regions
import proofs.«123585_j16758962389448_1_alg».proof.Proof.Val.Mm
import Idealize.ShloMosaic.Lib.StableHlo.Run

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand
open scoped BigOperators

variable (m : (ℓ : Loc nD τ sig) → Buf (Elt Ideal) ℓ) (outs : Gen.Outs (F := Ideal))

/-- The two arguments at their literal types: x is 256 x 1024, T is 1024 x 128 x 16. -/
abbrev xArr (c : Dev nD) : S256x1024.Idx → EReal := m ((c : Thread nD τ).loc main_arg0)
abbrev tArr (c : Dev nD) : S1024x128x16.Idx → EReal := m ((c : Thread nD τ).loc main_arg1)

/-- The first operand of the first call is x itself: over the extended reals the change of format to bf16
    is the identity. -/
theorem lhs0_V1 (c : Dev nD) : lhs0 (fun c b => Gen.V1 m c b) c = xArr m c := by
  show (StableHlo.after Gen.hostOps0 (Gen.V0 m c) (Proc.devRef .tc main_v2) : S256x1024.Idx → EReal) = _
  after_results
  rfl

/-- The second operand of the first call is T with its last two axes merged into one of 2048 (again the change
    of format is the identity). -/
theorem rhs0_V1 (c : Dev nD) :
    rhs0 (fun c b => Gen.V1 m c b) c = shapeCast S1024x2048 (tArr m c) shapeCasts_S1024x128x16_S1024x2048 := by
  show (StableHlo.after Gen.hostOps0 (Gen.V0 m c) (Proc.devRef .tc main_v1) : S1024x2048.Idx → EReal) = _
  after_results
  rfl

/-- Entry (q, 16 o + k) of the merged T is T[q, o, k]: the two indices have the same row-major position. -/
theorem rhs0_V1_apply (c : Dev nD) (q : Fin 1024) (o : Fin 128) (k : Fin 16) (r : Fin 2048)
    (hr : r.val = 16 * o.val + k.val) :
    rhs0 (fun c b => Gen.V1 m c b) c (ix2 q r) = tArr m c (ix3 q o k) := by
  rw [rhs0_V1]
  refine shapeCast_apply _ _ _ _ ?_
  rw [Shape.rowMajor_val_three, Shape.rowMajor_val_two]
  show (q.val * 128 + o.val) * 16 + k.val = q.val * 2048 + r.val
  omega

/-- The array the second call reads is the first call's product array with its 2048 columns split into
    128 x 16. -/
theorem V3_main_v4_cast (c : Dev nD) :
    (Gen.V3 m outs c main_v4 : S256x128x16.Idx → EReal)
      = shapeCast S256x128x16 (outs 2 main_v3 c : S256x2048.Idx → EReal) shapeCasts_S256x2048_S256x128x16 := by
  show (StableHlo.after Gen.hostOps1 (Gen.V2 m outs c) (Proc.devRef .tc main_v4) : S256x128x16.Idx → EReal) = _
  after_results
  have e : Gen.V2 m outs c (Proc.devRef .tc main_v3) = outs 2 main_v3 c := Function.update_self _ _ _
  rw [e]
  rfl

/-- The array the second pallas_call reads is the projection of the two arguments, when the first call left
    its product array in `main_v3`. -/
theorem V3_main_v4 (c : Dev nD)
    (h : outs 2 main_v3 c = (dat0 (F := Ideal) (fun c b => Gen.V1 m c b) c).arrAt 2 cfg0.N) :
    (Gen.V3 m outs c main_v4 : S256x128x16.Idx → EReal)
      = Cert.Spec.proj (m ((c : Thread nD τ).loc main_arg0)) (m ((c : Thread nD τ).loc main_arg1)) := by
  funext j
  obtain ⟨p, o, k, rfl⟩ : ∃ (p : Fin 256) (o : Fin 128) (k : Fin 16), j = ix3 p o k := ⟨j 0, j 1, j 2, eq_ix3 j⟩
  show _ = ∑ q : Fin 1024, xArr m c (ix2 p q) * tArr m c (ix3 q o k)
  have hr : 16 * o.val + k.val < 2048 := by omega
  refine (congrFun (V3_main_v4_cast m outs c) (ix3 p o k)).trans ?_
  refine (shapeCast_apply _ _ (ix3 p o k) (ix2 p (⟨16 * o.val + k.val, hr⟩ : Fin 2048)) ?_).trans ?_
  · rw [Shape.rowMajor_val_three, Shape.rowMajor_val_two]
    show p.val * 2048 + (16 * o.val + k.val) = (p.val * 128 + o.val) * 16 + k.val
    omega
  rw [h]
  refine (arr0_apply (fun c b => Gen.V1 m c b) c (ix2 p (⟨16 * o.val + k.val, hr⟩ : Fin 2048))).trans ?_
  refine Finset.sum_congr rfl fun q _ => ?_
  show lhs0 (fun c b => Gen.V1 m c b) c (ix2 p q) * rhs0 (fun c b => Gen.V1 m c b) c (ix2 q (⟨16 * o.val + k.val, hr⟩ : Fin 2048)) = _
  rw [lhs0_V1 m c, rhs0_V1_apply m c q o k ⟨_, hr⟩ rfl]

/-- After the second call `main_v5` holds what that call left in it. -/
theorem V4_main_v5 (c : Dev nD) : Gen.V4 m outs c main_v5 = outs 4 main_v5 c := by
  show Function.update (Gen.V3 m outs c) (Proc.devRef .tc main_v5) (outs 4 main_v5 c) (Proc.devRef .tc main_v5) = _
  exact Function.update_self _ _ _

/-- The result buffer at the end: x with the second call's output appended along the second axis. -/
theorem V5_main_v6 (c : Dev nD) :
    Gen.V5 m outs c main_v6
      = concatenate S256x1152 1 [⟨S256x1024, m ((c : Thread nD τ).loc main_arg0)⟩, ⟨S256x128, outs 4 main_v5 c⟩]
          concatenates_S256x1024_S256x128_S256x1152_d1 := by
  show StableHlo.after Gen.hostOps2 (Gen.V4 m outs c) (Proc.devRef .tc main_v6) = _
  after_results
  rw [V4_main_v5 m outs c]
  have e0 : Gen.V4 m outs c main_arg0 = m ((c : Thread nD τ).loc main_arg0) :=
    (Gen.V4_of m outs c main_arg0 (by decide)).trans <| (Gen.V3_of m outs c main_arg0 (by decide)).trans <|
      (Gen.V2_of m outs c main_arg0 (by decide)).trans <| (Gen.V1_of m c main_arg0 (by decide)).trans rfl
  rw [e0]

end Cert.KernelIdeal.Val

end
-- ==== Proof.Val.Main.lean ====
/-
  The result of the kernel's program at the ideal instance: the result buffer ends holding x with the
  feature array of the projected features appended — the first pallas_call's product array, reshaped, is the
  projection; the second's output array is the feature array of what it reads; the last host operation
  appends it to x.
-/
import proofs.«123585_j16758962389448_1_alg».proof.Proof.KI.Main
import proofs.«123585_j16758962389448_1_alg».proof.Proof.Val.Acc
import proofs.«123585_j16758962389448_1_alg».proof.Proof.Val.Host

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand
open scoped BigOperators

variable (m : (ℓ : Loc nD τ sig) → Buf (Elt Ideal) ℓ)

/-- What the second pallas_call leaves in its output array: the feature array of the projection of the arguments. -/
theorem feat_eq (c : Dev nD) :
    outs m 4 main_v5 c
      = Cert.Spec.feat (Cert.Spec.proj (m ((c : Thread nD τ).loc main_arg0)) (m ((c : Thread nD τ).loc main_arg1))) :=
  (outs_v5 m c).trans ((arr1_eq (VR3 m) c).trans
    (congrArg Cert.Spec.feat (V3_main_v4 m (outs m) c (outs_v3 m c))))

/-- The result buffer at the end. -/
theorem result_eq (c : Dev nD) :
    Gen.V5 m (outs m) c main_v6
      = concatenate S256x1152 1 [⟨S256x1024, m ((c : Thread nD τ).loc main_arg0)⟩,
          ⟨S256x128, Cert.Spec.feat (Cert.Spec.proj (m ((c : Thread nD τ).loc main_arg0)) (m ((c : Thread nD τ).loc main_arg1)))⟩]
          concatenates_S256x1024_S256x128_S256x1152_d1 := by
  rw [V5_main_v6, feat_eq]

end Cert.KernelIdeal.Val

end
-- ==== Proof.Val.Ref.lean ====
/-
  The reference computes the feature array of the projected features: read one operation at a time, its
  result before the final concatenation is, entry by entry, the sum over the partners of
  exp(-(L1 distance)) * (1 - [same row]); the distance is taken partner minus row, which is the same
  absolute value, minus is zero minus, and one minus the indicator is the 0/1 factor.
-/
import proofs.«123585_j16758962389448_1_alg».proof.Proof.Gen.ReferenceIdeal.Run
import proofs.«123585_j16758962389448_1_alg».proof.Proof.Gen.ReferenceIdeal.Read
import proofs.«123585_j16758962389448_1_alg».proof.Proof.Spec
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read
open scoped BigOperators

section Entries

variable (x0 : (⟨S256x1024, .f32⟩ : BufTy).Contents (Elt Ideal)) (x1 : (⟨S1024x128x16, .f32⟩ : BufTy).Contents (Elt Ideal))

/-! ## The projected features

The product x · T2 with T2 the 1024 x 2048 flattening of T, reshaped to 256 x 128 x 16: entry (p, o, k) is
entry (p, 16 o + k) of the product, and entry (q, 16 o + k) of T2 is T[q, o, k]. -/

/-- The left factor of the contraction at (p, 16 o + k), term q, is x[p, q]. -/
theorem left_index (p : Fin 256) (o : Fin 128) (k : Fin 16) (q : Fin 1024) :
    lidx_main_v1 (idx_main_v2 (ix3 p o k)) q = ix2 p q := by
  funext a
  refine Fin.ext ?_
  have hp := p.isLt; have ho := o.isLt; have hk := k.isLt
  match a with
  | ⟨0, _⟩ =>
    show ((p.val * 128 + o.val) * 16 + k.val) / 2048 = p.val
    omega
  | ⟨1, _⟩ => rfl

/-- The right factor of the contraction at (p, 16 o + k), term q, is entry (q, 16 o + k) of the flattened T,
    which is T[q, o, k]. -/
theorem right_index (p : Fin 256) (o : Fin 128) (k : Fin 16) (q : Fin 1024) :
    idx_main_v0 (ridx_main_v1 (idx_main_v2 (ix3 p o k)) q) = ix3 q o k := by
  funext a
  refine Fin.ext ?_
  have hp := p.isLt; have ho := o.isLt; have hk := k.isLt; have hq := q.isLt
  match a with
  | ⟨0, _⟩ =>
    show (q.val * 2048 + ((p.val * 128 + o.val) * 16 + k.val) % 2048) / 2048 = q.val
    omega
  | ⟨1, _⟩ =>
    show (q.val * 2048 + ((p.val * 128 + o.val) * 16 + k.val) % 2048) / 16 % 128 = o.val
    omega
  | ⟨2, _⟩ =>
    show (q.val * 2048 + ((p.val * 128 + o.val) * 16 + k.val) % 2048) % 16 = k.val
    omega

/-- The reshaped product is the projection: M[p, o, k] = sum over q of x[p, q] * T[q, o, k]. -/
theorem M_apply (p : Fin 256) (o : Fin 128) (k : Fin 16) :
    val_main_v2 (F := Ideal) x0 x1 (ix3 p o k) = Cert.Spec.proj x0 x1 (ix3 p o k) := by
  rw [val_main_v2_apply, val_main_v1_apply]
  show _ = ∑ q : Fin 1024, x0 (ix2 p q) * x1 (ix3 q o k)
  refine Finset.sum_congr rfl fun q _ => ?_
  rw [val_main_v0_apply, left_index, right_index]

/-! ## The L1 distance of two rows at a feature

Both broadcasts of M to 256 x 256 x 128 x 16 read M: the first at the partner row, the second at the row; the
difference is partner minus row, its absolute value the same as row minus partner, and the sum over the 16 inner
features starts from zero. -/

/-- The broadcast M[None, :, :, :] at (p, q, o, k) reads M at (q, o, k). -/
theorem partner_index (p q : Fin 256) (o : Fin 128) (k : Fin 16) :
    idx_main_v3 (idx_main_v5 (idx_main_v9 (ix3 p q o) k)) = ix3 q o k :=
  funext fun a => Fin.ext (by match a with | ⟨0, _⟩ => rfl | ⟨1, _⟩ => rfl | ⟨2, _⟩ => rfl)

/-- The broadcast M[:, None, :, :] at (p, q, o, k) reads M at (p, o, k). -/
theorem row_index (p q : Fin 256) (o : Fin 128) (k : Fin 16) :
    idx_main_v4 (idx_main_v6 (idx_main_v9 (ix3 p q o) k)) = ix3 p o k :=
  funext fun a => Fin.ext (by match a with | ⟨0, _⟩ => rfl | ⟨1, _⟩ => rfl | ⟨2, _⟩ => rfl)

/-- The reduced absolute difference at (p, q, o) is the L1 distance of rows p and q over the 16 inner features. -/
theorem dist_apply (p q : Fin 256) (o : Fin 128) :
    val_main_v9 (F := Ideal) x0 x1 (ix3 p q o)
      = ∑ k : Fin 16, Cert.Spec.eabs (Cert.Spec.proj x0 x1 (ix3 p o k) - Cert.Spec.proj x0 x1 (ix3 q o k)) := by
  rw [val_main_v9_apply, val_main_cst_apply, Ideal.ofBits_def, Ideal.ofBits_zero_f32, zero_add]
  refine Finset.sum_congr rfl fun k _ => ?_
  rw [val_main_v8_apply, val_main_v7_apply, val_main_v5_apply, val_main_v3_apply, val_main_v6_apply, val_main_v4_apply,
    partner_index, row_index, M_apply, M_apply, Ideal.hostAbsf_def, Ideal.absf_def, Ideal.subf_def,
    Cert.Spec.eabs_sub_comm]
  rfl

/-! ## The factor that leaves out the row itself

Two iotas compared for equality give the one-bit word [p = q]; converted to a float it is 1 or 0, and one minus it
is 0 on the diagonal and 1 off it. -/

/-- The compared iotas: the word is 1 exactly when the two rows are the same. -/
theorem same_row_word (p q : Fin 256) :
    IntOp.cmpi .eq (IntOp.addi (BitVec.ofNat 32 p.val) 0#32) (BitVec.ofNat 32 q.val) = if p = q then 1#1 else 0#1 := by
  by_cases h : p = q
  · subst h
    rw [if_pos rfl]
    show BitVec.ofBool (BitVec.ofNat 32 p.val + 0#32 == BitVec.ofNat 32 p.val) = 1#1
    rw [BitVec.add_zero, beq_self_eq_true]
    rfl
  · rw [if_neg h]
    have hne : (BitVec.ofNat 32 p.val + 0#32 == BitVec.ofNat 32 q.val) = false := by
      rw [beq_eq_false_iff_ne]
      intro e
      have e' := congrArg BitVec.toNat e
      simp only [BitVec.add_zero, BitVec.toNat_ofNat] at e'
      have hp := p.isLt; have hq := q.isLt
      exact h (Fin.ext (by omega))
    show BitVec.ofBool (BitVec.ofNat 32 p.val + 0#32 == BitVec.ofNat 32 q.val) = 0#1
    rw [hne]
    rfl

/-- One minus the converted word is 0 for the row with itself and 1 for any other partner. -/
theorem off_diagonal_apply (p q : Fin 256) (o : Fin 128) :
    val_main_v21 (F := Ideal) (ix3 p q o) = if p = q then 0 else 1 := by
  rw [val_main_v21_apply, val_main_v18_apply, val_main_v17_apply, val_main_cst_0_apply, val_main_v16_apply,
    val_main_v15_apply, val_main_v14_apply, val_main_v13_apply, val_main_v10_apply, val_main_v11_apply,
    val_main_v12_apply, val_main_c_apply, Ideal.ofBits_def, Ideal.ofBits_one_f32, Ideal.subf_def]
  show (1 : EReal) - FloatOps.uitofp (F := Ideal) .f32 (IntOp.cmpi .eq (IntOp.addi (BitVec.ofNat 32 p.val) 0#32) (BitVec.ofNat 32 q.val)) = _
  rw [same_row_word]
  by_cases h : p = q
  · rw [if_pos h, if_pos h]
    show ((1 : ℝ) : EReal) - (((1 : ℕ) : ℝ) : EReal) = ((0 : ℝ) : EReal)
    rw [← EReal.coe_sub]
    norm_num
  · rw [if_neg h, if_neg h]
    show (1 : EReal) - (((0 : ℕ) : ℝ) : EReal) = 1
    norm_num

/-! ## The feature array -/

/-- The reduction index at feature entry (p, o), partner q. -/
theorem partner_sum_index (p : Fin 256) (o : Fin 128) (q : Fin 256) :
    idx_main_v23 (ix2 p o) q = ix3 p q o :=
  funext fun a => Fin.ext (by match a with | ⟨0, _⟩ => rfl | ⟨1, _⟩ => rfl | ⟨2, _⟩ => rfl)

/-- The masked exponential at (p, q, o) is the specification's similarity term of row p with partner q. -/
theorem term_apply (p q : Fin 256) (o : Fin 128) :
    val_main_v22 (F := Ideal) x0 x1 (ix3 p q o) = Cert.Spec.term (Cert.Spec.proj x0 x1) p q o := by
  rw [val_main_v22_apply, val_main_v20_apply, val_main_v19_apply, dist_apply, off_diagonal_apply,
    Ideal.hostUnary_exp_def, Ideal.hostNegf_def, Ideal.negf_def, Ideal.mulf_def]
  unfold Cert.Spec.term
  rw [zero_sub]

end Entries

/-- The reference's feature array is the specification's, of the projection of its two arguments. -/
theorem ref_feat (x0 : (⟨S256x1024, .f32⟩ : BufTy).Contents (Elt Ideal)) (x1 : (⟨S1024x128x16, .f32⟩ : BufTy).Contents (Elt Ideal)) :
    (val_main_v23 (F := Ideal) x0 x1 : S256x128.Idx → EReal) = Cert.Spec.feat (Cert.Spec.proj x0 x1) := by
  funext j
  obtain ⟨p, o, rfl⟩ : ∃ (p : Fin 256) (o : Fin 128), j = ix2 p o := ⟨j 0, j 1, eq_ix2 j⟩
  rw [val_main_v23_apply, val_main_cst_1_apply, Ideal.ofBits_def, Ideal.ofBits_zero_f32, zero_add]
  show _ = ∑ q : Fin 256, Cert.Spec.term (Cert.Spec.proj x0 x1) p q o
  refine Finset.sum_congr rfl fun q _ => ?_
  rw [partner_sum_index, term_apply]

end Cert.ReferenceIdeal.RefValue

end
-- ==== Proof.lean ====
/-
  The certificate of the minibatch-discrimination kernel against its jnp reference.

  Both programs compute, from x : 256 x 1024 and T : 1024 x 128 x 16, the projected features
  M[p, o, k] = sum over q of x[p, q] * T[q, o, k], then for every row p and feature o the sum over all
  partner rows p' of exp(-(sum over k of |M[p, o, k] - M[p', o, k]|)), the row's own term left out, and
  return x with that 256 x 128 array appended along the second axis.

  The kernel's program does it in two pallas_calls: one matrix product per 128-row tile (operands cast to
  bf16, which is the identity on the extended reals), then a 4 x 4 grid over (row tile, partner tile) that
  keeps a 64 x 128 scratch across the four partner tiles of a row tile — zeroed at the first, added to at
  each, copied to the output block at the last, the only point where the output block is written back.
  The reference does it in one pass over 256 x 256 x 128 x 16 on the host.

  Frames: each program's run terminates, faults nowhere and leaves the arguments unchanged — for the two
  kernel programs from the two pallas_calls' region records (the body obligations, the invariant carrying
  the scratch, the array M held half and half by the two windows that read it), for the reference from its
  run.  The idealization rewrote nothing, so the preservation claim is trivial.  Equivalence at the ideal
  instance: both results are x with `feat (proj x T)` appended (Proof/Spec.lean); the kernel's arrangement
  and the reference's differ by the order of the subtraction under the absolute value, by writing -d as
  0 - d, by the 0/1 factor written as a compare or as 1 - [p = p'], and by the grouping of the sums, none
  of which needs the inputs finite.
-/
import proofs.«123585_j16758962389448_1_alg».proof.Defs
import proofs.«123585_j16758962389448_1_alg».proof.Proof.Gen.Kernel
import proofs.«123585_j16758962389448_1_alg».proof.Proof.Gen.KernelIdeal
import proofs.«123585_j16758962389448_1_alg».proof.Proof.Gen.ReferenceIdeal
import proofs.«123585_j16758962389448_1_alg».proof.Proof.Gen.Pre_finite_inputs
import proofs.«123585_j16758962389448_1_alg».proof.Proof.Gen.ReferenceIdeal.Run
import proofs.«123585_j16758962389448_1_alg».proof.Proof.Gen.ReferenceIdeal.Read
import proofs.«123585_j16758962389448_1_alg».proof.Proof.K.Main
import proofs.«123585_j16758962389448_1_alg».proof.Proof.Val.Main
import proofs.«123585_j16758962389448_1_alg».proof.Proof.Val.Ref
import Idealize.ShloMosaic.Adequacy
import Idealize.ShloMosaic.Init

noncomputable section

namespace Cert.Proof

open Idealize.ShloMosaic Idealize.ShloMosaic.TcCoe Idealize.SL.Sem

/-- The word-level program's frame. -/
theorem frame_k : Cert.frame_Kernel := fun m ρ _ => Cert.Kernel.Hand.frame m ρ

/-- The idealized program's frame. -/
theorem frame_ki : Cert.frame_KernelIdeal := fun m ρ _ => Cert.KernelIdeal.Hand.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal instance both programs end with x and the feature array of the projected features appended. -/
theorem algebraic : Cert.algebraic_KernelIdeal_ReferenceIdeal := by
  intro m ρ m' ρ' _ hagree
  refine ⟨_, (θ_run Cert.KernelIdeal.defs _ _).mono (fun r h c =>
      ⟨(h c _ (Cert.KernelIdeal.Hand.mem_uc Cert.KernelIdeal.main_v6 (by decide))).trans (Cert.KernelIdeal.Val.result_eq m c),
       (h c _ (Cert.KernelIdeal.Hand.mem_uc Cert.KernelIdeal.main_arg0 (by decide))).trans
         (Cert.KernelIdeal.Gen.V5_main_arg0 m (Cert.KernelIdeal.Hand.outs m) c),
       (h c _ (Cert.KernelIdeal.Hand.mem_uc Cert.KernelIdeal.main_arg1 (by decide))).trans
         (Cert.KernelIdeal.Gen.V5_main_arg1 m (Cert.KernelIdeal.Hand.outs m) c)⟩)
      (Cert.KernelIdeal.Hand.run (F := Ideal) m ρ), ?_⟩
  refine (θ_run Cert.ReferenceIdeal.defs _ _).mono (fun r h c => ⟨(h c).1.trans ?_, (h c).2.1, (h c).2.2⟩)
    (Cert.ReferenceIdeal.Value.run (F := Ideal) m' ρ')
  rw [Cert.ReferenceIdeal.Read.val_main_v24_eq]
  unfold Cert.ReferenceIdeal.Read.val_main_v24
  rw [Cert.ReferenceIdeal.RefValue.ref_feat, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
